-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S26x16384 : Shape := ⟨2, ![26, 16384]⟩
abbrev S16384 : Shape := ⟨1, ![16384]⟩
abbrev S26x100000x64 : Shape := ⟨3, ![26, 100000, 64]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S415x256 : Shape := ⟨2, ![415, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S26x100000x64 : S_.BroadcastsInDim S26x100000x64 (![] : Fin 0 → Fin S26x100000x64.rank)
  reducesTo_S26x100000x64_S_d0_1_2 : S26x100000x64.ReducesTo [0, 1, 2] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S415x256 : S_.BroadcastsInDim S415x256 (![] : Fin 0 → Fin S415x256.rank)
  reducesTo_S415x256_S_d0_1 : S415x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S26x16384 : S_.BroadcastsInDim S26x16384 (![] : Fin 0 → Fin S26x16384.rank)
  reducesTo_S26x16384_S_d0_1 : S26x16384.ReducesTo [0, 1] S_

variable [Facts]

def fn_part3 {F : FTy → Type} [FloatOps F] (main_arg0 : IVec S26x16384 32) (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S26x16384 32 := broadcastInDim S26x16384 ![] bcast_S_S26x16384 main_c_22
  let main_v60 : IVec S26x16384 1 := cmpi .sge main_arg0 main_v59
  let main_c_23 : IVec S_ 1 := constantI S_ 1 1#1
  let main_v61 : IVec S_ 1 := (fun x v => Host.reduce IntOp.andi x v reducesTo_S26x16384_S_d0_1 h_S_) main_v60 main_c_23
  let main_v62 : IVec S_ 1 := andi main_v58 main_v61
  let main_c_24 : IVec S_ 32 := constantI S_ 32 100000#32
  let main_v63 : IVec S26x16384 32 := broadcastInDim S26x16384 ![] bcast_S_S26x16384 main_c_24
  let main_v64 : IVec S26x16384 1 := cmpi .slt main_arg0 main_v63
  let main_c_25 : IVec S_ 1 := constantI S_ 1 1#1
  let main_v65 : IVec S_ 1 := (fun x v => Host.reduce IntOp.andi x v reducesTo_S26x16384_S_d0_1 h_S_) main_v64 main_c_25
  let main_v66 : IVec S_ 1 := andi main_v62 main_v65
  main_v66

def fn_part2 {F : FTy → Type} [FloatOps F] (main_arg0 : IVec S26x16384 32) (main_arg8 : FVec F S64 .f32) (main_arg9 : FVec F S415x256 .f32) (main_arg10 : FVec F S256 .f32) (main_arg11 : FVec F S256x1 .f32) (main_arg12 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S415x256 .f32 := Host.absf main_arg9
  let main_cst_14 : FVec F S_ .f32 := constant S_ .f32 0x7F800000#32
  let main_v40 : FVec F S415x256 .f32 := broadcastInDim S415x256 ![] bcast_S_S415x256 main_cst_14
  let main_v41 : IVec S415x256 1 := cmpf .olt main_v39 main_v40
  let main_c_15 : IVec S_ 1 := constantI S_ 1 1#1
  let main_v42 : IVec S_ 1 := (fun x v => Host.reduce IntOp.andi x v reducesTo_S415x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg0 main_arg12 main_v48 main_v49 main_v50

def fn_part1 {F : FTy → Type} [FloatOps F] (main_arg0 : IVec S26x16384 32) (main_arg5 : FVec F S64x128 .f32) (main_arg6 : FVec F S128 .f32) (main_arg7 : FVec F S128x64 .f32) (main_arg8 : FVec F S64 .f32) (main_arg9 : FVec F S415x256 .f32) (main_arg10 : FVec F S256 .f32) (main_arg11 : FVec F S256x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg8 main_arg9 main_arg10 main_arg11 main_arg12 main_v33

def fn {F : FTy → Type} [FloatOps F] (main_arg0 : IVec S26x16384 32) (main_arg1 : FVec F S16384 .f32) (main_arg2 : FVec F S26x100000x64 .f32) (main_arg3 : FVec F S1x64 .f32) (main_arg4 : FVec F S64 .f32) (main_arg5 : FVec F S64x128 .f32) (main_arg6 : FVec F S128 .f32) (main_arg7 : FVec F S128x64 .f32) (main_arg8 : FVec F S64 .f32) (main_arg9 : FVec F S415x256 .f32) (main_arg10 : FVec F S256 .f32) (main_arg11 : FVec F S256x1 .f32) (main_arg12 : FVec F S1 .f32) : IVec S_ 1 :=
  let main_v0 : FVec F S16384 .f32 := Host.absf main_arg1
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S26x100000x64 .f32 := Host.absf main_arg2
  let main_cst_0 : FVec F S_ .f32 := constant S_ .f32 0x7F800000#32
  let main_v5 : FVec F S26x100000x64 .f32 := broadcastInDim S26x100000x64 ![] bcast_S_S26x100000x64 main_cst_0
  let main_v6 : IVec S26x100000x64 1 := cmpf .olt main_v4 main_v5
  let main_c_1 : IVec S_ 1 := constantI S_ 1 1#1
  let main_v7 : IVec S_ 1 := (fun x v => Host.reduce IntOp.andi x v reducesTo_S26x100000x64_S_d0_1_2 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg5 main_arg6 main_arg7 main_arg8 main_arg9 main_arg10 main_arg11 main_arg12 main_v13 main_v16
-- ==== Kernel.lean ====
abbrev S26x16384 : Shape := ⟨2, ![26, 16384]⟩
abbrev S16384 : Shape := ⟨1, ![16384]⟩
abbrev S26x100000x64 : Shape := ⟨3, ![26, 100000, 64]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S415x256 : Shape := ⟨2, ![415, 256]⟩
abbrev S256 : Shape := ⟨1, ![256]⟩
abbrev S256x1 : Shape := ⟨2, ![256, 1]⟩
abbrev S1 : Shape := ⟨1, ![1]⟩
abbrev S325 : Shape := ⟨1, ![325]⟩
abbrev S26 : Shape := ⟨1, ![26]⟩
abbrev S_ : Shape := ⟨0, ![]⟩
abbrev S1x26 : Shape := ⟨2, ![1, 26]⟩
abbrev S16384x26 : Shape := ⟨2, ![16384, 26]⟩
abbrev S16384x26x1 : Shape := ⟨3, ![16384, 26, 1]⟩
abbrev S16384x26x2 : Shape := ⟨3, ![16384, 26, 2]⟩
abbrev S16384x26x64 : Shape := ⟨3, ![16384, 26, 64]⟩
abbrev S16384x1 : Shape := ⟨2, ![16384, 1]⟩
abbrev S1x128 : Shape := ⟨2, ![1, 128]⟩
abbrev S351x256 : Shape := ⟨2, ![351, 256]⟩
abbrev S64x256 : Shape := ⟨2, ![64, 256]⟩
abbrev S676x256 : Shape := ⟨2, ![676, 256]⟩
abbrev S325x1 : Shape := ⟨2, ![325, 1]⟩
abbrev S325x256 : Shape := ⟨2, ![325, 256]⟩
abbrev S26x256 : Shape := ⟨2, ![26, 256]⟩
abbrev S26x1 : Shape := ⟨2, ![26, 1]⟩
abbrev S1x256 : Shape := ⟨2, ![1, 256]⟩
abbrev S1x1 : Shape := ⟨2, ![1, 1]⟩
abbrev S512x26x64 : Shape := ⟨3, ![512, 26, 64]⟩
abbrev S512x1 : Shape := ⟨2, ![512, 1]⟩
abbrev S512x64 : Shape := ⟨2, ![512, 64]⟩
abbrev S512x26x26 : Shape := ⟨3, ![512, 26, 26]⟩
abbrev S512x676 : Shape := ⟨2, ![512, 676]⟩
abbrev S512x1x64 : Shape := ⟨3, ![512, 1, 64]⟩
abbrev S512x26 : Shape := ⟨2, ![512, 26]⟩
abbrev S512x128 : Shape := ⟨2, ![512, 128]⟩
abbrev S512x256 : Shape := ⟨2, ![512, 256]⟩

abbrev nBuf : Space → Nat
  | .hbm => 96
  | .vmem => 18
  | .smem => 0
  | _ => 0

abbrev bufTy : (tb : Table) → Fin (tcTables nBuf tb) → BufTy
  | .hbm, ⟨0, _⟩ => ⟨S26x16384, .i32⟩
  | .hbm, ⟨1, _⟩ => ⟨S16384, .f32⟩
  | .hbm, ⟨2, _⟩ => ⟨S26x100000x64, .f32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S415x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S325, .i32⟩
  | .hbm, ⟨14, _⟩ => ⟨S325, .i1⟩
  | .hbm, ⟨15, _⟩ => ⟨S325, .i32⟩
  | .hbm, ⟨16, _⟩ => ⟨S325, .i1⟩
  | .hbm, ⟨17, _⟩ => ⟨S26, .i32⟩
  | .hbm, ⟨18, _⟩ => ⟨S26, .i1⟩
  | .hbm, ⟨19, _⟩ => ⟨S26, .i32⟩
  | .hbm, ⟨20, _⟩ => ⟨S26, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S26x16384, .i32⟩
  | .hbm, ⟨25, _⟩ => ⟨S26x16384, .i32⟩
  | .hbm, ⟨26, _⟩ => ⟨S_, .i32⟩
  | .hbm, ⟨27, _⟩ => ⟨S26x16384, .i32⟩
  | .hbm, ⟨28, _⟩ => ⟨S26x16384, .i32⟩
  | .hbm, ⟨29, _⟩ => ⟨S26, .i32⟩
  | .hbm, ⟨30, _⟩ => ⟨S1x26, .i32⟩
  | .hbm, ⟨31, _⟩ => ⟨S16384x26, .i32⟩
  | .hbm, ⟨32, _⟩ => ⟨S_, .i32⟩
  | .hbm, ⟨33, _⟩ => ⟨S1x26, .i32⟩
  | .hbm, ⟨34, _⟩ => ⟨S1x26, .i1⟩
  | .hbm, ⟨35, _⟩ => ⟨S_, .i32⟩
  | .hbm, ⟨36, _⟩ => ⟨S1x26, .i32⟩
  | .hbm, ⟨37, _⟩ => ⟨S1x26, .i32⟩
  | .hbm, ⟨38, _⟩ => ⟨S1x26, .i32⟩
  | .hbm, ⟨39, _⟩ => ⟨S_, .i32⟩
  | .hbm, ⟨40, _⟩ => ⟨S16384x26, .i32⟩
  | .hbm, ⟨41, _⟩ => ⟨S16384x26, .i1⟩
  | .hbm, ⟨42, _⟩ => ⟨S_, .i32⟩
  | .hbm, ⟨43, _⟩ => ⟨S16384x26, .i32⟩
  | .hbm, ⟨44, _⟩ => ⟨S16384x26, .i32⟩
  | .hbm, ⟨45, _⟩ => ⟨S16384x26, .i32⟩
  | .hbm, ⟨46, _⟩ => ⟨S16384x26, .i32⟩
  | .hbm, ⟨47, _⟩ => ⟨S16384x26x1, .i32⟩
  | .hbm, ⟨48, _⟩ => ⟨S16384x26x1, .i32⟩
  | .hbm, ⟨49, _⟩ => ⟨S16384x26x2, .i32⟩
  | .hbm, ⟨50, _⟩ => ⟨S16384x26x64, .f32⟩
  | .hbm, ⟨51, _⟩ => ⟨S16384x26x64, .bf16⟩
  | .hbm, ⟨52, _⟩ => ⟨S16384x1, .f32⟩
  | .hbm, ⟨53, _⟩ => ⟨S1x64, .f32⟩
  | .hbm, ⟨54, _⟩ => ⟨S64x128, .bf16⟩
  | .hbm, ⟨55, _⟩ => ⟨S1x128, .f32⟩
  | .hbm, ⟨56, _⟩ => ⟨S128x64, .bf16⟩
  | .hbm, ⟨57, _⟩ => ⟨S1x64, .f32⟩
  | .hbm, ⟨58, _⟩ => ⟨S351x256, .f32⟩
  | .hbm, ⟨59, _⟩ => ⟨S64x256, .f32⟩
  | .hbm, ⟨60, _⟩ => ⟨S_, .f32⟩
  | .hbm, ⟨61, _⟩ => ⟨S676x256, .f32⟩
  | .hbm, ⟨62, _⟩ => ⟨S_, .i32⟩
  | .hbm, ⟨63, _⟩ => ⟨S325, .i32⟩
  | .hbm, ⟨64, _⟩ => ⟨S325, .i32⟩
  | .hbm, ⟨65, _⟩ => ⟨S325, .i32⟩
  | .hbm, ⟨66, _⟩ => ⟨S325x1, .i32⟩
  | .hbm, ⟨67, _⟩ => ⟨S325x256, .f32⟩
  | .hbm, ⟨68, _⟩ => ⟨S_, .i32⟩
  | .hbm, ⟨69, _⟩ => ⟨S325, .i32⟩
  | .hbm, ⟨70, _⟩ => ⟨S325, .i32⟩
  | .hbm, ⟨71, _⟩ => ⟨S325, .i32⟩
  | .hbm, ⟨72, _⟩ => ⟨S325x1, .i32⟩
  | .hbm, ⟨73, _⟩ => ⟨S676x256, .f32⟩
  | .hbm, ⟨74, _⟩ => ⟨S_, .f32⟩
  | .hbm, ⟨75, _⟩ => ⟨S26x256, .f32⟩
  | .hbm, ⟨76, _⟩ => ⟨S_, .i32⟩
  | .hbm, ⟨77, _⟩ => ⟨S26, .i32⟩
  | .hbm, ⟨78, _⟩ => ⟨S26, .i32⟩
  | .hbm, ⟨79, _⟩ => ⟨S26, .i32⟩
  | .hbm, ⟨80, _⟩ => ⟨S26x1, .i32⟩
  | .hbm, ⟨81, _⟩ => ⟨S26x256, .f32⟩
  | .hbm, ⟨82, _⟩ => ⟨S_, .i32⟩
  | .hbm, ⟨83, _⟩ => ⟨S26, .i32⟩
  | .hbm, ⟨84, _⟩ => ⟨S26, .i32⟩
  | .hbm, ⟨85, _⟩ => ⟨S26, .i32⟩
  | .hbm, ⟨86, _⟩ => ⟨S26x1, .i32⟩
  | .hbm, ⟨87, _⟩ => ⟨S26x256, .f32⟩
  | .hbm, ⟨88, _⟩ => ⟨S676x256, .bf16⟩
  | .hbm, ⟨89, _⟩ => ⟨S26x256, .bf16⟩
  | .hbm, ⟨90, _⟩ => ⟨S64x256, .bf16⟩
  | .hbm, ⟨91, _⟩ => ⟨S1x256, .f32⟩
  | .hbm, ⟨92, _⟩ => ⟨S256x1, .bf16⟩
  | .hbm, ⟨93, _⟩ => ⟨S1x1, .f32⟩
  | .hbm, ⟨94, _⟩ => ⟨S16384x1, .f32⟩
  | .hbm, ⟨95, _⟩ => ⟨S16384, .f32⟩
  | .local _ .vmem, ⟨0, _⟩ => ⟨S512x26x64, .bf16⟩
  | .local _ .vmem, ⟨1, _⟩ => ⟨S512x26x64, .bf16⟩
  | .local _ .vmem, ⟨2, _⟩ => ⟨S512x1, .f32⟩
  | .local _ .vmem, ⟨3, _⟩ => ⟨S512x1, .f32⟩
  | .local _ .vmem, ⟨4, _⟩ => ⟨S1x64, .f32⟩
  | .local _ .vmem, ⟨5, _⟩ => ⟨S1x64, .f32⟩
  | .local _ .vmem, ⟨6, _⟩ => ⟨S64x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S676x256, .bf16⟩
  | .local _ .vmem, ⟨11, _⟩ => ⟨S26x256, .bf16⟩
  | .local _ .vmem, ⟨12, _⟩ => ⟨S64x256, .bf16⟩
  | .local _ .vmem, ⟨13, _⟩ => ⟨S1x256, .f32⟩
  | .local _ .vmem, ⟨14, _⟩ => ⟨S256x1, .bf16⟩
  | .local _ .vmem, ⟨15, _⟩ => ⟨S1x1, .f32⟩
  | .local _ .vmem, ⟨16, _⟩ => ⟨S512x1, .f32⟩
  | .local _ .vmem, ⟨17, _⟩ => ⟨S512x1, .f32⟩
  | _, _ => ⟨S26x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_c_2 : Ref sig .tc := ⟨.hbm, 16, rfl⟩
abbrev main_call0_c_3 : Ref sig .tc := ⟨.hbm, 17, rfl⟩
abbrev main_call0_c_4 : Ref sig .tc := ⟨.hbm, 18, rfl⟩
abbrev main_call0_c_5 : Ref sig .tc := ⟨.hbm, 19, rfl⟩
abbrev main_call0_c_6 : Ref sig .tc := ⟨.hbm, 20, rfl⟩
abbrev main_call0_c_7 : Ref sig .tc := ⟨.hbm, 21, rfl⟩
abbrev main_call0_c_8 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_c_9 : Ref sig .tc := ⟨.hbm, 32, rfl⟩
abbrev main_call0_v4 : Ref sig .tc := ⟨.hbm, 33, rfl⟩
abbrev main_call0_v5 : Ref sig .tc := ⟨.hbm, 34, rfl⟩
abbrev main_call0_c_10 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c_11 : Ref sig .tc := ⟨.hbm, 39, rfl⟩
abbrev main_call0_v9 : Ref sig .tc := ⟨.hbm, 40, rfl⟩
abbrev main_call0_v10 : Ref sig .tc := ⟨.hbm, 41, rfl⟩
abbrev main_call0_c_12 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_call0_v17 : Ref sig .tc := ⟨.hbm, 49, rfl⟩
abbrev main_call0_v18 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_call0_v22 : Ref sig .tc := ⟨.hbm, 54, rfl⟩
abbrev main_call0_v23 : Ref sig .tc := ⟨.hbm, 55, rfl⟩
abbrev main_call0_v24 : Ref sig .tc := ⟨.hbm, 56, rfl⟩
abbrev main_call0_v25 : Ref sig .tc := ⟨.hbm, 57, rfl⟩
abbrev main_call0_v26 : Ref sig .tc := ⟨.hbm, 58, rfl⟩
abbrev main_call0_v27 : Ref sig .tc := ⟨.hbm, 59, rfl⟩
abbrev main_call0_cst : Ref sig .tc := ⟨.hbm, 60, rfl⟩
abbrev main_call0_v28 : Ref sig .tc := ⟨.hbm, 61, rfl⟩
abbrev main_call0_c_13 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_v32 : Ref sig .tc := ⟨.hbm, 66, rfl⟩
abbrev main_call0_v33 : Ref sig .tc := ⟨.hbm, 67, rfl⟩
abbrev main_call0_c_14 : Ref sig .tc := ⟨.hbm, 68, rfl⟩
abbrev main_call0_v34 : Ref sig .tc := ⟨.hbm, 69, rfl⟩
abbrev main_call0_v35 : Ref sig .tc := ⟨.hbm, 70, rfl⟩
abbrev main_call0_v36 : Ref sig .tc := ⟨.hbm, 71, rfl⟩
abbrev main_call0_v37 : Ref sig .tc := ⟨.hbm, 72, rfl⟩
abbrev main_call0_v38 : Ref sig .tc := ⟨.hbm, 73, rfl⟩
abbrev main_call0_cst_15 : Ref sig .tc := ⟨.hbm, 74, rfl⟩
abbrev main_call0_v39 : Ref sig .tc := ⟨.hbm, 75, rfl⟩
abbrev main_call0_c_16 : Ref sig .tc := ⟨.hbm, 76, rfl⟩
abbrev main_call0_v40 : Ref sig .tc := ⟨.hbm, 77, rfl⟩
abbrev main_call0_v41 : Ref sig .tc := ⟨.hbm, 78, rfl⟩
abbrev main_call0_v42 : Ref sig .tc := ⟨.hbm, 79, rfl⟩
abbrev main_call0_v43 : Ref sig .tc := ⟨.hbm, 80, rfl⟩
abbrev main_call0_v44 : Ref sig .tc := ⟨.hbm, 81, rfl⟩
abbrev main_call0_c_17 : Ref sig .tc := ⟨.hbm, 82, rfl⟩
abbrev main_call0_v45 : Ref sig .tc := ⟨.hbm, 83, rfl⟩
abbrev main_call0_v46 : Ref sig .tc := ⟨.hbm, 84, rfl⟩
abbrev main_call0_v47 : Ref sig .tc := ⟨.hbm, 85, rfl⟩
abbrev main_call0_v48 : Ref sig .tc := ⟨.hbm, 86, rfl⟩
abbrev main_call0_v49 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_call0_v53 : Ref sig .tc := ⟨.hbm, 91, rfl⟩
abbrev main_call0_v54 : Ref sig .tc := ⟨.hbm, 92, rfl⟩
abbrev main_call0_v55 : Ref sig .tc := ⟨.hbm, 93, rfl⟩
abbrev main_call0_v56 : Ref sig .tc := ⟨.hbm, 94, rfl⟩
abbrev main_v0 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x26x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S676x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S26x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S26x16384 : S_.BroadcastsInDim S26x16384 (![] : Fin 0 → Fin S26x16384.rank)
  bcast_S26_S1x26_1 : S26.BroadcastsInDim S1x26 (![1] : Fin 1 → Fin S1x26.rank)
  transposes_S26x16384_S16384x26_1_0 : S26x16384.Transposes [1, 0] S16384x26
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bitsLt_bf16_f32 : FTy.bits .bf16 < FTy.bits .f32
  shapeCasts_S16384_S16384x1 : S16384.ShapeCasts S16384x1
  shapeCasts_S64_S1x64 : S64.ShapeCasts S1x64
  shapeCasts_S128_S1x128 : S128.ShapeCasts S1x128
  slices_S415x256_S351x256_0_0 : S415x256.Slices ![0, 0] S351x256
  slices_S415x256_S64x256_351_0 : S415x256.Slices ![351, 0] S64x256
  bcast_S_S676x256 : S_.BroadcastsInDim S676x256 (![] : Fin 0 → Fin S676x256.rank)
  bcast_S_S325 : S_.BroadcastsInDim S325 (![] : Fin 0 → Fin S325.rank)
  bcast_S325_S325x1_0 : S325.BroadcastsInDim S325x1 (![0] : Fin 1 → Fin S325x1.rank)
  bcast_S_S26x256 : S_.BroadcastsInDim S26x256 (![] : Fin 0 → Fin S26x256.rank)
  bcast_S_S26 : S_.BroadcastsInDim S26 (![] : Fin 0 → Fin S26.rank)
  bcast_S26_S26x1_0 : S26.BroadcastsInDim S26x1 (![0] : Fin 1 → Fin S26x1.rank)
  shapeCasts_S256_S1x256 : S256.ShapeCasts S1x256
  shapeCasts_S1_S1x1 : S1.ShapeCasts S1x1
  shapeCasts_S16384x1_S16384 : S16384x1.ShapeCasts S16384
  inb_S512x26x64_S512x26x64_0_0_0 : ∀ a, (![0, 0, 0] : Fin 3 → Nat) a + S512x26x64.size a ≤ S512x26x64.size a
  h_S512x26x64 : 0 < S512x26x64.numel
  shapeCasts_S512x26x64_S512x26x64 : S512x26x64.ShapeCasts S512x26x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S512x1_S512x64 : S512x1.Broadcasts S512x64
  broadcasts_S1x64_S512x64 : S1x64.Broadcasts S512x64
  shapeCasts_S512x26x26_S512x676 : S512x26x26.ShapeCasts S512x676
  shapeCasts_S512x64_S512x1x64 : S512x64.ShapeCasts S512x1x64
  broadcasts_S512x1x64_S512x26x64 : S512x1x64.Broadcasts S512x26x64
  reduces_S512x26x64_S512x26 : S512x26x64.Reduces [2] S512x26
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S676x256_S676x256_0_0 : ∀ a, (![0, 0] : Fin 2 → Nat) a + S676x256.size a ≤ S676x256.size a
  h_S676x256 : 0 < S676x256.numel
  shapeCasts_S676x256_S676x256 : S676x256.ShapeCasts S676x256
  inb_S26x256_S26x256_0_0 : ∀ a, (![0, 0] : Fin 2 → Nat) a + S26x256.size a ≤ S26x256.size a
  h_S26x256 : 0 < S26x256.numel
  shapeCasts_S26x256_S26x256 : S26x256.ShapeCasts S26x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  gather_S26x100000x64_S16384x26x2_S16384x26x64_2_01_n_n_01_2_1164_wf : GatherDims.WF S26x100000x64 S16384x26x2 S16384x26x64 [2] [0, 1] [] [0, 1] [] 2 ![1, 1, 64]
  gather_S351x256_S325x1_S325x256_1_0_n_n_0_1_1256_wf : GatherDims.WF S351x256 S325x1 S325x256 [1] [0] [] [0] [] 1 ![1, 256]
  scatter_S676x256_S325x1_S325x256_1_0_0_1_wf : ScatterDims.WF S676x256 S325x1 S325x256 [1] [0] [0] 1
  gather_S351x256_S26x1_S26x256_1_0_n_n_0_1_1256_wf : GatherDims.WF S351x256 S26x1 S26x256 [1] [0] [] [0] [] 1 ![1, 256]
  scatter_S26x256_S26x1_S26x256_1_0_0_1_wf : ScatterDims.WF S26x256 S26x1 S26x256 [1] [0] [0] 1
  dot_S512x26x64_S512x26x64_S512x26x26_2_2_1_1_0_0_wf : DotDims.WF S512x26x64 S512x26x64 S512x26x26 [2] [2] [1] [1] [0] [0]
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []
  dot_S512x676_S676x256_S512x256_1_0_0_1_n_n_wf : DotDims.WF S512x676 S676x256 S512x256 [1] [0] [0] [1] [] []
  dot_S512x26_S26x256_S512x256_1_0_0_1_n_n_wf : DotDims.WF S512x26 S26x256 S512x256 [1] [0] [0] [1] [] []
  dot_S512x64_S64x256_S512x256_1_0_0_1_n_n_wf : DotDims.WF S512x64 S64x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x26x64.size a ≤ S16384x26x64.size a
  hwx0_0 : ∀ i : grid0.Coords, EltTy.bits .bf16 = 32 ∨ (Rect.block (s := S16384x26x64) S512x26x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S676x256.size a ≤ S676x256.size a
  hwx0_8 : ∀ i : grid0.Coords, EltTy.bits .bf16 = 32 ∨ (Rect.block (s := S676x256) S676x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S26x256.size a ≤ S26x256.size a
  hwx0_9 : ∀ i : grid0.Coords, EltTy.bits .bf16 = 32 ∨ (Rect.block (s := S26x256) S26x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x256.size a ≤ S64x256.size a
  hwx0_10 : ∀ i : grid0.Coords, EltTy.bits .bf16 = 32 ∨ (Rect.block (s := S64x256) S64x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .bf16 = 32 ∨ (Rect.block (s := S256x1) S256x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S16384x1.size a
  hwx0_14 : ∀ i : grid0.Coords, EltTy.bits .f32 = 32 ∨ (Rect.block (s := S16384x1) S512x1.size (cc0_transform_14 i) (hinb0_14 i)).WholeWords (EltTy.packing .f32)

variable [Facts₀]

def gather_S26x100000x64_S16384x26x2_S16384x26x64_2_01_n_n_01_2_1164 : GatherDims S26x100000x64 S16384x26x2 S16384x26x64 where
  offsetDims := [2]
  collapsedSliceDims := [0, 1]
  operandBatchingDims := []
  startIndicesBatchingDims := []
  startIndexMap := [0, 1]
  indexVectorDim := 2
  sliceSizes := ![1, 1, 64]
  wf := gather_S26x100000x64_S16384x26x2_S16384x26x64_2_01_n_n_01_2_1164_wf
def gather_S351x256_S325x1_S325x256_1_0_n_n_0_1_1256 : GatherDims S351x256 S325x1 S325x256 where
  offsetDims := [1]
  collapsedSliceDims := [0]
  operandBatchingDims := []
  startIndicesBatchingDims := []
  startIndexMap := [0]
  indexVectorDim := 1
  sliceSizes := ![1, 256]
  wf := gather_S351x256_S325x1_S325x256_1_0_n_n_0_1_1256_wf
def scatter_S676x256_S325x1_S325x256_1_0_0_1 : ScatterDims S676x256 S325x1 S325x256 where
  updateWindowDims := [1]
  insertedWindowDims := [0]
  scatterDimsToOperandDims := [0]
  indexVectorDim := 1
  wf := scatter_S676x256_S325x1_S325x256_1_0_0_1_wf
def gather_S351x256_S26x1_S26x256_1_0_n_n_0_1_1256 : GatherDims S351x256 S26x1 S26x256 where
  offsetDims := [1]
  collapsedSliceDims := [0]
  operandBatchingDims := []
  startIndicesBatchingDims := []
  startIndexMap := [0]
  indexVectorDim := 1
  sliceSizes := ![1, 256]
  wf := gather_S351x256_S26x1_S26x256_1_0_n_n_0_1_1256_wf
def scatter_S26x256_S26x1_S26x256_1_0_0_1 : ScatterDims S26x256 S26x1 S26x256 where
  updateWindowDims := [1]
  insertedWindowDims := [0]
  scatterDimsToOperandDims := [0]
  indexVectorDim := 1
  wf := scatter_S26x256_S26x1_S26x256_1_0_0_1_wf
def dot_S512x26x64_S512x26x64_S512x26x26_2_2_1_1_0_0 : DotDims S512x26x64 S512x26x64 S512x26x26 where
  lhsContracting := [2]
  rhsContracting := [2]
  lhsNonContracting := [1]
  rhsNonContracting := [1]
  lhsBatch := [0]
  rhsBatch := [0]
  wf := dot_S512x26x64_S512x26x64_S512x26x26_2_2_1_1_0_0_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x676_S676x256_S512x256_1_0_0_1_n_n : DotDims S512x676 S676x256 S512x256 where
  lhsContracting := [1]
  rhsContracting := [0]
  lhsNonContracting := [0]
  rhsNonContracting := [1]
  lhsBatch := []
  rhsBatch := []
  wf := dot_S512x676_S676x256_S512x256_1_0_0_1_n_n_wf
def dot_S512x26_S26x256_S512x256_1_0_0_1_n_n : DotDims S512x26 S26x256 S512x256 where
  lhsContracting := [1]
  rhsContracting := [0]
  lhsNonContracting := [0]
  rhsNonContracting := [1]
  lhsBatch := []
  rhsBatch := []
  wf := dot_S512x26_S26x256_S512x256_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_call0_v19) S512x26x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v20) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v24) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v50) S676x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v51) S26x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v52) S64x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v53) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v54) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v55) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v56) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S26x16384 : Shape := ⟨2, ![26, 16384]⟩
abbrev S16384 : Shape := ⟨1, ![16384]⟩
abbrev S26x100000x64 : Shape := ⟨3, ![26, 100000, 64]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S415x256 : Shape := ⟨2, ![415, 256]⟩
abbrev S256 : Shape := ⟨1, ![256]⟩
abbrev S256x1 : Shape := ⟨2, ![256, 1]⟩
abbrev S1 : Shape := ⟨1, ![1]⟩
abbrev S351 : Shape := ⟨1, ![351]⟩
abbrev S26 : Shape := ⟨1, ![26]⟩
abbrev S26x1 : Shape := ⟨2, ![26, 1]⟩
abbrev S_ : Shape := ⟨0, ![]⟩
abbrev S26x16384x1 : Shape := ⟨3, ![26, 16384, 1]⟩
abbrev S26x16384x2 : Shape := ⟨3, ![26, 16384, 2]⟩
abbrev S26x16384x64 : Shape := ⟨3, ![26, 16384, 64]⟩
abbrev S16384x26x64 : Shape := ⟨3, ![16384, 26, 64]⟩
abbrev S16384x1 : Shape := ⟨2, ![16384, 1]⟩
abbrev S16384x64 : Shape := ⟨2, ![16384, 64]⟩
abbrev S16384x1x64 : Shape := ⟨3, ![16384, 1, 64]⟩
abbrev S16384x27x64 : Shape := ⟨3, ![16384, 27, 64]⟩
abbrev S16384x27x27 : Shape := ⟨3, ![16384, 27, 27]⟩
abbrev S351x1 : Shape := ⟨2, ![351, 1]⟩
abbrev S351x2 : Shape := ⟨2, ![351, 2]⟩
abbrev S16384x351 : Shape := ⟨2, ![16384, 351]⟩
abbrev S16384x128 : Shape := ⟨2, ![16384, 128]⟩
abbrev S1x128 : Shape := ⟨2, ![1, 128]⟩
abbrev S16384x415 : Shape := ⟨2, ![16384, 415]⟩
abbrev S16384x256 : Shape := ⟨2, ![16384, 256]⟩
abbrev S1x256 : Shape := ⟨2, ![1, 256]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S26x16384, .i32⟩
  | .hbm, ⟨1, _⟩ => ⟨S16384, .f32⟩
  | .hbm, ⟨2, _⟩ => ⟨S26x100000x64, .f32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S415x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S351, .i32⟩
  | .hbm, ⟨14, _⟩ => ⟨S351, .i1⟩
  | .hbm, ⟨15, _⟩ => ⟨S351, .i32⟩
  | .hbm, ⟨16, _⟩ => ⟨S351, .i1⟩
  | .hbm, ⟨17, _⟩ => ⟨S26, .i32⟩
  | .hbm, ⟨18, _⟩ => ⟨S26x1, .i32⟩
  | .hbm, ⟨19, _⟩ => ⟨S_, .i32⟩
  | .hbm, ⟨20, _⟩ => ⟨S26x1, .i32⟩
  | .hbm, ⟨21, _⟩ => ⟨S26x1, .i1⟩
  | .hbm, ⟨22, _⟩ => ⟨S_, .i32⟩
  | .hbm, ⟨23, _⟩ => ⟨S26x1, .i32⟩
  | .hbm, ⟨24, _⟩ => ⟨S26x1, .i32⟩
  | .hbm, ⟨25, _⟩ => ⟨S26x1, .i32⟩
  | .hbm, ⟨26, _⟩ => ⟨S_, .i32⟩
  | .hbm, ⟨27, _⟩ => ⟨S26x16384, .i32⟩
  | .hbm, ⟨28, _⟩ => ⟨S26x16384, .i1⟩
  | .hbm, ⟨29, _⟩ => ⟨S_, .i32⟩
  | .hbm, ⟨30, _⟩ => ⟨S26x16384, .i32⟩
  | .hbm, ⟨31, _⟩ => ⟨S26x16384, .i32⟩
  | .hbm, ⟨32, _⟩ => ⟨S26x16384, .i32⟩
  | .hbm, ⟨33, _⟩ => ⟨S26x16384, .i32⟩
  | .hbm, ⟨34, _⟩ => ⟨S26x16384x1, .i32⟩
  | .hbm, ⟨35, _⟩ => ⟨S26x16384x1, .i32⟩
  | .hbm, ⟨36, _⟩ => ⟨S26x16384x2, .i32⟩
  | .hbm, ⟨37, _⟩ => ⟨S26x16384x64, .f32⟩
  | .hbm, ⟨38, _⟩ => ⟨S16384x26x64, .f32⟩
  | .hbm, ⟨39, _⟩ => ⟨S16384x1, .f32⟩
  | .hbm, ⟨40, _⟩ => ⟨S16384x64, .f32⟩
  | .hbm, ⟨41, _⟩ => ⟨S1x64, .f32⟩
  | .hbm, ⟨42, _⟩ => ⟨S16384x64, .f32⟩
  | .hbm, ⟨43, _⟩ => ⟨S16384x64, .f32⟩
  | .hbm, ⟨44, _⟩ => ⟨S16384x1x64, .f32⟩
  | .hbm, ⟨45, _⟩ => ⟨S16384x27x64, .f32⟩
  | .hbm, ⟨46, _⟩ => ⟨S16384x27x27, .f32⟩
  | .hbm, ⟨47, _⟩ => ⟨S_, .i32⟩
  | .hbm, ⟨48, _⟩ => ⟨S351, .i32⟩
  | .hbm, ⟨49, _⟩ => ⟨S351, .i32⟩
  | .hbm, ⟨50, _⟩ => ⟨S351, .i32⟩
  | .hbm, ⟨51, _⟩ => ⟨S_, .i32⟩
  | .hbm, ⟨52, _⟩ => ⟨S351, .i32⟩
  | .hbm, ⟨53, _⟩ => ⟨S351, .i32⟩
  | .hbm, ⟨54, _⟩ => ⟨S351, .i32⟩
  | .hbm, ⟨55, _⟩ => ⟨S351x1, .i32⟩
  | .hbm, ⟨56, _⟩ => ⟨S351x1, .i32⟩
  | .hbm, ⟨57, _⟩ => ⟨S351x2, .i32⟩
  | .hbm, ⟨58, _⟩ => ⟨S16384x351, .f32⟩
  | .hbm, ⟨59, _⟩ => ⟨S16384x128, .f32⟩
  | .hbm, ⟨60, _⟩ => ⟨S1x128, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S16384x415, .f32⟩
  | .hbm, ⟨74, _⟩ => ⟨S16384x256, .f32⟩
  | .hbm, ⟨75, _⟩ => ⟨S1x256, .f32⟩
  | .hbm, ⟨76, _⟩ => ⟨S16384x256, .f32⟩
  | .hbm, ⟨77, _⟩ => ⟨S16384x256, .f32⟩
  | .hbm, ⟨78, _⟩ => ⟨S_, .f32⟩
  | .hbm, ⟨79, _⟩ => ⟨S16384x256, .f32⟩
  | .hbm, ⟨80, _⟩ => ⟨S16384x256, .f32⟩
  | .hbm, ⟨81, _⟩ => ⟨S16384x1, .f32⟩
  | .hbm, ⟨82, _⟩ => ⟨S1x1, .f32⟩
  | .hbm, ⟨83, _⟩ => ⟨S16384x1, .f32⟩
  | .hbm, ⟨84, _⟩ => ⟨S16384x1, .f32⟩
  | .hbm, ⟨85, _⟩ => ⟨S16384, .f32⟩
  | _, _ => ⟨S26x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v0 : Ref sig .tc := ⟨.hbm, 17, rfl⟩
abbrev main_v1 : Ref sig .tc := ⟨.hbm, 18, rfl⟩
abbrev main_c_3 : Ref sig .tc := ⟨.hbm, 19, rfl⟩
abbrev main_v2 : Ref sig .tc := ⟨.hbm, 20, rfl⟩
abbrev main_v3 : Ref sig .tc := ⟨.hbm, 21, rfl⟩
abbrev main_c_4 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_5 : Ref sig .tc := ⟨.hbm, 26, rfl⟩
abbrev main_v7 : Ref sig .tc := ⟨.hbm, 27, rfl⟩
abbrev main_v8 : Ref sig .tc := ⟨.hbm, 28, rfl⟩
abbrev main_c_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call0_cst : Ref sig .tc := ⟨.hbm, 63, rfl⟩
abbrev main_call0_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_cst : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call2_cst : Ref sig .tc := ⟨.hbm, 78, rfl⟩
abbrev main_call2_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]

class Facts₀ : Prop where
  bcast_S26_S26x1_0 : S26.BroadcastsInDim S26x1 (![0] : Fin 1 → Fin S26x1.rank)
  bcast_S_S26x1 : S_.BroadcastsInDim S26x1 (![] : Fin 0 → Fin S26x1.rank)
  bcast_S_S26x16384 : S_.BroadcastsInDim S26x16384 (![] : Fin 0 → Fin S26x16384.rank)
  bcast_S26x1_S26x16384_0_1 : S26x1.BroadcastsInDim S26x16384 (![0, 1] : Fin 2 → Fin S26x16384.rank)
  bcast_S26x16384_S26x16384x1_0_1 : S26x16384.BroadcastsInDim S26x16384x1 (![0, 1] : Fin 2 → Fin S26x16384x1.rank)
  concatenates_S26x16384x1_S26x16384x1_S26x16384x2_d2 : Shape.Concatenates [S26x16384x1, S26x16384x1] S26x16384x2 2
  transposes_S26x16384x64_S16384x26x64_1_0_2 : S26x16384x64.Transposes [1, 0, 2] S16384x26x64
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S16384x64_S16384x1x64_0_2 : S16384x64.BroadcastsInDim S16384x1x64 (![0, 2] : Fin 2 → Fin S16384x1x64.rank)
  concatenates_S16384x26x64_S16384x1x64_S16384x27x64_d1 : Shape.Concatenates [S16384x26x64, S16384x1x64] S16384x27x64 1
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S_S16384x64 : S_.BroadcastsInDim S16384x64 (![] : Fin 0 → Fin S16384x64.rank)
  concatenates_S16384x351_S16384x64_S16384x415_d1 : Shape.Concatenates [S16384x351, S16384x64] S16384x415 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S26x100000x64_S26x16384x2_S26x16384x64_2_01_n_n_01_2_1164_wf : GatherDims.WF S26x100000x64 S26x16384x2 S26x16384x64 [2] [0, 1] [] [0, 1] [] 2 ![1, 1, 64]
  dot_S16384x1_S1x64_S16384x64_1_0_0_1_n_n_wf : DotDims.WF S16384x1 S1x64 S16384x64 [1] [0] [0] [1] [] []
  dot_S16384x27x64_S16384x27x64_S16384x27x27_2_2_1_1_0_0_wf : DotDims.WF S16384x27x64 S16384x27x64 S16384x27x27 [2] [2] [1] [1] [0] [0]
  gather_S16384x27x27_S351x2_S16384x351_0_12_n_n_12_1_1638411_wf : GatherDims.WF S16384x27x27 S351x2 S16384x351 [0] [1, 2] [] [1, 2] [] 1 ![16384, 1, 1]
  dot_S16384x64_S64x128_S16384x128_1_0_0_1_n_n_wf : DotDims.WF S16384x64 S64x128 S16384x128 [1] [0] [0] [1] [] []
  dot_S16384x128_S128x64_S16384x64_1_0_0_1_n_n_wf : DotDims.WF S16384x128 S128x64 S16384x64 [1] [0] [0] [1] [] []
  dot_S16384x415_S415x256_S16384x256_1_0_0_1_n_n_wf : DotDims.WF S16384x415 S415x256 S16384x256 [1] [0] [0] [1] [] []
  dot_S16384x256_S256x1_S16384x1_1_0_0_1_n_n_wf : DotDims.WF S16384x256 S256x1 S16384x1 [1] [0] [0] [1] [] []

variable [Facts₀]

def gather_S26x100000x64_S26x16384x2_S26x16384x64_2_01_n_n_01_2_1164 : GatherDims S26x100000x64 S26x16384x2 S26x16384x64 where
  offsetDims := [2]
  collapsedSliceDims := [0, 1]
  operandBatchingDims := []
  startIndicesBatchingDims := []
  startIndexMap := [0, 1]
  indexVectorDim := 2
  sliceSizes := ![1, 1, 64]
  wf := gather_S26x100000x64_S26x16384x2_S26x16384x64_2_01_n_n_01_2_1164_wf
def dot_S16384x1_S1x64_S16384x64_1_0_0_1_n_n : DotDims S16384x1 S1x64 S16384x64 where
  lhsContracting := [1]
  rhsContracting := [0]
  lhsNonContracting := [0]
  rhsNonContracting := [1]
  lhsBatch := []
  rhsBatch := []
  wf := dot_S16384x1_S1x64_S16384x64_1_0_0_1_n_n_wf
def dot_S16384x27x64_S16384x27x64_S16384x27x27_2_2_1_1_0_0 : DotDims S16384x27x64 S16384x27x64 S16384x27x27 where
  lhsContracting := [2]
  rhsContracting := [2]
  lhsNonContracting := [1]
  rhsNonContracting := [1]
  lhsBatch := [0]
  rhsBatch := [0]
  wf := dot_S16384x27x64_S16384x27x64_S16384x27x27_2_2_1_1_0_0_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x415_S415x256_S16384x256_1_0_0_1_n_n : DotDims S16384x415 S415x256 S16384x256 where
  lhsContracting := [1]
  rhsContracting := [0]
  lhsNonContracting := [0]
  rhsNonContracting := [1]
  lhsBatch := []
  rhsBatch := []
  wf := dot_S16384x415_S415x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
/-
  The arithmetic both programs perform on ONE batch row, as functions of that row's data over the extended reals.

  A row carries its 26 embedding vectors `E i : Fin 64 → EReal` and its price `p`. Both programs form the dense
  vector `p · wp + bp`, push it through two ReLU layers (`hidden`, `bottom`), form pairwise dot products among
  the 26 embedding vectors and the dense vector, multiply by the top weight matrix, add a bias, apply ReLU, and
  finish with one more linear map.

  They differ in HOW the pairwise dot products meet the top weight matrix:
  * the reference stacks the 27 vectors, forms the 27×27 Gram matrix, picks the 351 strictly-upper-triangular
    entries in row-major order (`iu k`, `ju k`), appends the 64 bottom outputs and multiplies by the 415×256 matrix;
  * the kernel keeps the 26×26 Gram matrix of the embedding vectors flat (entry `26 i + j` at position `p`) against a
    676×256 matrix `wee`, the 26 embedding–dense products against a 26×256 matrix `wed`, and the 64 bottom outputs
    against the last 64 rows `wd` of the 415×256 matrix.
-/
import Idealize.ShloMosaic.PureOps.Ideal
import Idealize.ShloMosaic.Lib.ValueIdx
import Mathlib.Algebra.BigOperators.Fin

noncomputable section

namespace Cert.Dlrm

open Idealize.ShloMosaic

/-- The weights every row shares, by plain coordinates. -/
structure Weights where
  wp : Fin 64 → EReal
  bp : Fin 64 → EReal
  w1 : Fin 64 → Fin 128 → EReal
  b1 : Fin 128 → EReal
  w2 : Fin 128 → Fin 64 → EReal
  b2 : Fin 64 → EReal
  bt1 : Fin 256 → EReal
  wt2 : Fin 256 → EReal
  bt2 : EReal

/-- The dense vector of a row with price `p`. -/
def dense (W : Weights) (p : EReal) (d : Fin 64) : EReal := p * W.wp d + W.bp d

/-- First bottom layer. -/
def hidden (W : Weights) (p : EReal) (n : Fin 128) : EReal :=
  max ((∑ d : Fin 64, dense W p d * W.w1 d n) + W.b1 n) 0

/-- Second bottom layer. -/
def bottom (W : Weights) (p : EReal) (j : Fin 64) : EReal :=
  max ((∑ n : Fin 128, hidden W p n * W.w2 n j) + W.b2 j) 0

/-- Dot product of embedding vectors `i` and `j`. -/
def gramEE (E : Fin 26 → Fin 64 → EReal) (i j : Fin 26) : EReal := ∑ d : Fin 64, E i d * E j d

/-- Dot product of embedding vector `i` with the dense vector. -/
def gramED (W : Weights) (E : Fin 26 → Fin 64 → EReal) (p : EReal) (i : Fin 26) : EReal :=
  ∑ d : Fin 64, E i d * dense W p d

/-- The kernel's top hidden layer. -/
def topK (W : Weights) (E : Fin 26 → Fin 64 → EReal) (p : EReal) (wee : Fin 676 → Fin 256 → EReal)
    (wed : Fin 26 → Fin 256 → EReal) (wd : Fin 64 → Fin 256 → EReal) (n : Fin 256) : EReal :=
  max (((((∑ q : Fin 676, gramEE E ⟨q.val / 26, by omega⟩ ⟨q.val % 26, by omega⟩ * wee q n)
      + (∑ i : Fin 26, gramED W E p i * wed i n))
      + (∑ j : Fin 64, bottom W p j * wd j n))
      + W.bt1 n)) 0

/-- The kernel's output for the row. -/
def outK (W : Weights) (E : Fin 26 → Fin 64 → EReal) (p : EReal) (wee : Fin 676 → Fin 256 → EReal)
    (wed : Fin 26 → Fin 256 → EReal) (wd : Fin 64 → Fin 256 → EReal) : EReal :=
  (∑ n : Fin 256, topK W E p wee wed wd n * W.wt2 n) + W.bt2

/-- The 27 stacked vectors of the reference: the 26 embedding vectors, then the dense vector. -/
def feat (W : Weights) (E : Fin 26 → Fin 64 → EReal) (p : EReal) (i : Fin 27) (d : Fin 64) : EReal :=
  if h : i.val < 26 then E ⟨i.val, h⟩ d else dense W p d

/-- The 27×27 Gram matrix. -/
def gram27 (W : Weights) (E : Fin 26 → Fin 64 → EReal) (p : EReal) (i j : Fin 27) : EReal :=
  ∑ d : Fin 64, feat W E p i d * feat W E p j d

/-- The reference's 415 top inputs: the picked Gram entries, then the bottom outputs. -/
def catR (W : Weights) (E : Fin 26 → Fin 64 → EReal) (p : EReal) (iu ju : Fin 351 → Fin 27) (k : Fin 415) : EReal :=
  if h : k.val < 351 then gram27 W E p (iu ⟨k.val, h⟩) (ju ⟨k.val, h⟩) else bottom W p ⟨k.val - 351, by omega⟩

/-- The reference's top hidden layer. -/
def topR (W : Weights) (E : Fin 26 → Fin 64 → EReal) (p : EReal) (iu ju : Fin 351 → Fin 27)
    (wt1 : Fin 415 → Fin 256 → EReal) (n : Fin 256) : EReal :=
  max ((∑ k : Fin 415, catR W E p iu ju k * wt1 k n) + W.bt1 n) 0

/-- The reference's output for the row. -/
def outR (W : Weights) (E : Fin 26 → Fin 64 → EReal) (p : EReal) (iu ju : Fin 351 → Fin 27)
    (wt1 : Fin 415 → Fin 256 → EReal) : EReal :=
  (∑ n : Fin 256, topR W E p iu ju wt1 n * W.wt2 n) + W.bt2

/-- A function of the batch row as a rank-one array of 16384 entries. -/
def ofRow (f : Fin 16384 → EReal) : (⟨1, ![16384]⟩ : Shape).Idx → EReal := fun i => f (i 0)

theorem ofRow_ix1 (f : Fin 16384 → EReal) (b : Fin 16384) : ofRow f (ValueIdx.ix1 b) = f b := rfl

/-! ## Row index of an embedding table from the raw index word

The kernel clips the word to `[0, 99999]` first; both programs then wrap a negative word by the table's length
and hand it to a gather that clamps the start index into the table. -/

/-- The table row the kernel reads for index word `x`. -/
def rowK (x : BitVec 32) : Fin 100000 :=
  ⟨min (Scalar.select (IntOp.cmpi .slt (IntOp.minsi 99999#32 (IntOp.maxsi 0#32 x)) 0#32)
      (IntOp.addi (IntOp.minsi 99999#32 (IntOp.maxsi 0#32 x)) 100000#32)
      (IntOp.minsi 99999#32 (IntOp.maxsi 0#32 x))).toInt.toNat 99999, by omega⟩

/-- The table row the reference reads for index word `x`. -/
def rowR (x : BitVec 32) : Fin 100000 :=
  ⟨min (Scalar.select (IntOp.cmpi .slt x 0#32) (IntOp.addi x 100000#32) x).toInt.toNat 99999, by omega⟩

/-- The shared weights from the argument arrays. -/
def mkW (a3 : (⟨2, ![1, 64]⟩ : Shape).Idx → EReal) (a4 : (⟨1, ![64]⟩ : Shape).Idx → EReal)
    (a5 : (⟨2, ![64, 128]⟩ : Shape).Idx → EReal) (a6 : (⟨1, ![128]⟩ : Shape).Idx → EReal)
    (a7 : (⟨2, ![128, 64]⟩ : Shape).Idx → EReal) (a8 : (⟨1, ![64]⟩ : Shape).Idx → EReal)
    (a10 : (⟨1, ![256]⟩ : Shape).Idx → EReal) (a11 : (⟨2, ![256, 1]⟩ : Shape).Idx → EReal)
    (a12 : (⟨1, ![1]⟩ : Shape).Idx → EReal) : Weights where
  wp d := a3 (ValueIdx.ix2 0 d)
  bp d := a4 (ValueIdx.ix1 d)
  w1 d n := a5 (ValueIdx.ix2 d n)
  b1 n := a6 (ValueIdx.ix1 n)
  w2 n j := a7 (ValueIdx.ix2 n j)
  b2 j := a8 (ValueIdx.ix1 j)
  bt1 n := a10 (ValueIdx.ix1 n)
  wt2 n := a11 (ValueIdx.ix2 n 0)
  bt2 := a12 (ValueIdx.ix1 0)

/-- The kernel's result array as a function of the argument arrays and of the two folded weight slabs it is handed. -/
def specK (a0 : (⟨2, ![26, 16384]⟩ : Shape).Idx → BitVec 32) (a1 : (⟨1, ![16384]⟩ : Shape).Idx → EReal)
    (a2 : (⟨3, ![26, 100000, 64]⟩ : Shape).Idx → EReal)
    (a3 : (⟨2, ![1, 64]⟩ : Shape).Idx → EReal) (a4 : (⟨1, ![64]⟩ : Shape).Idx → EReal)
    (a5 : (⟨2, ![64, 128]⟩ : Shape).Idx → EReal) (a6 : (⟨1, ![128]⟩ : Shape).Idx → EReal)
    (a7 : (⟨2, ![128, 64]⟩ : Shape).Idx → EReal) (a8 : (⟨1, ![64]⟩ : Shape).Idx → EReal)
    (a9 : (⟨2, ![415, 256]⟩ : Shape).Idx → EReal)
    (a10 : (⟨1, ![256]⟩ : Shape).Idx → EReal) (a11 : (⟨2, ![256, 1]⟩ : Shape).Idx → EReal)
    (a12 : (⟨1, ![1]⟩ : Shape).Idx → EReal)
    (wee : Fin 676 → Fin 256 → EReal) (wed : Fin 26 → Fin 256 → EReal) : (⟨1, ![16384]⟩ : Shape).Idx → EReal :=
  ofRow fun b => outK (mkW a3 a4 a5 a6 a7 a8 a10 a11 a12)
    (fun i d => a2 (ValueIdx.ix3 i (rowK (a0 (ValueIdx.ix2 i b))) d)) (a1 (ValueIdx.ix1 b)) wee wed
    (fun j n => a9 (ValueIdx.ix2 (⟨351 + j.val, by omega⟩ : Fin 415) n))

/-- The reference's result array as a function of the argument arrays and the pair list. -/
def specR (iu ju : Fin 351 → Fin 27)
    (a0 : (⟨2, ![26, 16384]⟩ : Shape).Idx → BitVec 32) (a1 : (⟨1, ![16384]⟩ : Shape).Idx → EReal)
    (a2 : (⟨3, ![26, 100000, 64]⟩ : Shape).Idx → EReal)
    (a3 : (⟨2, ![1, 64]⟩ : Shape).Idx → EReal) (a4 : (⟨1, ![64]⟩ : Shape).Idx → EReal)
    (a5 : (⟨2, ![64, 128]⟩ : Shape).Idx → EReal) (a6 : (⟨1, ![128]⟩ : Shape).Idx → EReal)
    (a7 : (⟨2, ![128, 64]⟩ : Shape).Idx → EReal) (a8 : (⟨1, ![64]⟩ : Shape).Idx → EReal)
    (a9 : (⟨2, ![415, 256]⟩ : Shape).Idx → EReal)
    (a10 : (⟨1, ![256]⟩ : Shape).Idx → EReal) (a11 : (⟨2, ![256, 1]⟩ : Shape).Idx → EReal)
    (a12 : (⟨1, ![1]⟩ : Shape).Idx → EReal) : (⟨1, ![16384]⟩ : Shape).Idx → EReal :=
  ofRow fun b => outR (mkW a3 a4 a5 a6 a7 a8 a10 a11 a12)
    (fun i d => a2 (ValueIdx.ix3 i (rowR (a0 (ValueIdx.ix2 i b))) d)) (a1 (ValueIdx.ix1 b)) iu ju
    (fun k n => a9 (ValueIdx.ix2 k n))

end Cert.Dlrm

end
-- ==== Proof.KNames.lean ====
/-
  Names for what the kernel's region finds in its windows' arrays when it is entered, read by plain coordinates:
  the batch rows' embedding vectors `kE` and prices `kP`, the shared weights `kW`, and the three slabs of the top
  weight matrix (`kWee`: 676 rows for the flat 26×26 Gram matrix, `kWed`: 26 rows for the products with the dense
  vector, `kWd`: 64 rows for the bottom outputs).
-/
import proofs.«419748_j21122649161846_3_alg».proof.Proof.Gen.KernelIdeal.Frame
import proofs.«419748_j21122649161846_3_alg».proof.Proof.Spec

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Embedding vector `i` of batch row `b`, coordinate `d`. -/
def kE (c : Dev nD) (b : Fin 16384) (i : Fin 26) (d : Fin 64) : EReal := V m c main_call0_v19 (ix3 b i d)
/-- Price of batch row `b`. -/
def kP (c : Dev nD) (b : Fin 16384) : EReal := V m c main_call0_v20 (ix2 b 0)
/-- Top weights against the flat Gram matrix. -/
def kWee (c : Dev nD) (q : Fin 676) (n : Fin 256) : EReal := V m c main_call0_v50 (ix2 q n)
/-- Top weights against the embedding–dense products. -/
def kWed (c : Dev nD) (i : Fin 26) (n : Fin 256) : EReal := V m c main_call0_v51 (ix2 i n)
/-- Top weights against the bottom outputs. -/
def kWd (c : Dev nD) (j : Fin 64) (n : Fin 256) : EReal := V m c main_call0_v52 (ix2 j n)
/-- The shared weights. -/
def kW (c : Dev nD) : Cert.Dlrm.Weights :=
  Cert.Dlrm.mkW (V m c main_arg3) (fun i => V m c main_call0_v21 (ix2 0 (i 0))) (V m c main_call0_v22)
    (fun i => V m c main_call0_v23 (ix2 0 (i 0))) (V m c main_call0_v24) (fun i => V m c main_call0_v25 (ix2 0 (i 0)))
    (fun i => V m c main_call0_v53 (ix2 0 (i 0))) (V m c main_call0_v54) (fun i => V m c main_call0_v55 (ix2 0 (i 0)))

end Cert.KernelIdeal.KVal

end
-- ==== Proof.KPay.lean ====
/-
  The kernel body's one store, read at a row of the output block.

  Every layout operation and product of the body is first read at an index given by coordinates; each intermediate
  value of the body is then a closed expression in the loaded blocks at that index, and the stored value at row `r`
  unfolds to the row output of `Spec.lean`.
-/
import proofs.«419748_j21122649161846_3_alg».proof.Proof.Gen.KernelIdeal.Frame
import proofs.«419748_j21122649161846_3_alg».proof.Proof.Spec
import Idealize.ShloMosaic.Lib.ValueLayout
import Idealize.ShloMosaic.PureOps.Ideal.Laws

noncomputable section

namespace Cert.KernelIdeal.KVal

open Idealize.ShloMosaic Idealize.ShloMosaic.TcCoe Idealize.SL.Sem Idealize.ShloMosaic.ValueIdx
open Cert.KernelIdeal Cert.KernelIdeal.Gen

namespace Pay

/-! ## Layout operations at an index given by coordinates -/

section Layout
variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[m, 1, c]` array broadcast to `[m, a, c]` reads, at `(k, i, j)`, the operand at `(k, 0, j)`. -/
theorem broadcastTo_m1c_mac_apply {m a c : ℕ} (v : (⟨3, ![m, 1, c]⟩ : Shape).Idx → α)
    (h : (⟨3, ![m, 1, c]⟩ : Shape).Broadcasts ⟨3, ![m, a, c]⟩) (k : Fin m) (i : Fin a) (j : Fin c) :
    broadcastTo ⟨3, ![m, a, c]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if c = 1 then 0 else j.val
    split
    · have := j.isLt; omega
    · rfl

/-- An `[m, c]` array cast to `[m, 1, c]` reads, at `(k, u, j)`, the operand at `(k, j)`. -/
theorem shapeCast_mc_m1c_apply {m c : ℕ} (x : (⟨2, ![m, c]⟩ : Shape).Idx → α)
    (h : (⟨2, ![m, c]⟩ : Shape).ShapeCasts ⟨3, ![m, 1, c]⟩) (k : Fin m) (u : Fin 1) (j : Fin c) :
    shapeCast ⟨3, ![m, 1, c]⟩ x h (ix3 k u j) = x (ix2 k j) :=
  shapeCast_apply x h _ _ (by
    have hu : u.val = 0 := by omega
    rw [Shape.rowMajor_val_three, Shape.rowMajor_val_two]
    show k.val * c + j.val = (k.val * 1 + u.val) * c + j.val
    rw [hu, Nat.mul_one, Nat.add_zero])

/-- An `[m, a, b]` array cast to `[m, a * b]` reads, at `(k, q)`, the operand at `(k, q / b, q % b)`. -/
theorem shapeCast_mab_mq_apply {m a b n : ℕ} (hn : n = a * b) (x : (⟨3, ![m, a, b]⟩ : Shape).Idx → α)
    (h : (⟨3, ![m, a, b]⟩ : Shape).ShapeCasts ⟨2, ![m, n]⟩) (k : Fin m) (q : Fin n) (i : Fin a) (j : Fin b)
    (hq : q.val = i.val * b + j.val) :
    shapeCast ⟨2, ![m, n]⟩ x h (ix2 k q) = x (ix3 k i j) :=
  shapeCast_apply x h _ _ (by
    rw [Shape.rowMajor_val_three, Shape.rowMajor_val_two]
    show (k.val * a + i.val) * b + j.val = k.val * n + q.val
    rw [hq, hn, Nat.add_mul, Nat.mul_assoc, Nat.add_assoc])

end Layout

/-! ## A product into the zero accumulator at an index -/

section Products
variable {φ₁ φ₂ : FTy}

/-- An `m × k` by `k × n` product into the zero accumulator reads, at `(a, b)`, the sum over the contracted
    coordinate of the products of the entries. -/
theorem matmul_plain_zero_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  have el : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have er : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [el, er]

/-- A stack of `G` products of an `m × k` matrix with the transpose of an `n × k` matrix, into the zero accumulator,
    reads, at `(g, a, b)`, the dot product of row `a` of the left member `g` with row `b` of the right member `g`. -/
theorem matmul_gram_zero_apply {G m n k : ℕ}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    matmul (⟨[2], [2], [1], [1], [0], [0], w⟩ : DotDims ⟨3, ![G, m, k]⟩ ⟨3, ![G, n, k]⟩ ⟨3, ![G, m, n]⟩) prec A B
        (constant (F := Ideal) ⟨3, ![G, m, n]⟩ .f32 0x00000000#32) (ix3 g a b)
      = ∑ c : Fin k, A (ix3 g a c) * B (ix3 g b c) := by
  show FloatOps.matmul _ prec A B _ (ix3 g a b) = _
  rw [Ideal.matmul_constant_zero_apply,
    ← Equiv.sum_comp (contrEquiv1 (⟨[2], [2], [1], [1], [0], [0], w⟩ : DotDims ⟨3, ![G, m, k]⟩ ⟨3, ![G, n, k]⟩ ⟨3, ![G, m, n]⟩) k rfl rfl).symm]
  refine Finset.sum_congr rfl fun c _ => ?_
  have hc := contrEquiv1_symm_val (⟨[2], [2], [1], [1], [0], [0], w⟩ : DotDims ⟨3, ![G, m, k]⟩ ⟨3, ![G, n, k]⟩ ⟨3, ![G, m, n]⟩) k rfl rfl c
  have el : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have er : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hc
  rw [el, er]

end Products

/-! ## The body's intermediate values at an index -/

/-- The all-zero offsets of a rank-2 block, however spelt. -/
theorem hz2 : (![0, 0] : Fin 2 → Nat) = fun _ => 0 := funext fun a => by fin_cases a <;> rfl
/-- The all-zero offsets of a rank-3 block. -/
theorem hz3 : (![0, 0, 0] : Fin 3 → Nat) = fun _ => 0 := funext fun a => by fin_cases a <;> rfl

/-- The dense vector of block row `b` at coordinate `d`: price times weight plus bias. -/
theorem pay3_apply (v2 : Vec Ideal S512x1 .f32) (v4 v5 : Vec Ideal S1x64 .f32) (b : Fin 512) (d : Fin 64) :
    k0_pay3 (F := Ideal) v2 v4 v5 (ix2 b d) = v2 (ix2 b 0) * v4 (ix2 0 d) + v5 (ix2 0 d) := by
  unfold k0_pay3
  simp only [truncf_apply, addf_apply, mulf_apply, shapeCast_self, broadcastTo_a1_ab_apply, broadcastTo_1b_ab_apply]

/-- The Gram entry of embedding vectors `q / 26` and `q % 26` of block row `b`. -/
theorem pay4_apply (v0 : Vec Ideal S512x26x64 .bf16) (b : Fin 512) (q : Fin 676) :
    k0_pay4 (F := Ideal) v0 (ix2 b q)
      = ∑ d : Fin 64, v0 (ix3 b (⟨q.val / 26, by omega⟩ : Fin 26) d) * v0 (ix3 b (⟨q.val % 26, by omega⟩ : Fin 26) d) := by
  unfold k0_pay4 k0_pay2
  simp only [truncf_apply, shapeCast_self]
  refine (shapeCast_mab_mq_apply (by rfl) _ _ b q (⟨q.val / 26, by omega⟩ : Fin 26) (⟨q.val % 26, by omega⟩ : Fin 26)
    (by show q.val = q.val / 26 * 26 + q.val % 26; omega)).trans ?_
  exact matmul_gram_zero_apply dot_S512x26x64_S512x26x64_S512x26x26_2_2_1_1_0_0_wf none v0 v0 b _ _

section Reduce
variable {φ : FTy}

/-- A sum over the last axis of an `[m, a, c]` array reads, at `(k, i)`, the sum over `j` of the entries `(k, i, j)`. -/
theorem multiReduction_add_last3_apply {m a c : ℕ} (src : FVec Ideal ⟨3, ![m, a, c]⟩ φ) (acc : BitVec φ.bits)
    (h : (⟨3, ![m, a, c]⟩ : Shape).Reduces [2] ⟨2, ![m, a]⟩) (hφ : FKind.Formats φ) (hacc : acc = FKind.add.neutral φ hφ)
    (k : Fin m) (i : Fin a) :
    multiReduction .add [2] ⟨2, ![m, a]⟩ src acc h hφ hacc (ix2 k i) = ∑ j : Fin c, src (ix3 k i j) := by
  rw [Ideal.multiReduction_add_single]
  refine Finset.sum_congr rfl fun j _ => congrArg src ?_
  funext ax; apply Fin.ext
  match ax with
  | ⟨0, _⟩ => rfl
  | ⟨1, _⟩ => rfl
  | ⟨2, _⟩ => rfl

end Reduce

/-! ### The kernel's seven products at an index -/

section Records
variable {φ₁ φ₂ : FTy}

theorem mm_gram (A : FVec Ideal S512x26x64 φ₁) (B : FVec Ideal S512x26x64 φ₂) (g : Fin 512) (a b : Fin 26) :
    matmul dot_S512x26x64_S512x26x64_S512x26x26_2_2_1_1_0_0 none A B (constant (F := Ideal) S512x26x26 .f32 0x00000000#32) (ix3 g a b)
      = ∑ c : Fin 64, A (ix3 g a c) * B (ix3 g b c) :=
  matmul_gram_zero_apply dot_S512x26x64_S512x26x64_S512x26x26_2_2_1_1_0_0_wf none A B g a b

theorem mm_64_128 (A : FVec Ideal S512x64 φ₁) (B : FVec Ideal S64x128 φ₂) (a : Fin 512) (b : Fin 128) :
    matmul dot_S512x64_S64x128_S512x128_1_0_0_1_n_n none A B (constant (F := Ideal) S512x128 .f32 0x00000000#32) (ix2 a b)
      = ∑ c : Fin 64, A (ix2 a c) * B (ix2 c b) :=
  matmul_plain_zero_apply dot_S512x64_S64x128_S512x128_1_0_0_1_n_n_wf none A B a b

theorem mm_128_64 (A : FVec Ideal S512x128 φ₁) (B : FVec Ideal S128x64 φ₂) (a : Fin 512) (b : Fin 64) :
    matmul dot_S512x128_S128x64_S512x64_1_0_0_1_n_n none A B (constant (F := Ideal) S512x64 .f32 0x00000000#32) (ix2 a b)
      = ∑ c : Fin 128, A (ix2 a c) * B (ix2 c b) :=
  matmul_plain_zero_apply dot_S512x128_S128x64_S512x64_1_0_0_1_n_n_wf none A B a b

theorem mm_676_256 (A : FVec Ideal S512x676 φ₁) (B : FVec Ideal S676x256 φ₂) (a : Fin 512) (b : Fin 256) :
    matmul dot_S512x676_S676x256_S512x256_1_0_0_1_n_n none A B (constant (F := Ideal) S512x256 .f32 0x00000000#32) (ix2 a b)
      = ∑ c : Fin 676, A (ix2 a c) * B (ix2 c b) :=
  matmul_plain_zero_apply dot_S512x676_S676x256_S512x256_1_0_0_1_n_n_wf none A B a b

theorem mm_26_256 (A : FVec Ideal S512x26 φ₁) (B : FVec Ideal S26x256 φ₂) (a : Fin 512) (b : Fin 256) :
    matmul dot_S512x26_S26x256_S512x256_1_0_0_1_n_n none A B (constant (F := Ideal) S512x256 .f32 0x00000000#32) (ix2 a b)
      = ∑ c : Fin 26, A (ix2 a c) * B (ix2 c b) :=
  matmul_plain_zero_apply dot_S512x26_S26x256_S512x256_1_0_0_1_n_n_wf none A B a b

theorem mm_64_256 (A : FVec Ideal S512x64 φ₁) (B : FVec Ideal S64x256 φ₂) (a : Fin 512) (b : Fin 256) :
    matmul dot_S512x64_S64x256_S512x256_1_0_0_1_n_n none A B (constant (F := Ideal) S512x256 .f32 0x00000000#32) (ix2 a b)
      = ∑ c : Fin 64, A (ix2 a c) * B (ix2 c b) :=
  matmul_plain_zero_apply dot_S512x64_S64x256_S512x256_1_0_0_1_n_n_wf none A B a b

theorem mm_256_1 (A : FVec Ideal S512x256 φ₁) (B : FVec Ideal S256x1 φ₂) (a : Fin 512) (b : Fin 1) :
    matmul dot_S512x256_S256x1_S512x1_1_0_0_1_n_n none A B (constant (F := Ideal) S512x1 .f32 0x00000000#32) (ix2 a b)
      = ∑ c : Fin 256, A (ix2 a c) * B (ix2 c b) :=
  matmul_plain_zero_apply dot_S512x256_S256x1_S512x1_1_0_0_1_n_n_wf none A B a b

end Records

/-- The product of embedding vector `i` of block row `b` with the row's dense vector. -/
theorem pay5_apply (v0 : Vec Ideal S512x26x64 .bf16) (v2 : Vec Ideal S512x1 .f32) (v4 v5 : Vec Ideal S1x64 .f32)
    (b : Fin 512) (i : Fin 26) :
    k0_pay5 (F := Ideal) v0 v2 v4 v5 (ix2 b i)
      = ∑ d : Fin 64, v0 (ix3 b i d) * (v2 (ix2 b 0) * v4 (ix2 0 d) + v5 (ix2 0 d)) := by
  unfold k0_pay5 k0_pay2
  simp only [truncf_apply]
  refine (multiReduction_add_last3_apply _ _ _ _ _ b i).trans ?_
  simp only [extf_apply, mulf_apply, shapeCast_self, broadcastTo_m1c_mac_apply, shapeCast_mc_m1c_apply, pay3_apply]

/-- The second bottom layer's bias row, as loaded. -/
theorem pay6_eq (v33 : Vec Ideal S1x64 .f32) : k0_pay6 (F := Ideal) v33 = v33 := by
  unfold k0_pay6
  exact shapeCast_self _ _

/-- The second bottom layer before its bias, at block row `b` and coordinate `j`. -/
theorem pay7_apply (v2 : Vec Ideal S512x1 .f32) (v4 v5 : Vec Ideal S1x64 .f32) (v22 : Vec Ideal S64x128 .bf16)
    (v24 : Vec Ideal S1x128 .f32) (v31 : Vec Ideal S128x64 .bf16) (b : Fin 512) (j : Fin 64) :
    k0_pay7 (F := Ideal) v2 v4 v5 v22 v24 v31 (ix2 b j)
      = ∑ n : Fin 128, max ((∑ d : Fin 64, (v2 (ix2 b 0) * v4 (ix2 0 d) + v5 (ix2 0 d)) * v22 (ix2 d n)) + v24 (ix2 0 n)) 0
          * v31 (ix2 n j) := by
  unfold k0_pay7
  simp only [mm_128_64, truncf_apply, maximumf_apply, addf_apply, broadcast_apply, shapeCast_self, broadcastTo_1b_ab_apply,
    mm_64_128, pay3_apply, Ideal.ofBits_def, Ideal.ofBits_zero_f32]

/-- The stored value at block row `b`: the top layer of the loaded Gram entries, embedding–dense products and
    bottom outputs, then the final linear map. -/
theorem pay1_apply (v15 : FVec Ideal S512x676 .bf16) (v21 : FVec Ideal S512x26 .bf16) (v34 : FVec Ideal S1x64 .f32)
    (v36 : FVec Ideal S512x64 .f32) (v42 : Vec Ideal S676x256 .bf16) (v44 : Vec Ideal S26x256 .bf16)
    (v46 : Vec Ideal S64x256 .bf16) (v48 : Vec Ideal S1x256 .f32) (v59 : Vec Ideal S256x1 .bf16)
    (v61 : Vec Ideal S1x1 .f32) (b : Fin 512) (u : Fin 1) :
    k0_pay1 (F := Ideal) v15 v21 v34 v36 v42 v44 v46 v48 v59 v61 (ix2 b u)
      = (∑ n : Fin 256, max (((((∑ q : Fin 676, v15 (ix2 b q) * v42 (ix2 q n))
            + (∑ i : Fin 26, v21 (ix2 b i) * v44 (ix2 i n)))
            + (∑ j : Fin 64, max (v36 (ix2 b j) + v34 (ix2 0 j)) 0 * v46 (ix2 j n)))
            + v48 (ix2 0 n))) 0 * v59 (ix2 n u)) + v61 (ix2 0 u) := by
  unfold k0_pay1
  simp only [addf_apply, mm_256_1, truncf_apply, maximumf_apply, broadcast_apply, shapeCast_self, broadcastTo_1b_ab_apply,
    mm_676_256, mm_26_256, mm_64_256, Ideal.ofBits_def, Ideal.ofBits_zero_f32]

end Pay

open Pay

/-- Row `r` of the output block is the row output of the block's row `r` data against the resident weights. -/
theorem out0_14_apply (x0 : Vec Ideal S512x26x64 .bf16) (x1 : Vec Ideal S512x1 .f32) (x2 : Vec Ideal S1x64 .f32)
    (x3 : Vec Ideal S1x64 .f32) (x4 : Vec Ideal S64x128 .bf16) (x5 : Vec Ideal S1x128 .f32) (x6 : Vec Ideal S128x64 .bf16)
    (x7 : Vec Ideal S1x64 .f32) (x8 : Vec Ideal S676x256 .bf16) (x9 : Vec Ideal S26x256 .bf16) (x10 : Vec Ideal S64x256 .bf16)
    (x11 : Vec Ideal S1x256 .f32) (x12 : Vec Ideal S256x1 .bf16) (x13 : Vec Ideal S1x1 .f32) (r : Fin 512) :
    out0_14 (F := Ideal) x0 x1 x2 x3 x4 x5 x6 x7 x8 x9 x10 x11 x12 x13 (ix2 r 0)
      = Cert.Dlrm.outK
          (Cert.Dlrm.mkW x2 (fun i => x3 (ix2 0 (i 0))) x4 (fun i => x5 (ix2 0 (i 0))) x6 (fun i => x7 (ix2 0 (i 0)))
            (fun i => x11 (ix2 0 (i 0))) x12 (fun i => x13 (ix2 0 (i 0))))
          (fun i d => x0 (ix3 r i d)) (x1 (ix2 r 0)) (fun q n => x8 (ix2 q n)) (fun i n => x9 (ix2 i n))
          (fun j n => x10 (ix2 j n)) := by
  unfold out0_14
  rw [View.canon_unit_zero hz2]
  simp only [View.ld_unit_zero (S := S512x26x64) hz3, View.ld_unit_zero (S := S512x1) hz2, View.ld_unit_zero (S := S1x64) hz2,
    View.ld_unit_zero (S := S64x128) hz2, View.ld_unit_zero (S := S1x128) hz2, View.ld_unit_zero (S := S128x64) hz2,
    View.ld_unit_zero (S := S676x256) hz2, View.ld_unit_zero (S := S26x256) hz2, View.ld_unit_zero (S := S64x256) hz2,
    View.ld_unit_zero (S := S1x256) hz2, View.ld_unit_zero (S := S256x1) hz2, View.ld_unit_zero (S := S1x1) hz2]
  rw [pay1_apply]
  simp only [pay4_apply, pay5_apply, pay6_eq, pay7_apply]
  rfl
end Cert.KernelIdeal.KVal

end
-- ==== Proof.KRun.lean ====
/-
  The kernel program's run with its result named: batch row `b` of the result is the row output of what the region
  finds in its windows' arrays.

  The region's grid has 32 points. At point `t` the embedding window, the price window and the output window hold
  rows `512 t … 512 t + 511` of their arrays; the twelve weight windows hold their whole arrays at every point.
  So what point `t` writes back is rows `512 t …` of one column of row outputs, the 32 blocks cover the column,
  and the one host operation after the region reads that column as a vector.
-/
import proofs.«419748_j21122649161846_3_alg».proof.Proof.KNames
import proofs.«419748_j21122649161846_3_alg».proof.Proof.KPay
import Idealize.ShloMosaic.Lib.Pipeline.Value

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

namespace Run

/-! ## The index maps over the grid -/

/-- The three row-blocked windows sit at block `t` of the batch axis, block `0` of every other axis. -/
theorem idx_rows : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-! ## The windows' blocks as reads of their arrays -/

/-- Row `r` of the embedding window's block at point `t` is batch row `512 t + r`. -/
theorem iblk0_apply (c : Dev nD) (t : Fin cfg0.N) (r : Fin 512) (i : Fin 26) (d : Fin 64) (b : Fin 16384)
    (hb : b.val = 512 * t.val + r.val) :
    (iblk m c 0 t : Vec Ideal S512x26x64 .bf16) (ix3 r i d) = kE m c b i d := by
  obtain ⟨e0, e1, e2, -⟩ := idx_rows t
  show V m c main_call0_v19 (((cfg0.win 0).blk t).view.emb (ix3 r i d)) = V m c main_call0_v19 (ix3 b i d)
  refine congrArg _ ?_
  funext a; apply Fin.ext
  match a with
  | ⟨0, _⟩ => show win0_0.index t (0 : Fin 3) * 512 + 1 * r.val = b.val; omega
  | ⟨1, _⟩ => show win0_0.index t (1 : Fin 3) * 26 + 1 * i.val = i.val; omega
  | ⟨2, _⟩ => show win0_0.index t (2 : Fin 3) * 64 + 1 * d.val = d.val; omega

/-- Row `r` of the price window's block at point `t` is batch row `512 t + r`. -/
theorem iblk1_apply (c : Dev nD) (t : Fin cfg0.N) (r : Fin 512) (b : Fin 16384) (hb : b.val = 512 * t.val + r.val) :
    (iblk m c 1 t : Vec Ideal S512x1 .f32) (ix2 r 0) = kP m c b := by
  obtain ⟨-, -, -, e0, e1, -⟩ := idx_rows t
  show V m c main_call0_v20 (((cfg0.win 1).blk t).view.emb (ix2 r 0)) = V m c main_call0_v20 (ix2 b 0)
  refine congrArg _ ?_
  funext a; apply Fin.ext
  match a with
  | ⟨0, _⟩ => show win0_1.index t (0 : Fin 2) * 512 + 1 * r.val = b.val; omega
  | ⟨1, _⟩ => show win0_1.index t (1 : Fin 2) * 1 + 1 * 0 = 0; omega

/-- Window 2's block index is `(0, 0)` at every point. -/
theorem idx_whole2 : ∀ t : Fin cfg0.N, win0_2.index t (0 : Fin 2) = 0 ∧ win0_2.index t (1 : Fin 2) = 0 :=
  (by decide +kernel : ∀ t : Fin grid0.N, _)

/-- So window 2's block is its whole array at every point. -/
theorem iblk2_eq (c : Dev nD) (t : Fin cfg0.N) : (iblk m c 2 t : Vec Ideal S1x64 .f32) = V m c main_arg3 := by
  obtain ⟨e0, e1⟩ := idx_whole2 t
  funext y
  show V m c main_arg3 (((cfg0.win 2).blk t).view.emb y) = V m c main_arg3 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3's block index is `(0, 0)` at every point. -/
theorem idx_whole3 : ∀ t : Fin cfg0.N, win0_3.index t (0 : Fin 2) = 0 ∧ win0_3.index t (1 : Fin 2) = 0 :=
  (by decide +kernel : ∀ t : Fin grid0.N, _)

/-- So window 3's block is its whole array at every point. -/
theorem iblk3_eq (c : Dev nD) (t : Fin cfg0.N) : (iblk m c 3 t : Vec Ideal S1x64 .f32) = V m c main_call0_v21 := by
  obtain ⟨e0, e1⟩ := idx_whole3 t
  funext y
  show V m c main_call0_v21 (((cfg0.win 3).blk t).view.emb y) = V m c main_call0_v21 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block index is `(0, 0)` at every point. -/
theorem idx_whole4 : ∀ t : Fin cfg0.N, win0_4.index t (0 : Fin 2) = 0 ∧ win0_4.index t (1 : Fin 2) = 0 :=
  (by decide +kernel : ∀ t : Fin grid0.N, _)

/-- So window 4's block is its whole array at every point. -/
theorem iblk4_eq (c : Dev nD) (t : Fin cfg0.N) : (iblk m c 4 t : Vec Ideal S64x128 .bf16) = V m c main_call0_v22 := by
  obtain ⟨e0, e1⟩ := idx_whole4 t
  funext y
  show V m c main_call0_v22 (((cfg0.win 4).blk t).view.emb y) = V m c main_call0_v22 y
  refine congrArg _ ?_
  funext a; apply Fin.ext
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- Window 5's block index is `(0, 0)` at every point. -/
theorem idx_whole5 : ∀ t : Fin cfg0.N, win0_5.index t (0 : Fin 2) = 0 ∧ win0_5.index t (1 : Fin 2) = 0 :=
  (by decide +kernel : ∀ t : Fin grid0.N, _)

/-- So window 5's block is its whole array at every point. -/
theorem iblk5_eq (c : Dev nD) (t : Fin cfg0.N) : (iblk m c 5 t : Vec Ideal S1x128 .f32) = V m c main_call0_v23 := by
  obtain ⟨e0, e1⟩ := idx_whole5 t
  funext y
  show V m c main_call0_v23 (((cfg0.win 5).blk t).view.emb y) = V m c main_call0_v23 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block index is `(0, 0)` at every point. -/
theorem idx_whole6 : ∀ t : Fin cfg0.N, win0_6.index t (0 : Fin 2) = 0 ∧ win0_6.index t (1 : Fin 2) = 0 :=
  (by decide +kernel : ∀ t : Fin grid0.N, _)

/-- So window 6's block is its whole array at every point. -/
theorem iblk6_eq (c : Dev nD) (t : Fin cfg0.N) : (iblk m c 6 t : Vec Ideal S128x64 .bf16) = V m c main_call0_v24 := by
  obtain ⟨e0, e1⟩ := idx_whole6 t
  funext y
  show V m c main_call0_v24 (((cfg0.win 6).blk t).view.emb y) = V m c main_call0_v24 y
  refine congrArg _ ?_
  funext a; apply Fin.ext
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- Window 7's block index is `(0, 0)` at every point. -/
theorem idx_whole7 : ∀ t : Fin cfg0.N, win0_7.index t (0 : Fin 2) = 0 ∧ win0_7.index t (1 : Fin 2) = 0 :=
  (by decide +kernel : ∀ t : Fin grid0.N, _)

/-- So window 7's block is its whole array at every point. -/
theorem iblk7_eq (c : Dev nD) (t : Fin cfg0.N) : (iblk m c 7 t : Vec Ideal S1x64 .f32) = V m c main_call0_v25 := by
  obtain ⟨e0, e1⟩ := idx_whole7 t
  funext y
  show V m c main_call0_v25 (((cfg0.win 7).blk t).view.emb y) = V m c main_call0_v25 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Window 8's block index is `(0, 0)` at every point. -/
theorem idx_whole8 : ∀ t : Fin cfg0.N, win0_8.index t (0 : Fin 2) = 0 ∧ win0_8.index t (1 : Fin 2) = 0 :=
  (by decide +kernel : ∀ t : Fin grid0.N, _)

/-- So window 8's block is its whole array at every point. -/
theorem iblk8_eq (c : Dev nD) (t : Fin cfg0.N) : (iblk m c 8 t : Vec Ideal S676x256 .bf16) = V m c main_call0_v50 := by
  obtain ⟨e0, e1⟩ := idx_whole8 t
  funext y
  show V m c main_call0_v50 (((cfg0.win 8).blk t).view.emb y) = V m c main_call0_v50 y
  refine congrArg _ ?_
  funext a; apply Fin.ext
  match a with
  | ⟨0, _⟩ => show win0_8.index t (0 : Fin 2) * 676 + 1 * (y 0).val = (y 0).val; omega
  | ⟨1, _⟩ => show win0_8.index t (1 : Fin 2) * 256 + 1 * (y 1).val = (y 1).val; omega

/-- Window 9's block index is `(0, 0)` at every point. -/
theorem idx_whole9 : ∀ t : Fin cfg0.N, win0_9.index t (0 : Fin 2) = 0 ∧ win0_9.index t (1 : Fin 2) = 0 :=
  (by decide +kernel : ∀ t : Fin grid0.N, _)

/-- So window 9's block is its whole array at every point. -/
theorem iblk9_eq (c : Dev nD) (t : Fin cfg0.N) : (iblk m c 9 t : Vec Ideal S26x256 .bf16) = V m c main_call0_v51 := by
  obtain ⟨e0, e1⟩ := idx_whole9 t
  funext y
  show V m c main_call0_v51 (((cfg0.win 9).blk t).view.emb y) = V m c main_call0_v51 y
  refine congrArg _ ?_
  funext a; apply Fin.ext
  match a with
  | ⟨0, _⟩ => show win0_9.index t (0 : Fin 2) * 26 + 1 * (y 0).val = (y 0).val; omega
  | ⟨1, _⟩ => show win0_9.index t (1 : Fin 2) * 256 + 1 * (y 1).val = (y 1).val; omega

/-- Window 10's block index is `(0, 0)` at every point. -/
theorem idx_whole10 : ∀ t : Fin cfg0.N, win0_10.index t (0 : Fin 2) = 0 ∧ win0_10.index t (1 : Fin 2) = 0 :=
  (by decide +kernel : ∀ t : Fin grid0.N, _)

/-- So window 10's block is its whole array at every point. -/
theorem iblk10_eq (c : Dev nD) (t : Fin cfg0.N) : (iblk m c 10 t : Vec Ideal S64x256 .bf16) = V m c main_call0_v52 := by
  obtain ⟨e0, e1⟩ := idx_whole10 t
  funext y
  show V m c main_call0_v52 (((cfg0.win 10).blk t).view.emb y) = V m c main_call0_v52 y
  refine congrArg _ ?_
  funext a; apply Fin.ext
  match a with
  | ⟨0, _⟩ => show win0_10.index t (0 : Fin 2) * 64 + 1 * (y 0).val = (y 0).val; omega
  | ⟨1, _⟩ => show win0_10.index t (1 : Fin 2) * 256 + 1 * (y 1).val = (y 1).val; omega

/-- Window 11's block index is `(0, 0)` at every point. -/
theorem idx_whole11 : ∀ t : Fin cfg0.N, win0_11.index t (0 : Fin 2) = 0 ∧ win0_11.index t (1 : Fin 2) = 0 :=
  (by decide +kernel : ∀ t : Fin grid0.N, _)

/-- So window 11's block is its whole array at every point. -/
theorem iblk11_eq (c : Dev nD) (t : Fin cfg0.N) : (iblk m c 11 t : Vec Ideal S1x256 .f32) = V m c main_call0_v53 := by
  obtain ⟨e0, e1⟩ := idx_whole11 t
  funext y
  show V m c main_call0_v53 (((cfg0.win 11).blk t).view.emb y) = V m c main_call0_v53 y
  refine congrArg _ ?_
  funext a; apply Fin.ext
  match a with
  | ⟨0, _⟩ => show win0_11.index t (0 : Fin 2) * 1 + 1 * (y 0).val = (y 0).val; omega
  | ⟨1, _⟩ => show win0_11.index t (1 : Fin 2) * 256 + 1 * (y 1).val = (y 1).val; omega

/-- Window 12's block index is `(0, 0)` at every point. -/
theorem idx_whole12 : ∀ t : Fin cfg0.N, win0_12.index t (0 : Fin 2) = 0 ∧ win0_12.index t (1 : Fin 2) = 0 :=
  (by decide +kernel : ∀ t : Fin grid0.N, _)

/-- So window 12's block is its whole array at every point. -/
theorem iblk12_eq (c : Dev nD) (t : Fin cfg0.N) : (iblk m c 12 t : Vec Ideal S256x1 .bf16) = V m c main_call0_v54 := by
  obtain ⟨e0, e1⟩ := idx_whole12 t
  funext y
  show V m c main_call0_v54 (((cfg0.win 12).blk t).view.emb y) = V m c main_call0_v54 y
  refine congrArg _ ?_
  funext a; apply Fin.ext
  match a with
  | ⟨0, _⟩ => show win0_12.index t (0 : Fin 2) * 256 + 1 * (y 0).val = (y 0).val; omega
  | ⟨1, _⟩ => show win0_12.index t (1 : Fin 2) * 1 + 1 * (y 1).val = (y 1).val; omega

/-- Window 13's block index is `(0, 0)` at every point. -/
theorem idx_whole13 : ∀ t : Fin cfg0.N, win0_13.index t (0 : Fin 2) = 0 ∧ win0_13.index t (1 : Fin 2) = 0 :=
  (by decide +kernel : ∀ t : Fin grid0.N, _)

/-- So window 13's block is its whole array at every point. -/
theorem iblk13_eq (c : Dev nD) (t : Fin cfg0.N) : (iblk m c 13 t : Vec Ideal S1x1 .f32) = V m c main_call0_v55 := by
  obtain ⟨e0, e1⟩ := idx_whole13 t
  funext y
  show V m c main_call0_v55 (((cfg0.win 13).blk t).view.emb y) = V m c main_call0_v55 y
  refine congrArg _ ?_
  funext a; apply Fin.ext
  match a with
  | ⟨0, _⟩ => show win0_13.index t (0 : Fin 2) * 1 + 1 * (y 0).val = (y 0).val; omega
  | ⟨1, _⟩ => show win0_13.index t (1 : Fin 2) * 1 + 1 * (y 1).val = (y 1).val; omega

/-! ## What a point writes back -/

/-- Row `r` of what the body leaves at point `t` is the row output of batch row `512 t + r`. -/
theorem out_row (c : Dev nD) (t : Fin cfg0.N) (r : Fin 512) (b : Fin 16384) (hb : b.val = 512 * t.val + r.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r 0)
      = Cert.Dlrm.outK (kW m c) (kE m c b) (kP m c b) (kWee m c) (kWed m c) (kWd m c) := by
  refine (out0_14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r).trans ?_
  rw [iblk2_eq m c t, iblk3_eq m c t, iblk4_eq m c t, iblk5_eq m c t, iblk6_eq m c t, iblk7_eq m c t, iblk8_eq m c t,
    iblk9_eq m c t, iblk10_eq m c t, iblk11_eq m c t, iblk12_eq m c t, iblk13_eq m c t]
  have e0 : (fun i d => (iblk m c 0 t : Vec Ideal S512x26x64 .bf16) (ix3 r i d)) = kE m c b :=
    funext fun i => funext fun d => iblk0_apply m c t r i d b hb
  rw [e0, iblk1_apply m c t r b hb]
  rfl

/-- The column of row outputs: entry `(b, 0)` is batch row `b`'s output. -/
def colOut (c : Dev nD) : S16384x1.Idx → EReal := fun i =>
  Cert.Dlrm.outK (kW m c) (kE m c (i 0)) (kP m c (i 0)) (kWee m c) (kWed m c) (kWd m c)

/-- What point `t` writes back is block `t` of the column of row outputs. -/
theorem flushed_eq (c : Dev nD) (t : Fin cfg0.N) :
    (dats m 0 c).flushed 14 t = ((cfg0.win 14).blk t).view.read (Elt Ideal) (colOut m c) := by
  show (cfg0.win 14).cut (grid0.coords t) ((dats m 0 c).after 14 t) = _
  rw [after0_14]
  obtain ⟨-, -, -, -, -, e0, e1⟩ := idx_rows t
  have ht : t.val < 32 := lt_of_lt_of_eq t.isLt N_0
  funext (y : S512x1.Idx)
  obtain ⟨r, z, rfl⟩ : ∃ r z, y = ix2 r z := ⟨y 0, y 1, eq_ix2 y⟩
  obtain rfl : z = 0 := Subsingleton.elim _ _
  have hr : r.val < 512 := r.isLt
  have hemb : ((cfg0.win 14).blk t).view.emb (ix2 r 0) = (ix2 (⟨512 * t.val + r.val, by omega⟩ : Fin 16384) 0 : S16384x1.Idx) := by
    funext a; apply Fin.ext
    match a with
    | ⟨0, _⟩ => show win0_14.index t (0 : Fin 2) * 512 + 1 * r.val = 512 * t.val + r.val; omega
    | ⟨1, _⟩ => show win0_14.index t (1 : Fin 2) * 1 + 1 * 0 = 0; omega
  show _ = colOut m c (((cfg0.win 14).blk t).view.emb (ix2 r 0))
  rw [hemb]
  exact out_row m c t r _ rfl

/-! ## The 32 blocks cover the column -/

/-- Batch row `b` lies in the block of point `b / 512`. -/
theorem cover (i : S16384x1.Idx) :
    ∃ t : Fin cfg0.N, (cfg0.win 14).flush t = true ∧ i ∈ ((cfg0.win 14).blk t).view.set := by
  have hi0 : (i 0).val < 16384 := (i 0).isLt
  have hi1 : (i 1).val < 1 := (i 1).isLt
  have hN : cfg0.N = 32 := N_0
  obtain ⟨t, ht⟩ : ∃ t : Fin cfg0.N, t.val = (i 0).val / 512 := ⟨⟨(i 0).val / 512, by omega⟩, rfl⟩
  obtain ⟨-, -, -, -, -, e0, e1⟩ := idx_rows t
  refine ⟨t, flush0_14 t, ?_⟩
  show i ∈ ((View.whole main_call0_v56).slice (win0_14.rect t)).set
  rw [View.set_slice_whole, Rect.mem_set_unit]
  intro a
  match a with
  | ⟨0, _⟩ =>
    show win0_14.index t (0 : Fin 2) * 512 ≤ (i 0).val ∧ (i 0).val < win0_14.index t (0 : Fin 2) * 512 + 512
    omega
  | ⟨1, _⟩ =>
    show win0_14.index t (1 : Fin 2) * 1 ≤ (i 1).val ∧ (i 1).val < win0_14.index t (1 : Fin 2) * 1 + 1
    omega

/-- So the output window's array ends the region holding the column of row outputs. -/
theorem final (c : Dev nD) : (dats m 0 c).arrAt 14 cfg0.N = colOut m c :=
  (dats m 0 c).arrAt_eq_of_cover 14 (colOut m c) (fun t _ => flushed_eq m c t) cover

/-! ## The host operation after the region -/

/-- The reshape of the column to a vector leaves entry `b` at batch row `b`'s output. -/
theorem tail_eq (c : Dev nD) :
    Pipeline.afterTail₀ cfgs (dats m) 0 (V0 m) [hostOps1] c main_v0
      = Cert.Dlrm.ofRow (fun b => Cert.Dlrm.outK (kW m c) (kE m c b) (kP m c b) (kWee m c) (kWed m c) (kWd m c)) := by
  unfold Pipeline.afterTail₀
  show StableHlo.after hostOps1 _ (Proc.devRef .tc main_v0) = _
  after_results
  have hW : Pipeline.withArrays (cfgs 0).spec c (V0 m c) (fun w => (dats m 0 c).arrAt w (cfgs 0).N)
      (Proc.devRef .tc main_call0_v56) = colOut m c :=
    (Pipeline.withArrays_arr spec0 launch0.win.arr_inj c _ _ 14).trans (final m c)
  funext j
  show shapeCast S16384 (Pipeline.withArrays (cfgs 0).spec c (V0 m c) (fun w => (dats m 0 c).arrAt w (cfgs 0).N)
      (Proc.devRef .tc main_call0_v56)) shapeCasts_S16384x1_S16384 j = _
  rw [hW]
  refine (shapeCast_apply (colOut m c) shapeCasts_S16384x1_S16384 j (ix2 (j 0) 0) ?_).trans ?_
  · rw [Shape.rowMajor_val_two, Shape.rowMajor_val_one]
    show (j 0).val * 1 + 0 = (j 0).val
    omega
  · rfl

end Run

/-! ## The run -/

theorem run_blocks : θ_run (defs (F := Ideal)) (onTc (τ := τ) (main (F := Ideal))) ⟨m, fun _ => 0, ρ⟩ (fun r => ∀ c : Dev nD,
      r.2.mem ((c.tc : Thread nD τ).loc main_v0)
        = Cert.Dlrm.ofRow (fun b => Cert.Dlrm.outK (kW m c) (kE m c b) (kP m c b) (kWee m c) (kWed m c) (kWd m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run defs _ _).mono (fun _ h c =>
    ⟨((h c).2 main_v0 (Pipeline.mem_restRefs_of main_v0 (by decide) (by decide))).trans (Run.tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.KVal

end
-- ==== Proof.KHostA.lean ====
/-
  What the host operations before the region leave in the windows' arrays, from the argument arrays: the gathered
  embedding vectors, the reshaped and narrowed weights, the last 64 rows of the top matrix.
-/
import proofs.«419748_j21122649161846_3_alg».proof.Proof.KNames
import Idealize.ShloMosaic.Lib.ValueLayout
import Idealize.ShloMosaic.Lib.StableHlo.Run

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

namespace HostA

/-- A vector viewed as a one-row matrix, read back along its row, is the vector. -/
theorem row_of_cast {a : ℕ} (x : (⟨1, ![a]⟩ : Shape).Idx → EReal)
    (h : (⟨1, ![a]⟩ : Shape).ShapeCasts ⟨2, ![1, a]⟩) :
    (fun i : (⟨1, ![a]⟩ : Shape).Idx => shapeCast ⟨2, ![1, a]⟩ x h (ix2 (0 : Fin 1) (i 0))) = x := by
  funext i
  exact (shapeCast_a_1a_apply x h 0 (i 0)).trans (congrArg x (eq_ix1 i).symm)

/-! ## The gathered embedding vectors

The start indices of the gather are, per (row, field), the pair (field number, table row): the field number is an
iota wrapped by the field count, the table row the clipped index word, transposed to (row, field) and wrapped by the
table's length. The gather clamps each start into its axis and copies the 64 entries of the table row. -/

/-- The index words clipped to `[0, 99999]`, per (field, row). -/
def clipW (a0 : IVec S26x16384 32) : IVec S26x16384 32 :=
  minsi (broadcastInDim S26x16384 ![] bcast_S_S26x16384 (id (constantI S_ 32 99999#32)))
    (maxsi (broadcastInDim S26x16384 ![] bcast_S_S26x16384 (id (constantI S_ 32 0#32))) a0)

/-- The clipped words per (row, field). -/
def clipT (a0 : IVec S26x16384 32) : IVec S16384x26 32 :=
  transpose S16384x26 [1, 0] (clipW a0) transposes_S26x16384_S16384x26_1_0

/-- The clipped words wrapped by the table's length. -/
def rowW (a0 : IVec S26x16384 32) : IVec S16384x26 32 :=
  select (cmpi .slt (clipT a0) (broadcastInDim S16384x26 ![] bcast_S_S16384x26 (constantI S_ 32 0#32)))
    (addi (clipT a0) (broadcastInDim S16384x26 ![] bcast_S_S16384x26 (constantI S_ 32 100000#32))) (clipT a0)

/-- The field numbers as a one-row matrix. -/
def fieldI : IVec S1x26 32 := broadcastInDim S1x26 ![1] bcast_S26_S1x26_1 (iotaInDim S26 32 0)

/-- The field numbers wrapped by the field count. -/
def fieldW : IVec S1x26 32 :=
  select (cmpi .slt fieldI (broadcastInDim S1x26 ![] bcast_S_S1x26 (constantI S_ 32 0#32)))
    (addi fieldI (broadcastInDim S1x26 ![] bcast_S_S1x26 (constantI S_ 32 26#32))) fieldI

/-- The gather's start indices: per (row, field) the pair (field number, table row). -/
def startW (a0 : IVec S26x16384 32) : IVec S16384x26x2 32 :=
  concatenate S16384x26x2 2
    [⟨S16384x26x1, broadcastInDim S16384x26x1 ![0, 1] bcast_S16384x26_S16384x26x1_0_1
        (broadcastInDim S16384x26 ![0, 1] bcast_S1x26_S16384x26_0_1 fieldW)⟩,
     ⟨S16384x26x1, broadcastInDim S16384x26x1 ![0, 1] bcast_S16384x26_S16384x26x1_0_1 (rowW a0)⟩]
    concatenates_S16384x26x1_S16384x26x1_S16384x26x2_d2

/-- A broadcast scalar constant reads the constant everywhere. -/
theorem bcast_const {t : Shape} (h : S_.BroadcastsInDim t ![]) (w : BitVec 32) (j : t.Idx) :
    broadcastInDim t ![] h (constantI S_ 32 w) j = w :=
  broadcastInDim_apply (s := S_) ![] h _ j ix0 (fun a => a.elim0)

/-- The clipped word of row `b`, field `i`. -/
theorem clipT_apply (a0 : IVec S26x16384 32) (b : Fin 16384) (i : Fin 26) :
    clipT a0 (ix2 b i) = IntOp.minsi 99999#32 (IntOp.maxsi 0#32 (a0 (ix2 i b))) := by
  refine (transpose_ix2_apply (clipW a0) transposes_S26x16384_S16384x26_1_0 b i).trans ?_
  show IntOp.minsi (broadcastInDim S26x16384 ![] bcast_S_S26x16384 (constantI S_ 32 99999#32) (ix2 i b))
    (IntOp.maxsi (broadcastInDim S26x16384 ![] bcast_S_S26x16384 (constantI S_ 32 0#32) (ix2 i b)) (a0 (ix2 i b))) = _
  rw [bcast_const, bcast_const]

/-- The wrapped table row of row `b`, field `i`. -/
theorem rowW_apply (a0 : IVec S26x16384 32) (b : Fin 16384) (i : Fin 26) :
    rowW a0 (ix2 b i)
      = Scalar.select (IntOp.cmpi .slt (IntOp.minsi 99999#32 (IntOp.maxsi 0#32 (a0 (ix2 i b)))) 0#32)
          (IntOp.addi (IntOp.minsi 99999#32 (IntOp.maxsi 0#32 (a0 (ix2 i b)))) 100000#32)
          (IntOp.minsi 99999#32 (IntOp.maxsi 0#32 (a0 (ix2 i b)))) := by
  show Scalar.select (IntOp.cmpi .slt (clipT a0 (ix2 b i)) (broadcastInDim S16384x26 ![] bcast_S_S16384x26 (constantI S_ 32 0#32) (ix2 b i)))
    (IntOp.addi (clipT a0 (ix2 b i)) (broadcastInDim S16384x26 ![] bcast_S_S16384x26 (constantI S_ 32 100000#32) (ix2 b i)))
    (clipT a0 (ix2 b i)) = _
  rw [clipT_apply, bcast_const, bcast_const]

/-- The wrapped field number of field `i`. -/
theorem fieldW_apply (i : Fin 26) :
    fieldW (ix2 (0 : Fin 1) i)
      = Scalar.select (IntOp.cmpi .slt (BitVec.ofNat 32 i.val) 0#32) (IntOp.addi (BitVec.ofNat 32 i.val) 26#32)
          (BitVec.ofNat 32 i.val) := by
  have hI : fieldI (ix2 (0 : Fin 1) i) = BitVec.ofNat 32 i.val :=
    broadcastInDim_apply (s := S26) (t := S1x26) ![1] bcast_S26_S1x26_1 (iotaInDim S26 32 0) (ix2 (0 : Fin 1) i) (ix1 i)
      (fun a => match a with | ⟨0, _⟩ => rfl)
  show Scalar.select (IntOp.cmpi .slt (fieldI (ix2 (0 : Fin 1) i)) (broadcastInDim S1x26 ![] bcast_S_S1x26 (constantI S_ 32 0#32) (ix2 (0 : Fin 1) i)))
    (IntOp.addi (fieldI (ix2 (0 : Fin 1) i)) (broadcastInDim S1x26 ![] bcast_S_S1x26 (constantI S_ 32 26#32) (ix2 (0 : Fin 1) i)))
    (fieldI (ix2 (0 : Fin 1) i)) = _
  rw [hI, bcast_const, bcast_const]

/-- A field number below 26 is not negative as a word, so it is not wrapped, and the clamp into `[0, 25]` leaves it. -/
theorem field_clamp : ∀ i : Fin 26,
    min (Scalar.select (IntOp.cmpi .slt (BitVec.ofNat 32 i.val) 0#32) (IntOp.addi (BitVec.ofNat 32 i.val) 26#32)
      (BitVec.ofNat 32 i.val)).toInt.toNat 25 = i.val := by
  decide

/-- The start indices' first component at (row `b`, field `i`): the wrapped field number. -/
theorem startW_field (a0 : IVec S26x16384 32) (b : Fin 16384) (i : Fin 26) :
    startW a0 (ix3 b i (0 : Fin 2)) = fieldW (ix2 (0 : Fin 1) i) := by
  refine (concatenate_pair_apply_left (t := S16384x26x2) (s₁ := S16384x26x1) (s₂ := S16384x26x1) (2 : Fin 3) _ _
    concatenates_S16384x26x1_S16384x26x1_S16384x26x2_d2 (ix3 b i (0 : Fin 2)) rfl (ix3 b i (0 : Fin 1))
    (fun k => match k with | ⟨0, _⟩ => rfl | ⟨1, _⟩ => rfl | ⟨2, _⟩ => rfl)).trans ?_
  refine (broadcastInDim_apply (s := S16384x26) (t := S16384x26x1) ![0, 1] bcast_S16384x26_S16384x26x1_0_1 _
    (ix3 b i (0 : Fin 1)) (ix2 b i) (fun a => match a with | ⟨0, _⟩ => rfl | ⟨1, _⟩ => rfl)).trans ?_
  exact broadcastInDim_apply (s := S1x26) (t := S16384x26) ![0, 1] bcast_S1x26_S16384x26_0_1 _
    (ix2 b i) (ix2 (0 : Fin 1) i) (fun a => match a with | ⟨0, _⟩ => rfl | ⟨1, _⟩ => rfl)

/-- The start indices' second component at (row `b`, field `i`): the wrapped table row. -/
theorem startW_row (a0 : IVec S26x16384 32) (b : Fin 16384) (i : Fin 26) :
    startW a0 (ix3 b i (1 : Fin 2)) = rowW a0 (ix2 b i) := by
  refine (concatenate_pair_apply_right (t := S16384x26x2) (s₁ := S16384x26x1) (s₂ := S16384x26x1) (2 : Fin 3) _ _
    concatenates_S16384x26x1_S16384x26x1_S16384x26x2_d2 (ix3 b i (1 : Fin 2)) rfl rfl (ix3 b i (0 : Fin 1))
    (fun k hk => match k, hk with
      | ⟨0, _⟩, _ => rfl
      | ⟨1, _⟩, _ => rfl
      | ⟨2, _⟩, hk => absurd rfl hk) rfl).trans ?_
  exact broadcastInDim_apply (s := S16384x26) (t := S16384x26x1) ![0, 1] bcast_S16384x26_S16384x26x1_0_1 _
    (ix3 b i (0 : Fin 1)) (ix2 b i) (fun a => match a with | ⟨0, _⟩ => rfl | ⟨1, _⟩ => rfl)

/-- The gather's operand index at (row `b`, field `i`, entry `d`): the two clamped start components, then the
    entry's own position. -/
theorem gather_idx (idx : IVec S16384x26x2 32) (b : Fin 16384) (i : Fin 26) (d : Fin 64) (r0 : Fin 26) (r1 : Fin 100000)
    (h0 : min (idx (ix3 b i (0 : Fin 2))).toInt.toNat 25 = r0.val)
    (h1 : min (idx (ix3 b i (1 : Fin 2))).toInt.toNat 99999 = r1.val) :
    gather_S26x100000x64_S16384x26x2_S16384x26x64_2_01_n_n_01_2_1164.operandIdx (ix3 b i d) idx = ix3 r0 r1 d := by
  funext a
  match a with
  | ⟨0, _⟩ =>
    apply Fin.ext
    show gather_S26x100000x64_S16384x26x2_S16384x26x64_2_01_n_n_01_2_1164.start (ix3 b i d) idx (0 : Fin 3)
      + gather_S26x100000x64_S16384x26x2_S16384x26x64_2_01_n_n_01_2_1164.batchCoord (ix3 b i d) (0 : Fin 3)
      + gather_S26x100000x64_S16384x26x2_S16384x26x64_2_01_n_n_01_2_1164.offCoord (ix3 b i d) (0 : Fin 3) = r0.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S26x100000x64_S16384x26x2_S16384x26x64_2_01_n_n_01_2_1164.startIndexMap by decide)]
    have hsi : gather_S26x100000x64_S16384x26x2_S16384x26x64_2_01_n_n_01_2_1164.siIdx (ix3 b i d)
        ⟨List.idxOf (0 : Fin 3) gather_S26x100000x64_S16384x26x2_S16384x26x64_2_01_n_n_01_2_1164.startIndexMap,
          List.idxOf_lt_length_iff.2 (by decide)⟩ = ix3 b i (0 : Fin 2) := by
      funext k; refine Fin.ext ?_
      match k with
      | ⟨0, _⟩ => rfl
      | ⟨1, _⟩ => rfl
      | ⟨2, _⟩ => rfl
    rw [hsi]
    exact h0
  | ⟨1, _⟩ =>
    apply Fin.ext
    show gather_S26x100000x64_S16384x26x2_S16384x26x64_2_01_n_n_01_2_1164.start (ix3 b i d) idx (1 : Fin 3)
      + gather_S26x100000x64_S16384x26x2_S16384x26x64_2_01_n_n_01_2_1164.batchCoord (ix3 b i d) (1 : Fin 3)
      + gather_S26x100000x64_S16384x26x2_S16384x26x64_2_01_n_n_01_2_1164.offCoord (ix3 b i d) (1 : Fin 3) = r1.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S26x100000x64_S16384x26x2_S16384x26x64_2_01_n_n_01_2_1164.startIndexMap by decide)]
    have hsi : gather_S26x100000x64_S16384x26x2_S16384x26x64_2_01_n_n_01_2_1164.siIdx (ix3 b i d)
        ⟨List.idxOf (1 : Fin 3) gather_S26x100000x64_S16384x26x2_S16384x26x64_2_01_n_n_01_2_1164.startIndexMap,
          List.idxOf_lt_length_iff.2 (by decide)⟩ = ix3 b i (1 : Fin 2) := by
      funext k; refine Fin.ext ?_
      match k with
      | ⟨0, _⟩ => rfl
      | ⟨1, _⟩ => rfl
      | ⟨2, _⟩ => rfl
    rw [hsi]
    exact h1
  | ⟨2, _⟩ =>
    apply Fin.ext
    show gather_S26x100000x64_S16384x26x2_S16384x26x64_2_01_n_n_01_2_1164.start (ix3 b i d) idx (2 : Fin 3)
      + gather_S26x100000x64_S16384x26x2_S16384x26x64_2_01_n_n_01_2_1164.batchCoord (ix3 b i d) (2 : Fin 3)
      + gather_S26x100000x64_S16384x26x2_S16384x26x64_2_01_n_n_01_2_1164.offCoord (ix3 b i d) (2 : Fin 3) = d.val
    rw [GatherDims.batchCoord_eq_zero _ _ _ List.not_mem_nil]
    have hs : gather_S26x100000x64_S16384x26x2_S16384x26x64_2_01_n_n_01_2_1164.start (ix3 b i d) idx (2 : Fin 3) = 0 := by
      unfold GatherDims.start
      rw [dif_neg (show (2 : Fin 3) ∉ gather_S26x100000x64_S16384x26x2_S16384x26x64_2_01_n_n_01_2_1164.startIndexMap by decide)]
    have ho : gather_S26x100000x64_S16384x26x2_S16384x26x64_2_01_n_n_01_2_1164.offCoord (ix3 b i d) (2 : Fin 3) = d.val := by
      unfold GatherDims.offCoord
      rw [dif_pos ((GatherDims.mem_sKept _ _).mpr ⟨by decide, List.not_mem_nil⟩)]
      rfl
    rw [hs, ho]
    omega

set_option maxHeartbeats 40000000 in
/-- The embedding window's array: the gather of the tables at the start indices, narrowed. -/
theorem e19 (c : Dev nD) : (V m c main_call0_v19 : S16384x26x64.Idx → EReal)
    = (truncf (F := Ideal) .bf16 (Host.gather gather_S26x100000x64_S16384x26x2_S16384x26x64_2_01_n_n_01_2_1164
        (m ((c.tc : Thread nD τ).loc main_arg2) : S26x100000x64.Idx → EReal)
        (startW (m ((c.tc : Thread nD τ).loc main_arg0)))) bitsLt_bf16_f32 : FVec Ideal S16384x26x64 .bf16) := by
  show StableHlo.after hostOps0 (fun b => m (c, b)) (Proc.devRef .tc main_call0_v19) = _
  after_results
  rfl

end HostA

set_option maxHeartbeats 4000000 in
theorem kW_eq (c : Dev nD) : kW m c = Cert.Dlrm.mkW (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg10)) (m ((c.tc : Thread nD τ).loc main_arg11))
    (m ((c.tc : Thread nD τ).loc main_arg12)) := by
  -- the reshaped biases: each vector as a one-row matrix
  have e21 : (V m c main_call0_v21 : S1x64.Idx → EReal)
      = shapeCast S1x64 (m ((c.tc : Thread nD τ).loc main_arg4)) shapeCasts_S64_S1x64 := by
    show StableHlo.after hostOps0 (fun b => m (c, b)) (Proc.devRef .tc main_call0_v21) = _
    after_results_simp
    rfl
  have e23 : (V m c main_call0_v23 : S1x128.Idx → EReal)
      = shapeCast S1x128 (m ((c.tc : Thread nD τ).loc main_arg6)) shapeCasts_S128_S1x128 := by
    show StableHlo.after hostOps0 (fun b => m (c, b)) (Proc.devRef .tc main_call0_v23) = _
    after_results_simp
    rfl
  have e25 : (V m c main_call0_v25 : S1x64.Idx → EReal)
      = shapeCast S1x64 (m ((c.tc : Thread nD τ).loc main_arg8)) shapeCasts_S64_S1x64 := by
    show StableHlo.after hostOps0 (fun b => m (c, b)) (Proc.devRef .tc main_call0_v25) = _
    after_results_simp
    rfl
  have e53 : (V m c main_call0_v53 : S1x256.Idx → EReal)
      = shapeCast S1x256 (m ((c.tc : Thread nD τ).loc main_arg10)) shapeCasts_S256_S1x256 := by
    show StableHlo.after hostOps0 (fun b => m (c, b)) (Proc.devRef .tc main_call0_v53) = _
    after_results_simp
    rfl
  have e55 : (V m c main_call0_v55 : S1x1.Idx → EReal)
      = shapeCast S1x1 (m ((c.tc : Thread nD τ).loc main_arg12)) shapeCasts_S1_S1x1 := by
    show StableHlo.after hostOps0 (fun b => m (c, b)) (Proc.devRef .tc main_call0_v55) = _
    after_results_simp
    rfl
  -- the narrowed matrices: a format change is the identity on extended reals
  have e22 : (V m c main_call0_v22 : S64x128.Idx → EReal) = m ((c.tc : Thread nD τ).loc main_arg5) := by
    show StableHlo.after hostOps0 (fun b => m (c, b)) (Proc.devRef .tc main_call0_v22) = _
    after_results_simp
    rfl
  have e24 : (V m c main_call0_v24 : S128x64.Idx → EReal) = m ((c.tc : Thread nD τ).loc main_arg7) := by
    show StableHlo.after hostOps0 (fun b => m (c, b)) (Proc.devRef .tc main_call0_v24) = _
    after_results_simp
    rfl
  have e54 : (V m c main_call0_v54 : S256x1.Idx → EReal) = m ((c.tc : Thread nD τ).loc main_arg11) := by
    show StableHlo.after hostOps0 (fun b => m (c, b)) (Proc.devRef .tc main_call0_v54) = _
    after_results_simp
    rfl
  unfold kW
  rw [Gen.V_main_arg3, e21, e22, e23, e24, e25, e53, e54, e55]
  rw [HostA.row_of_cast, HostA.row_of_cast, HostA.row_of_cast, HostA.row_of_cast, HostA.row_of_cast]

theorem kE_eq (c : Dev nD) (b : Fin 16384) (i : Fin 26) (d : Fin 64) :
    kE m c b i d = m ((c.tc : Thread nD τ).loc main_arg2) (ix3 i (Cert.Dlrm.rowK (m ((c.tc : Thread nD τ).loc main_arg0) (ix2 i b))) d) := by
  show V m c main_call0_v19 (ix3 b i d) = _
  rw [HostA.e19, truncf_apply]
  show m ((c.tc : Thread nD τ).loc main_arg2)
    (gather_S26x100000x64_S16384x26x2_S16384x26x64_2_01_n_n_01_2_1164.operandIdx (ix3 b i d)
      (HostA.startW (m ((c.tc : Thread nD τ).loc main_arg0)))) = _
  rw [HostA.gather_idx (HostA.startW (m ((c.tc : Thread nD τ).loc main_arg0))) b i d i
    (Cert.Dlrm.rowK (m ((c.tc : Thread nD τ).loc main_arg0) (ix2 i b)))
    (by rw [HostA.startW_field, HostA.fieldW_apply]; exact HostA.field_clamp i)
    (by rw [HostA.startW_row, HostA.rowW_apply]; rfl)]

set_option maxHeartbeats 4000000 in
theorem kP_eq (c : Dev nD) (b : Fin 16384) : kP m c b = m ((c.tc : Thread nD τ).loc main_arg1) (ix1 b) := by
  -- the price vector as a one-column matrix
  have e : (V m c main_call0_v20 : S16384x1.Idx → EReal)
      = shapeCast S16384x1 (m ((c.tc : Thread nD τ).loc main_arg1)) shapeCasts_S16384_S16384x1 := by
    show StableHlo.after hostOps0 (fun b => m (c, b)) (Proc.devRef .tc main_call0_v20) = _
    after_results_simp
    rfl
  show V m c main_call0_v20 (ix2 b 0) = _
  rw [e]
  exact shapeCast_apply (s := S16384) (t := S16384x1) _ _ _ _ (by
    rw [Shape.rowMajor_val_two, Shape.rowMajor_val_one]
    show b.val = b.val * 1 + 0
    omega)

set_option maxHeartbeats 4000000 in
theorem kWd_eq (c : Dev nD) (j : Fin 64) (n : Fin 256) :
    kWd m c j n = m ((c.tc : Thread nD τ).loc main_arg9) (ix2 (⟨351 + j.val, by omega⟩ : Fin 415) n) := by
  -- rows 351 … 414 of the top matrix, narrowed
  have e : (V m c main_call0_v52 : S64x256.Idx → EReal)
      = (truncf (F := Ideal) .bf16 (extractStridedSlice S64x256 ![351, 0]
          (m ((c.tc : Thread nD τ).loc main_arg9) : S415x256.Idx → EReal) slices_S415x256_S64x256_351_0)
          bitsLt_bf16_f32 : FVec Ideal S64x256 .bf16) := by
    show StableHlo.after hostOps0 (fun b => m (c, b)) (Proc.devRef .tc main_call0_v52) = _
    after_results_simp
    rfl
  show V m c main_call0_v52 (ix2 j n) = _
  rw [e, truncf_apply]
  exact slice2_axis0_apply 351 _ _ j n _ rfl

end Cert.KernelIdeal.KVal

end
-- ==== Proof.KVal.lean ====
/-
  The kernel program's run with its result as a function of the ARGUMENT arrays (and of the two scattered slabs):
  the run over what the region finds in its windows' arrays, with each of those read back to the arguments.
-/
import proofs.«419748_j21122649161846_3_alg».proof.Proof.KRun
import proofs.«419748_j21122649161846_3_alg».proof.Proof.KHostA

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v0)
        = Cert.Dlrm.specK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (kWee m c) (kWed m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) := by
  refine (θ_run (defs (F := Ideal)) _ _).mono (fun r h c => ⟨(h c).1.trans ?_, (h c).2⟩) (run_blocks m ρ)
  unfold Cert.Dlrm.specK
  refine congrArg Cert.Dlrm.ofRow (funext fun b => ?_)
  rw [kW_eq m c, kP_eq m c b,
    show kE m c b = (fun i d => m ((c.tc : Thread nD τ).loc main_arg2)
        (ix3 i (Cert.Dlrm.rowK (m ((c.tc : Thread nD τ).loc main_arg0) (ix2 i b))) d)) from
      funext fun i => funext fun d => kE_eq m c b i d,
    show kWd m c = (fun (j : Fin 64) n => m ((c.tc : Thread nD τ).loc main_arg9) (ix2 (⟨351 + j.val, by omega⟩ : Fin 415) n)) from
      funext fun j => funext fun n => kWd_eq m c j n]

end Cert.KernelIdeal.KVal

end
-- ==== Proof.Tables.lean ====
/-
  The index tables the two programs carry as dense constants, read as functions between plain finite ranges.

  The reference lists the 351 pairs `(iuR k, juR k)`, `i < j < 27`, in row-major order. The kernel lists, for the 325
  pairs among the 26 embedding vectors, the pair's position `selK` in that list and its flat position `flatK = 26 i + j`
  in the 26×26 Gram matrix; and for the 26 pairs with the dense vector, the pair's position `selD` in the list and its
  embedding index `posD`.
-/
import proofs.«419748_j21122649161846_3_alg».proof.KernelIdeal
import proofs.«419748_j21122649161846_3_alg».proof.ReferenceIdeal
import proofs.«419748_j21122649161846_3_alg».proof.Proof.Spec
import Mathlib.Order.Fin.Basic
import Mathlib.Data.Fintype.EquivFin
import Mathlib.Data.Fintype.Sum

namespace Cert.Dlrm.Tables

/-- First member of the reference's `k`-th pair. -/
def iuR (k : Fin 351) : Fin 27 := ⟨min (Cert.ReferenceIdeal.lit0 k).toInt.toNat 26, by omega⟩
/-- Second member of the reference's `k`-th pair. -/
def juR (k : Fin 351) : Fin 27 := ⟨min (Cert.ReferenceIdeal.lit1 k).toInt.toNat 26, by omega⟩
/-- Position, in the reference's list, of the kernel's `k`-th embedding–embedding pair. -/
def selK (k : Fin 325) : Fin 351 := ⟨min (Cert.KernelIdeal.lit0 k).toInt.toNat 350, by omega⟩
/-- Flat position `26 i + j` of the kernel's `k`-th embedding–embedding pair. -/
def flatK (k : Fin 325) : Fin 676 := ⟨min (Cert.KernelIdeal.lit1 k).toInt.toNat 675, by omega⟩
/-- Position, in the reference's list, of the pair (embedding `i`, dense). -/
def selD (i : Fin 26) : Fin 351 := ⟨min (Cert.KernelIdeal.lit2 i).toInt.toNat 350, by omega⟩
/-- The embedding index the kernel files that pair under. -/
def posD (i : Fin 26) : Fin 26 := ⟨min (Cert.KernelIdeal.lit3 i).toInt.toNat 25, by omega⟩

/-! ## What the tables say -/

/-- Distinct embedding–embedding pairs have distinct flat positions. -/
theorem flatK_injective : Function.Injective flatK := by
  -- The flat positions are listed in strictly increasing order: each is below its successor.
  have step : ∀ k : Fin 324, flatK k.castSucc < flatK k.succ := by decide +kernel
  exact ((Fin.strictMono_iff_lt_succ (f := flatK)).2 step).injective

/-- The pair (embedding `i`, dense) is filed under `i`. -/
theorem posD_eq (i : Fin 26) : posD i = i := by
  revert i; decide +kernel

/-- The kernel's `k`-th embedding–embedding pair is the reference's pair number `selK k`: both members are embedding
    vectors, and its flat position is `26 i + j`. -/
theorem pair_ee (k : Fin 325) : (iuR (selK k)).val < 26 ∧ (juR (selK k)).val < 26
    ∧ (flatK k).val = (iuR (selK k)).val * 26 + (juR (selK k)).val := by
  revert k; decide +kernel

/-- The reference's pair number `selD i` is (embedding `i`, dense). -/
theorem pair_ed (i : Fin 26) : (iuR (selD i)).val = i.val ∧ (juR (selD i)).val = 26 := by
  revert i; decide +kernel

/-- Every pair of the reference's list is exactly one of the kernel's: an embedding–embedding pair or an
    embedding–dense pair. -/
theorem sel_bijective : Function.Bijective (Sum.elim selK selD : Fin 325 ⊕ Fin 26 → Fin 351) := by
  -- Both sides have 351 elements, so it is enough that no pair of the reference's list is named twice.
  refine (Fintype.bijective_iff_injective_and_card _).2 ⟨?_, by simp⟩
  -- An embedding–embedding pair's position determines its flat position 26 i + j, which determines the pair.
  have injK : ∀ a b : Fin 325, selK a = selK b → a = b := fun a b h =>
    flatK_injective (Fin.ext (by rw [(pair_ee a).2.2, (pair_ee b).2.2, h]))
  -- An embedding–dense pair's position determines its first member i.
  have injD : ∀ a b : Fin 26, selD a = selD b → a = b := fun a b h =>
    Fin.ext (by rw [← (pair_ed a).1, ← (pair_ed b).1, h])
  -- The second member tells the two kinds apart: an embedding vector (below 26) against the dense vector (26).
  have disj : ∀ (a : Fin 325) (b : Fin 26), selK a ≠ selD b := fun a b h => by
    have h1 := (pair_ee a).2.1
    have h2 := (pair_ed b).2
    rw [h] at h1
    omega
  rintro (a | a) (b | b) h
  · exact congrArg Sum.inl (injK a b h)
  · exact absurd h (disj a b)
  · exact absurd h.symm (disj b a)
  · exact congrArg Sum.inr (injD a b h)

/-- The kernel's table words, read signed, are in range of the axes they index. -/
theorem words_K : (∀ k : Fin 325, 0 ≤ (Cert.KernelIdeal.lit0 k).toInt ∧ (Cert.KernelIdeal.lit0 k).toInt < 351
      ∧ 0 ≤ (Cert.KernelIdeal.lit1 k).toInt ∧ (Cert.KernelIdeal.lit1 k).toInt < 676)
    ∧ (∀ i : Fin 26, 0 ≤ (Cert.KernelIdeal.lit2 i).toInt ∧ (Cert.KernelIdeal.lit2 i).toInt < 351
      ∧ 0 ≤ (Cert.KernelIdeal.lit3 i).toInt ∧ (Cert.KernelIdeal.lit3 i).toInt < 26) := by
  refine ⟨?_, ?_⟩ <;> decide +kernel

/-- The reference's table words, read signed, are in range of the 27 stacked vectors. -/
theorem words_R : ∀ k : Fin 351, 0 ≤ (Cert.ReferenceIdeal.lit0 k).toInt ∧ (Cert.ReferenceIdeal.lit0 k).toInt < 27
      ∧ 0 ≤ (Cert.ReferenceIdeal.lit1 k).toInt ∧ (Cert.ReferenceIdeal.lit1 k).toInt < 27 := by
  decide +kernel

end Cert.Dlrm.Tables
-- ==== Proof.KHostB50.lean ====
/-
  The 676-row slab of the top weight matrix, as a term over the launched matrix.
-/
import proofs.«419748_j21122649161846_3_alg».proof.Proof.KNames

set_option Elab.async false

noncomputable section

namespace Cert.KernelIdeal.KVal.HostB

open Idealize.ShloMosaic Idealize.ShloMosaic.TcCoe Idealize.SL.Sem Idealize.ShloMosaic.ValueIdx
open Cert.KernelIdeal Cert.KernelIdeal.Gen

/-- Contents moved to a typed reference's buffer type and back are unchanged. -/
theorem ofBuf_toBuf {sg : RefSig} {Val : EltTy → Type} {T : BufTy} (x : StableHlo.TRef sg T) (v : T.Contents Val) :
    x.ofBuf (x.toBuf v) = v := by
  show cast _ (cast _ v) = v
  rw [cast_cast]
  exact cast_eq _ _

variable (m : (ℓ : Loc nD τ sig) → Buf (Elt Ideal) ℓ)

set_option maxHeartbeats 4000000 in
/-- The 676-row slab: zeros, overwritten at the rows the second table names by the rows of the top matrix the first
    table names. -/
theorem V50_eq (c : Dev nD) : (V m c main_call0_v50 : S676x256.Idx → EReal) =
    truncf .bf16 (Host.scatter scatter_S676x256_S325x1_S325x256_1_0_0_1 (fun _ b => b)
      (broadcastInDim S676x256 ![] Facts₀.bcast_S_S676x256 (constant (F := Ideal) S_ .f32 0x00000000#32))
      (broadcastInDim S325x1 ![0] Facts₀.bcast_S325_S325x1_0
        (select (constantI S325 1 0#1)
          (addi (fun i => lit1 (S325.rowMajor i)) (broadcastInDim S325 ![] Facts₀.bcast_S_S325 (constantI S_ 32 676#32)))
          (fun i => lit1 (S325.rowMajor i))))
      (Host.gather gather_S351x256_S325x1_S325x256_1_0_n_n_0_1_1256
        (extractStridedSlice S351x256 ![0, 0] (m ((c.tc : Thread nD τ).loc main_arg9)) Facts₀.slices_S415x256_S351x256_0_0)
        (broadcastInDim S325x1 ![0] Facts₀.bcast_S325_S325x1_0
          (select (constantI S325 1 0#1)
            (addi (fun i => lit0 (S325.rowMajor i)) (broadcastInDim S325 ![] Facts₀.bcast_S_S325 (constantI S_ 32 351#32)))
            (fun i => lit0 (S325.rowMajor i))))))
      Facts₀.bitsLt_bf16_f32 := by
  show StableHlo.after hostOps0 (fun b => m (c, b)) (Proc.devRef .tc main_call0_v50) = _
  after_results
  repeat (rw [ofBuf_toBuf])
  first | done | rfl

end Cert.KernelIdeal.KVal.HostB

end
-- ==== Proof.KHostB51.lean ====
/-
  The 26-row slab of the top weight matrix, as a term over the launched matrix.
-/
import proofs.«419748_j21122649161846_3_alg».proof.Proof.KNames
import proofs.«419748_j21122649161846_3_alg».proof.Proof.KHostB50

set_option Elab.async false

noncomputable section

namespace Cert.KernelIdeal.KVal.HostB

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

set_option maxHeartbeats 4000000 in
/-- The 26-row slab: zeros, overwritten at the rows the fourth table names by the rows of the top matrix the third
    table names. -/
theorem V51_eq (c : Dev nD) : (V m c main_call0_v51 : S26x256.Idx → EReal) =
    truncf .bf16 (Host.scatter scatter_S26x256_S26x1_S26x256_1_0_0_1 (fun _ b => b)
      (broadcastInDim S26x256 ![] Facts₀.bcast_S_S26x256 (constant (F := Ideal) S_ .f32 0x00000000#32))
      (broadcastInDim S26x1 ![0] Facts₀.bcast_S26_S26x1_0
        (select (constantI S26 1 0#1)
          (addi (fun i => lit3 (S26.rowMajor i)) (broadcastInDim S26 ![] Facts₀.bcast_S_S26 (constantI S_ 32 26#32)))
          (fun i => lit3 (S26.rowMajor i))))
      (Host.gather gather_S351x256_S26x1_S26x256_1_0_n_n_0_1_1256
        (extractStridedSlice S351x256 ![0, 0] (m ((c.tc : Thread nD τ).loc main_arg9)) Facts₀.slices_S415x256_S351x256_0_0)
        (broadcastInDim S26x1 ![0] Facts₀.bcast_S26_S26x1_0
          (select (constantI S26 1 0#1)
            (addi (fun i => lit2 (S26.rowMajor i)) (broadcastInDim S26 ![] Facts₀.bcast_S_S26 (constantI S_ 32 351#32)))
            (fun i => lit2 (S26.rowMajor i))))))
      Facts₀.bitsLt_bf16_f32 := by
  show StableHlo.after hostOps0 (fun b => m (c, b)) (Proc.devRef .tc main_call0_v51) = _
  after_results
  repeat (rw [ofBuf_toBuf])
  first | done | rfl

end Cert.KernelIdeal.KVal.HostB

end
-- ==== Proof.KHostB.lean ====
/-
  The two scattered slabs of the top weight matrix, as the region finds them.
-/
import proofs.«419748_j21122649161846_3_alg».proof.Proof.KNames
import proofs.«419748_j21122649161846_3_alg».proof.Proof.Tables
import proofs.«419748_j21122649161846_3_alg».proof.Proof.KHostB50
import proofs.«419748_j21122649161846_3_alg».proof.Proof.KHostB51
import Idealize.ShloMosaic.Lib.ValueLayout
import Idealize.ShloMosaic.PureOps.Ideal.Laws

noncomputable section

/-! ## Scatters that overwrite, and whole-row scatters and gathers, read at an index -/

namespace Cert.KernelIdeal.KHostB

open Idealize.ShloMosaic Idealize.ShloMosaic.ValueIdx

/-- A left fold of steps each of which either sets the value at `q` (when `P n`, to `v n`) or leaves it alone:
    if every setting step in the list sets `a`, and either some step sets or the start already holds `a` at `q`,
    the fold holds `a` at `q`. -/
theorem foldl_point_apply {ι σ α : Type} (step : (σ → α) → ι → σ → α) (P : ι → Prop) (v : ι → α) (q : σ) (a : α)
    (hhit : ∀ r n, P n → step r n q = v n) (hmiss : ∀ r n, ¬ P n → step r n q = r q) :
    ∀ (l : List ι) (x : σ → α), (∀ n ∈ l, P n → v n = a) → ((∃ n ∈ l, P n) ∨ x q = a) → l.foldl step x q = a
  | [], x, _, hx => by
      rcases hx with ⟨n, hn, _⟩ | hx
      · cases hn
      · exact hx
  | n :: l, x, hv, hx => by
      rw [List.foldl_cons]
      refine foldl_point_apply step P v q a hhit hmiss l (step x n) (fun n' hn' => hv n' (List.mem_cons_of_mem _ hn')) ?_
      by_cases hP : P n
      · right; rw [hhit x n hP]; exact hv n (List.mem_cons_self ..) hP
      · rcases hx with ⟨n', hn', hPn'⟩ | hx
        · rcases List.mem_cons.1 hn' with rfl | h
          · exact absurd hPn' hP
          · exact Or.inl ⟨n', h, hPn'⟩
        · right; rw [hmiss x n hP]; exact hx

/-- A scatter whose body returns the update, read at `q`: if every update element landing at `q` is `a`, and either
    one lands there or the operand already holds `a` there, the result holds `a` at `q`. -/
theorem scatter_set_apply {α : Type} {s si u : Shape} {w : Nat} (d : ScatterDims s si u) (x : s.Idx → α) (idx : IVec si w)
    (upd : u.Idx → α) (q : s.Idx) (a : α)
    (hv : ∀ j : u.Idx, d.resultIdx? j idx = some q → upd j = a)
    (hx : (∃ j : u.Idx, d.resultIdx? j idx = some q) ∨ x q = a) :
    Host.scatter d (fun _ b => b) x idx upd q = a := by
  unfold Host.scatter
  refine foldl_point_apply _ (fun n => d.resultIdx? (u.rowMajor.symm n) idx = some q) (fun n => upd (u.rowMajor.symm n)) q a
    ?_ ?_ _ x (fun n _ h => hv _ h) ?_
  · intro r n h
    dsimp only
    rw [h]
    exact if_pos rfl
  · intro r n h
    dsimp only
    generalize d.resultIdx? (u.rowMajor.symm n) idx = o at h ⊢
    cases o with
    | none => rfl
    | some i => exact if_neg (fun e => h (by rw [e]))
  · rcases hx with ⟨j, hj⟩ | hx
    · exact Or.inl ⟨u.rowMajor j, List.mem_finRange _, by rw [Equiv.symm_apply_apply]; exact hj⟩
    · exact Or.inr hx

/-! ## Row scatter and row gather: their dimension numbers read at an index -/

theorem one_not_mem_zero : (1 : Fin 2) ∉ ([0] : List (Fin 2)) := by decide
theorem zero_not_kept : (0 : Fin 2) ∉ (List.finRange 2).filter (fun a => a ∉ ([0] : List (Fin 2))) := by decide
theorem one_kept : (1 : Fin 2) ∈ (List.finRange 2).filter (fun a => a ∉ ([0] : List (Fin 2))) := by decide

/-- The dimension numbers of a scatter of whole rows: operand `[R, C]`, one row index per update row (`[K, 1]`),
    updates `[K, C]`. -/
abbrev rowScatter (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

/-- Element `(k, n)` of the updates lands at `(r, n)` when row `k`'s index word, read signed, is `r`. -/
theorem rowScatter_resultIdx {R K C w : Nat} (wf : ScatterDims.WF ⟨2, ![R, C]⟩ ⟨2, ![K, 1]⟩ ⟨2, ![K, C]⟩ [1] [0] [0] 1)
    (idx : IVec ⟨2, ![K, 1]⟩ w) (k : Fin K) (n : Fin C) (r : Fin R) (hr : (idx (ix2 k 0)).toInt = (r.val : Int)) :
    (rowScatter R K C wf).resultIdx? (ix2 k n) idx = some (ix2 r n) := by
  have hs0 : (rowScatter R K C wf).start (ix2 k n) idx 0 = (r.val : Int) := by
    unfold ScatterDims.start
    rw [dif_pos (show (0 : Fin 2) ∈ (rowScatter R K C wf).scatterDimsToOperandDims from List.mem_singleton.mpr rfl), ← hr]
    congr 2
    funext b
    match b with
    | ⟨0, _⟩ => rfl
    | ⟨1, _⟩ => rfl
  have hs1 : (rowScatter R K C wf).start (ix2 k n) idx 1 = 0 := by
    unfold ScatterDims.start
    rw [dif_neg (show (1 : Fin 2) ∉ (rowScatter R K C wf).scatterDimsToOperandDims from one_not_mem_zero)]
  have hw0 : (rowScatter R K C wf).window (ix2 k n) 0 = 0 := by
    unfold ScatterDims.window
    rw [dif_neg (show (0 : Fin 2) ∉ (rowScatter R K C wf).sKept from zero_not_kept)]
  have hw1 : (rowScatter R K C wf).window (ix2 k n) 1 = n.val := by
    unfold ScatterDims.window
    rw [dif_pos (show (1 : Fin 2) ∈ (rowScatter R K C wf).sKept from one_kept)]
    rfl
  have hall : ∀ a, 0 ≤ (rowScatter R K C wf).start (ix2 k n) idx a + (rowScatter R K C wf).window (ix2 k n) a
      ∧ (rowScatter R K C wf).start (ix2 k n) idx a + (rowScatter R K C wf).window (ix2 k n) a
        < (⟨2, ![R, C]⟩ : Shape).size a := by
    intro a
    match a with
    | ⟨0, _⟩ =>
      show 0 ≤ (rowScatter R K C wf).start (ix2 k n) idx 0 + ((rowScatter R K C wf).window (ix2 k n) 0 : Int)
        ∧ (rowScatter R K C wf).start (ix2 k n) idx 0 + ((rowScatter R K C wf).window (ix2 k n) 0 : Int) < (R : Int)
      rw [hs0, hw0]; have := r.isLt; omega
    | ⟨1, _⟩ =>
      show 0 ≤ (rowScatter R K C wf).start (ix2 k n) idx 1 + ((rowScatter R K C wf).window (ix2 k n) 1 : Int)
        ∧ (rowScatter R K C wf).start (ix2 k n) idx 1 + ((rowScatter R K C wf).window (ix2 k n) 1 : Int) < (C : Int)
      rw [hs1, hw1]; have := n.isLt; omega
  unfold ScatterDims.resultIdx?
  rw [dif_pos hall]
  congr 1
  funext a
  match a with
  | ⟨0, _⟩ =>
    apply Fin.ext
    show ((rowScatter R K C wf).start (ix2 k n) idx 0 + ((rowScatter R K C wf).window (ix2 k n) 0 : Int)).toNat = r.val
    rw [hs0, hw0]; omega
  | ⟨1, _⟩ =>
    apply Fin.ext
    show ((rowScatter R K C wf).start (ix2 k n) idx 1 + ((rowScatter R K C wf).window (ix2 k n) 1 : Int)).toNat = n.val
    rw [hs1, hw1]; omega

/-- The dimension numbers of a gather of whole rows: operand `[N, C]`, one row index per result row (`[K, 1]`),
    result `[K, C]`. -/
abbrev rowGather (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The row gather at `(k, n)`: the operand at `(row, n)`, the row being `k`'s index word read signed and clamped into
    the operand's rows. -/
theorem rowGather_apply {α : Type} {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (n : Fin C) :
    Host.gather (rowGather N K C wf) x idx (ix2 k n)
      = x (ix2 ⟨min (idx (ix2 k 0)).toInt.toNat (N - 1), by omega⟩ n) := by
  unfold Host.gather
  congr 1
  funext a
  match a with
  | ⟨0, _⟩ =>
    apply Fin.ext
    show (rowGather N K C wf).start (ix2 k n) idx 0 + (rowGather N K C wf).batchCoord (ix2 k n) 0
      + (rowGather N K C wf).offCoord (ix2 k n) 0 = min (idx (ix2 k 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowGather N K C wf).startIndexMap from List.mem_singleton.mpr rfl)]
    have hsi : (rowGather N K C wf).siIdx (ix2 k n) ⟨List.idxOf (0 : Fin 2) (rowGather N K C wf).startIndexMap,
        List.idxOf_lt_length_iff.2 (List.mem_singleton.mpr rfl)⟩ = ix2 k 0 := by
      funext b
      match b with
      | ⟨0, _⟩ => rfl
      | ⟨1, _⟩ => rfl
    rw [hsi]
    rfl
  | ⟨1, _⟩ =>
    apply Fin.ext
    show (rowGather N K C wf).start (ix2 k n) idx 1 + (rowGather N K C wf).batchCoord (ix2 k n) 1
      + (rowGather N K C wf).offCoord (ix2 k n) 1 = n.val
    rw [GatherDims.batchCoord_eq_zero _ _ _ List.not_mem_nil]
    unfold GatherDims.start
    rw [dif_neg (show (1 : Fin 2) ∉ (rowGather N K C wf).startIndexMap from one_not_mem_zero)]
    unfold GatherDims.offCoord
    rw [dif_pos ((GatherDims.mem_sKept _ _).mpr ⟨one_not_mem_zero, List.not_mem_nil⟩)]
    show 0 + 0 + n.val = n.val
    omega

/-- A vector laid as a one-column matrix reads, in row `k`, its entry `k`. -/
theorem bcastCol_apply {α : Type} {K : Nat} (h₁ : (⟨1, ![K]⟩ : Shape).BroadcastsInDim ⟨2, ![K, 1]⟩ ![0])
    (v : (⟨1, ![K]⟩ : Shape).Idx → α) (k : Fin K) :
    broadcastInDim ⟨2, ![K, 1]⟩ ![0] h₁ v (ix2 k 0) = v (ix1 k) := by
  unfold broadcastInDim
  congr 1
  funext a
  match a with
  | ⟨0, _⟩ =>
    apply Fin.ext
    split
    · next h1 => have hK : K = 1 := h1; have := k.isLt; show (0 : Nat) = k.val; omega
    · rfl

/-- An index column built from a table under a wrap-around select whose mask is all false: row `k` holds the
    table's entry `k`, unwrapped. -/
theorem idxCol_apply {K : Nat} (tab bump : IVec ⟨1, ![K]⟩ 32)
    (h₁ : (⟨1, ![K]⟩ : Shape).BroadcastsInDim ⟨2, ![K, 1]⟩ ![0]) (k : Fin K) :
    broadcastInDim ⟨2, ![K, 1]⟩ ![0] h₁ (select (constantI ⟨1, ![K]⟩ 1 0#1) (addi tab bump) tab) (ix2 k 0)
      = tab (ix1 k) := by
  rw [bcastCol_apply]
  exact select_zero _ _

end Cert.KernelIdeal.KHostB

namespace Cert.KernelIdeal.KVal

open Idealize.ShloMosaic Idealize.ShloMosaic.TcCoe Idealize.SL.Sem Idealize.ShloMosaic.ValueIdx
open Cert.KernelIdeal Cert.KernelIdeal.Gen Cert.Dlrm.Tables Cert.KernelIdeal.KHostB

variable (m : (ℓ : Loc nD τ sig) → Buf (Elt Ideal) ℓ)

namespace HostB

/-! ## The tables' words as rows -/

/-- Entry `k` of a 325-entry table read through the row-major position of the one-axis index `k`. -/
theorem tab325 (lit : Fin 325 → BitVec 32) (k : Fin 325) : lit (S325.rowMajor (ix1 k)) = lit k :=
  congrArg lit (Fin.ext (Shape.rowMajor_val_one _))

/-- Entry `i` of a 26-entry table likewise. -/
theorem tab26 (lit : Fin 26 → BitVec 32) (i : Fin 26) : lit (S26.rowMajor (ix1 i)) = lit i :=
  congrArg lit (Fin.ext (Shape.rowMajor_val_one _))

/-- The second table's word `k`, read signed, is the flat position `flatK k`. -/
theorem word_flatK (k : Fin 325) : (Cert.KernelIdeal.lit1 k).toInt = ((flatK k).val : Int) := by
  have h := words_K.1 k
  show _ = ((min (Cert.KernelIdeal.lit1 k).toInt.toNat 675 : Nat) : Int)
  generalize (Cert.KernelIdeal.lit1 k).toInt = z at h ⊢
  omega

/-- The fourth table's word `i`, read signed, is the row `posD i`. -/
theorem word_posD (i : Fin 26) : (Cert.KernelIdeal.lit3 i).toInt = ((posD i).val : Int) := by
  have h := words_K.2 i
  show _ = ((min (Cert.KernelIdeal.lit3 i).toInt.toNat 25 : Nat) : Int)
  generalize (Cert.KernelIdeal.lit3 i).toInt = z at h ⊢
  omega

/-- The zero slab holds zero everywhere. -/
theorem zeros_apply {t : Shape} (h : S_.BroadcastsInDim t ![]) (j : t.Idx) :
    broadcastInDim t ![] h (constant (F := Ideal) S_ .f32 0x00000000#32) j = 0 :=
  Ideal.ofBits_zero_f32

/-- Row `j` of the first 351 rows of the top matrix is its row `j`. -/
theorem top351_apply (W : S415x256.Idx → EReal) (j : Fin 351) (n : Fin 256) :
    extractStridedSlice S351x256 ![0, 0] W Facts₀.slices_S415x256_S351x256_0_0 (ix2 j n)
      = W (ix2 (Fin.castLE (by omega) j : Fin 415) n) :=
  slice2_axis0_apply 0 W _ j n _ (by show j.val = 0 + j.val; omega)

/-! ## The 676-row slab -/

/-- Where update element `(k, n)` of the 676-row slab lands: row `flatK k`. -/
theorem land50 (k : Fin 325) (n : Fin 256) :
    scatter_S676x256_S325x1_S325x256_1_0_0_1.resultIdx? (ix2 k n)
      (broadcastInDim S325x1 ![0] Facts₀.bcast_S325_S325x1_0
        (select (constantI S325 1 0#1)
          (addi (fun i => lit1 (S325.rowMajor i)) (broadcastInDim S325 ![] Facts₀.bcast_S_S325 (constantI S_ 32 676#32)))
          (fun i => lit1 (S325.rowMajor i))))
      = some (ix2 (flatK k) n) :=
  rowScatter_resultIdx Facts₀.scatter_S676x256_S325x1_S325x256_1_0_0_1_wf _ k n (flatK k)
    (by rw [idxCol_apply, tab325 lit1 k]; exact word_flatK k)

/-- Update row `k` of the 676-row slab is row `selK k` of the top matrix. -/
theorem upd50 (W : S415x256.Idx → EReal) (k : Fin 325) (n : Fin 256) :
    Host.gather gather_S351x256_S325x1_S325x256_1_0_n_n_0_1_1256
        (extractStridedSlice S351x256 ![0, 0] W Facts₀.slices_S415x256_S351x256_0_0)
        (broadcastInDim S325x1 ![0] Facts₀.bcast_S325_S325x1_0
          (select (constantI S325 1 0#1)
            (addi (fun i => lit0 (S325.rowMajor i)) (broadcastInDim S325 ![] Facts₀.bcast_S_S325 (constantI S_ 32 351#32)))
            (fun i => lit0 (S325.rowMajor i)))) (ix2 k n)
      = W (ix2 (Fin.castLE (by omega) (selK k) : Fin 415) n) := by
  refine (rowGather_apply (N := 351) (by omega) Facts₀.gather_S351x256_S325x1_S325x256_1_0_n_n_0_1_1256_wf _ _ k n).trans ?_
  refine (top351_apply W _ n).trans ?_
  congr 2
  apply Fin.ext
  show min _ (351 - 1) = min (Cert.KernelIdeal.lit0 k).toInt.toNat 350
  rw [idxCol_apply, tab325 lit0 k]

/-! ## The 26-row slab -/

/-- Where update element `(i, n)` of the 26-row slab lands: row `posD i`. -/
theorem land51 (i : Fin 26) (n : Fin 256) :
    scatter_S26x256_S26x1_S26x256_1_0_0_1.resultIdx? (ix2 i n)
      (broadcastInDim S26x1 ![0] Facts₀.bcast_S26_S26x1_0
        (select (constantI S26 1 0#1)
          (addi (fun i => lit3 (S26.rowMajor i)) (broadcastInDim S26 ![] Facts₀.bcast_S_S26 (constantI S_ 32 26#32)))
          (fun i => lit3 (S26.rowMajor i))))
      = some (ix2 (posD i) n) :=
  rowScatter_resultIdx Facts₀.scatter_S26x256_S26x1_S26x256_1_0_0_1_wf _ i n (posD i)
    (by rw [idxCol_apply, tab26 lit3 i]; exact word_posD i)

/-- Update row `i` of the 26-row slab is row `selD i` of the top matrix. -/
theorem upd51 (W : S415x256.Idx → EReal) (i : Fin 26) (n : Fin 256) :
    Host.gather gather_S351x256_S26x1_S26x256_1_0_n_n_0_1_1256
        (extractStridedSlice S351x256 ![0, 0] W Facts₀.slices_S415x256_S351x256_0_0)
        (broadcastInDim S26x1 ![0] Facts₀.bcast_S26_S26x1_0
          (select (constantI S26 1 0#1)
            (addi (fun i => lit2 (S26.rowMajor i)) (broadcastInDim S26 ![] Facts₀.bcast_S_S26 (constantI S_ 32 351#32)))
            (fun i => lit2 (S26.rowMajor i)))) (ix2 i n)
      = W (ix2 (Fin.castLE (by omega) (selD i) : Fin 415) n) := by
  refine (rowGather_apply (N := 351) (by omega) Facts₀.gather_S351x256_S26x1_S26x256_1_0_n_n_0_1_1256_wf _ _ i n).trans ?_
  refine (top351_apply W _ n).trans ?_
  congr 2
  apply Fin.ext
  show min _ (351 - 1) = min (Cert.KernelIdeal.lit2 i).toInt.toNat 350
  rw [idxCol_apply, tab26 lit2 i]

end HostB

open HostB

/-! ## The slabs by rows -/

/-- At the flat position of the `k`-th embedding–embedding pair the 676-row slab holds that pair's row of the top matrix. -/
theorem kWee_hit (c : Dev nD) (k : Fin 325) (n : Fin 256) :
    kWee m c (flatK k) n = m ((c.tc : Thread nD τ).loc main_arg9) (ix2 (Fin.castLE (by omega) (selK k) : Fin 415) n) := by
  refine (congrFun (V50_eq m c) (ix2 (flatK k) n)).trans ?_
  refine (truncf_apply (φ := .f32) (ψ := .bf16) _ Facts₀.bitsLt_bf16_f32 _).trans ?_
  refine scatter_set_apply _ _ _ _ _ _ (fun j hj => ?_) (Or.inl ⟨ix2 k n, land50 k n⟩)
  obtain ⟨k', n', rfl⟩ : ∃ k' n', j = ix2 k' n' := ⟨j 0, j 1, eq_ix2 j⟩
  rw [land50] at hj
  have e := Option.some.inj hj
  have e0 : flatK k' = flatK k := congrFun e 0
  have e1 : n' = n := congrFun e 1
  obtain rfl := flatK_injective e0
  subst e1
  exact upd50 _ k' n'

/-- Elsewhere it holds zero. -/
theorem kWee_miss (c : Dev nD) (q : Fin 676) (n : Fin 256) (h : ∀ k, flatK k ≠ q) : kWee m c q n = 0 := by
  refine (congrFun (V50_eq m c) (ix2 q n)).trans ?_
  refine (truncf_apply (φ := .f32) (ψ := .bf16) _ Facts₀.bitsLt_bf16_f32 _).trans ?_
  refine scatter_set_apply _ _ _ _ _ _ (fun j hj => ?_) (Or.inr (zeros_apply _ _))
  obtain ⟨k', n', rfl⟩ : ∃ k' n', j = ix2 k' n' := ⟨j 0, j 1, eq_ix2 j⟩
  rw [land50] at hj
  exact absurd (congrFun (Option.some.inj hj) 0) (h k')

/-- Row `i` of the 26-row slab is the row of the pair (embedding `i`, dense). -/
theorem kWed_eq (c : Dev nD) (i : Fin 26) (n : Fin 256) :
    kWed m c i n = m ((c.tc : Thread nD τ).loc main_arg9) (ix2 (Fin.castLE (by omega) (selD i) : Fin 415) n) := by
  refine (congrFun (V51_eq m c) (ix2 i n)).trans ?_
  have hland : ∀ i' n', _ = some (ix2 i' n') := fun i' n' => (land51 i' n').trans (by rw [posD_eq])
  refine (truncf_apply (φ := .f32) (ψ := .bf16) _ Facts₀.bitsLt_bf16_f32 _).trans ?_
  refine scatter_set_apply _ _ _ _ _ _ (fun j hj => ?_) (Or.inl ⟨ix2 i n, hland i n⟩)
  obtain ⟨i', n', rfl⟩ : ∃ i' n', j = ix2 i' n' := ⟨j 0, j 1, eq_ix2 j⟩
  rw [hland] at hj
  have e := Option.some.inj hj
  have e0 : i' = i := congrFun e 0
  have e1 : n' = n := congrFun e 1
  subst e0; subst e1
  exact upd51 _ i' n'

end Cert.KernelIdeal.KVal

end
-- ==== Proof.Algebra.lean ====
/-
  The two arrangements of the top layer agree on every row.
-/
import proofs.«419748_j21122649161846_3_alg».proof.Proof.Tables
import Mathlib.Algebra.BigOperators.Fin
import Mathlib.Data.Fintype.BigOperators

noncomputable section

namespace Cert.Dlrm

open Cert.Dlrm.Tables

/-- A sum of 415 terms is the sum of the first 351 plus the sum of the last 64. -/
theorem sum_415 (f : Fin 415 → EReal) :
    ∑ k : Fin 415, f k
      = (∑ k : Fin 351, f (Fin.castLE (by omega) k)) + ∑ j : Fin 64, f ⟨351 + j.val, by omega⟩ :=
  Fin.sum_univ_add (a := 351) (b := 64) f

/-- Below 26 the stacked vector is an embedding vector. -/
theorem feat_lt (W : Weights) (E : Fin 26 → Fin 64 → EReal) (p : EReal) (i : Fin 27) (h : i.val < 26)
    (d : Fin 64) : feat W E p i d = E ⟨i.val, h⟩ d := by
  unfold feat
  rw [dif_pos h]

/-- The last stacked vector is the dense vector. -/
theorem feat_last (W : Weights) (E : Fin 26 → Fin 64 → EReal) (p : EReal) (i : Fin 27) (h : i.val = 26)
    (d : Fin 64) : feat W E p i d = dense W p d := by
  unfold feat
  rw [dif_neg (by omega)]

/-- The first 351 top inputs of the reference are the picked Gram entries. -/
theorem catR_lo (W : Weights) (E : Fin 26 → Fin 64 → EReal) (p : EReal) (iu ju : Fin 351 → Fin 27)
    (k : Fin 351) : catR W E p iu ju (Fin.castLE (by omega) k) = gram27 W E p (iu k) (ju k) := by
  have hk : (Fin.castLE (by omega : 351 ≤ 415) k).val < 351 := k.isLt
  unfold catR
  rw [dif_pos hk]
  rfl

/-- The last 64 top inputs of the reference are the bottom outputs. -/
theorem catR_hi (W : Weights) (E : Fin 26 → Fin 64 → EReal) (p : EReal) (iu ju : Fin 351 → Fin 27)
    (j : Fin 64) : catR W E p iu ju ⟨351 + j.val, by omega⟩ = bottom W p j := by
  have hj : ¬ ((⟨351 + j.val, by omega⟩ : Fin 415).val < 351) := by
    show ¬ (351 + j.val < 351)
    omega
  unfold catR
  rw [dif_neg hj]
  congr 1
  exact Fin.ext (by show 351 + j.val - 351 = j.val; omega)

/-- The Gram entry of the reference's pair number selK k is the kernel's flat Gram entry at flatK k. -/
theorem gram27_ee (W : Weights) (E : Fin 26 → Fin 64 → EReal) (p : EReal) (k : Fin 325) :
    gram27 W E p (iuR (selK k)) (juR (selK k))
      = gramEE E ⟨(flatK k).val / 26, by omega⟩ ⟨(flatK k).val % 26, by omega⟩ := by
  obtain ⟨h1, h2, h3⟩ := pair_ee k
  have e1 : (⟨(flatK k).val / 26, by omega⟩ : Fin 26) = ⟨(iuR (selK k)).val, h1⟩ :=
    Fin.ext (by show (flatK k).val / 26 = (iuR (selK k)).val; omega)
  have e2 : (⟨(flatK k).val % 26, by omega⟩ : Fin 26) = ⟨(juR (selK k)).val, h2⟩ :=
    Fin.ext (by show (flatK k).val % 26 = (juR (selK k)).val; omega)
  rw [e1, e2]
  unfold gram27 gramEE
  refine Finset.sum_congr rfl fun d _ => ?_
  rw [feat_lt W E p _ h1, feat_lt W E p _ h2]

/-- The Gram entry of the reference's pair number selD i is the product of embedding i with the dense vector. -/
theorem gram27_ed (W : Weights) (E : Fin 26 → Fin 64 → EReal) (p : EReal) (i : Fin 26) :
    gram27 W E p (iuR (selD i)) (juR (selD i)) = gramED W E p i := by
  obtain ⟨h1, h2⟩ := pair_ed i
  have hlt : (iuR (selD i)).val < 26 := by omega
  have e1 : (⟨(iuR (selD i)).val, hlt⟩ : Fin 26) = i := Fin.ext h1
  unfold gram27 gramED
  refine Finset.sum_congr rfl fun d _ => ?_
  rw [feat_lt W E p _ hlt, feat_last W E p _ h2, e1]

/-- If the 676-row slab holds row `selK k` of the top matrix at flat position `flatK k` and zero elsewhere, the 26-row
    slab holds row `selD i` at `i`, and the 64-row slab holds the last 64 rows, then the kernel's row output is the
    reference's. -/
theorem outK_eq_outR (W : Weights) (E : Fin 26 → Fin 64 → EReal) (p : EReal) (wee : Fin 676 → Fin 256 → EReal)
    (wed : Fin 26 → Fin 256 → EReal) (wd : Fin 64 → Fin 256 → EReal) (wt1 : Fin 415 → Fin 256 → EReal)
    (hee : ∀ k n, wee (flatK k) n = wt1 (Fin.castLE (by omega) (selK k)) n)
    (hee0 : ∀ q n, (∀ k, flatK k ≠ q) → wee q n = 0)
    (hed : ∀ i n, wed i n = wt1 (Fin.castLE (by omega) (selD i)) n)
    (hwd : ∀ (j : Fin 64) n, wd j n = wt1 ⟨351 + j.val, by omega⟩ n) :
    outK W E p wee wed wd = outR W E p iuR juR wt1 := by
  -- It is enough that the two top hidden layers agree coordinate by coordinate.
  have key : ∀ n, topK W E p wee wed wd n = topR W E p iuR juR wt1 n := by
    intro n
    -- The flat 26×26 Gram sum only sees the 325 positions flatK k: the slab is zero elsewhere.
    have hA : (∑ q : Fin 676, gramEE E ⟨q.val / 26, by omega⟩ ⟨q.val % 26, by omega⟩ * wee q n)
        = ∑ k : Fin 325, gram27 W E p (iuR (selK k)) (juR (selK k)) * wt1 (Fin.castLE (by omega) (selK k)) n :=
      (Fintype.sum_of_injective flatK flatK_injective
        (fun k : Fin 325 =>
          gram27 W E p (iuR (selK k)) (juR (selK k)) * wt1 (Fin.castLE (by omega) (selK k)) n)
        (fun q : Fin 676 => gramEE E ⟨q.val / 26, by omega⟩ ⟨q.val % 26, by omega⟩ * wee q n)
        (fun q hq => by
          rw [hee0 q n (fun k hk => hq (Set.mem_range.2 ⟨k, hk⟩)), mul_zero])
        (fun k => by rw [gram27_ee W E p k, hee k n])).symm
    -- The embedding–dense products, pair by pair.
    have hB : (∑ i : Fin 26, gramED W E p i * wed i n)
        = ∑ i : Fin 26, gram27 W E p (iuR (selD i)) (juR (selD i)) * wt1 (Fin.castLE (by omega) (selD i)) n :=
      Finset.sum_congr rfl fun i _ => by rw [gram27_ed W E p i, hed i n]
    -- The bottom outputs against the last 64 rows.
    have hC : (∑ j : Fin 64, bottom W p j * wd j n)
        = ∑ j : Fin 64, catR W E p iuR juR ⟨351 + j.val, by omega⟩ * wt1 ⟨351 + j.val, by omega⟩ n :=
      Finset.sum_congr rfl fun j _ => by rw [catR_hi W E p iuR juR j, hwd j n]
    -- The reference's 351 picked entries, regrouped as the kernel's 325 + 26 pairs.
    have hAB : (∑ k : Fin 351, catR W E p iuR juR (Fin.castLE (by omega) k) * wt1 (Fin.castLE (by omega) k) n)
        = (∑ k : Fin 325, gram27 W E p (iuR (selK k)) (juR (selK k)) * wt1 (Fin.castLE (by omega) (selK k)) n)
          + ∑ i : Fin 26, gram27 W E p (iuR (selD i)) (juR (selD i)) * wt1 (Fin.castLE (by omega) (selD i)) n :=
      (Fintype.sum_bijective (Sum.elim selK selD) sel_bijective
        (fun x : Fin 325 ⊕ Fin 26 =>
          gram27 W E p (iuR (Sum.elim selK selD x)) (juR (Sum.elim selK selD x))
            * wt1 (Fin.castLE (by omega) (Sum.elim selK selD x)) n)
        (fun k : Fin 351 => catR W E p iuR juR (Fin.castLE (by omega) k) * wt1 (Fin.castLE (by omega) k) n)
        (fun x => by rw [catR_lo W E p iuR juR])).symm.trans
      (Fintype.sum_sum_type _)
    unfold topK topR
    rw [hA, hB, hC, sum_415, hAB]
  unfold outK outR
  congr 1
  exact Finset.sum_congr rfl fun n _ => by rw [key n]

end Cert.Dlrm

end
-- ==== Proof.PreDecode.lean ====
/-
  From the precondition: every index word lies in `[0, 100000)`, the range of the embedding tables' rows. The
  precondition is a conjunction of reductions by `and`; its last two conjuncts are `all (x ≥ 0)` and
  `all (x < 100000)` over the index array. Under them the kernel's clip is the identity and both programs read
  the same table row.
-/
import proofs.«419748_j21122649161846_3_alg».proof.Pre_finite_inputs
import proofs.«419748_j21122649161846_3_alg».proof.Proof.Gen.Pre_finite_inputs
import proofs.«419748_j21122649161846_3_alg».proof.Proof.Spec
import Idealize.ShloMosaic.Lib.ReduceAll

namespace Cert.Dlrm.PreDecode

open Idealize.ShloMosaic Idealize.ShloMosaic.ValueIdx
open Cert.Pre_finite_inputs Cert.Pre_finite_inputs.Gen

instance : Subsingleton S_.Idx := ⟨fun a b => funext fun d => d.elim0⟩

/-- Every index word is non-negative and below the table length, read signed. -/
theorem idx_ok (a0 : IVec S26x16384 32) (a1 : FVec Ideal S16384 .f32) (a2 : FVec Ideal S26x100000x64 .f32) (a3 : FVec Ideal S1x64 .f32)
    (a4 : FVec Ideal S64 .f32) (a5 : FVec Ideal S64x128 .f32) (a6 : FVec Ideal S128 .f32) (a7 : FVec Ideal S128x64 .f32)
    (a8 : FVec Ideal S64 .f32) (a9 : FVec Ideal S415x256 .f32) (a10 : FVec Ideal S256 .f32) (a11 : FVec Ideal S256x1 .f32)
    (a12 : FVec Ideal S1 .f32)
    (h : Cert.Pre_finite_inputs.fn (F := Ideal) a0 a1 a2 a3 a4 a5 a6 a7 a8 a9 a10 a11 a12 = fun _ => 1#1) (i : S26x16384.Idx) :
    IntOp.cmpi .sge (a0 i) 0#32 = 1#1 ∧ IntOp.cmpi .slt (a0 i) 100000#32 = 1#1 := by
  have h1 := congrFun h ix0
  dsimp only [Cert.Pre_finite_inputs.fn, Cert.Pre_finite_inputs.fn_part1, Cert.Pre_finite_inputs.fn_part2,
    Cert.Pre_finite_inputs.fn_part3, andi] at h1
  obtain ⟨h2, hlt⟩ := IntOp.andi_eq_one.1 h1
  obtain ⟨_, hge⟩ := IntOp.andi_eq_one.1 h2
  exact ⟨Host.reduce_andi_all _ _ _ _ _ hge i, Host.reduce_andi_all _ _ _ _ _ hlt i⟩

/-- A word in `[0, 100000)` names the same table row for the kernel (clip, wrap, clamp) and the reference (wrap, clamp). -/
theorem rowK_eq_rowR (x : BitVec 32) (h0 : IntOp.cmpi .sge x 0#32 = 1#1) (h1 : IntOp.cmpi .slt x 100000#32 = 1#1) :
    Cert.Dlrm.rowK x = Cert.Dlrm.rowR x := by
  have g0 : (0#32 : BitVec 32).toInt ≤ x.toInt := IntOp.cmpi_sge.1 h0
  have g1 : x.toInt < (100000#32 : BitVec 32).toInt := IntOp.cmpi_slt.1 h1
  have z0 : (0#32 : BitVec 32).toInt = 0 := by decide
  have z1 : (100000#32 : BitVec 32).toInt = 100000 := by decide
  have z2 : (99999#32 : BitVec 32).toInt = 99999 := by decide
  -- the lower clip does nothing: x is not below 0
  have hmax : IntOp.maxsi 0#32 x = x := by
    unfold IntOp.maxsi
    rw [if_neg]
    rw [Bool.not_eq_true, ← Bool.not_eq_true, BitVec.slt_iff_toInt_lt]
    omega
  -- the upper clip does nothing: x is at most 99999
  have hmin : IntOp.minsi 99999#32 x = x := by
    unfold IntOp.minsi
    rw [if_neg]
    rw [Bool.not_eq_true, ← Bool.not_eq_true, BitVec.slt_iff_toInt_lt]
    omega
  unfold Cert.Dlrm.rowK Cert.Dlrm.rowR
  simp only [hmax, hmin]

end Cert.Dlrm.PreDecode
-- ==== Proof.RefTerm.lean ====
/-
  The reference program's operations composed as pure functions of its argument arrays, one named stage per
  operation that matters: the two index tensors, the gathered and transposed embedding vectors `v17`, the dense
  vectors `v22`, the 27 stacked vectors `v24`, their Gram matrices `v25`, the picked pairs `v35`, the bottom layers
  `v40`, `v45`, the 415 top inputs `v46`, the top layer `v51` and the result `v56`.
-/
import proofs.«419748_j21122649161846_3_alg».proof.Proof.Gen.ReferenceIdeal

noncomputable section

namespace Cert.ReferenceIdeal.RefTerm

open Idealize.ShloMosaic Idealize.SL.Sem
open Cert.ReferenceIdeal Cert.ReferenceIdeal.Gen

variable {F : FTy → Type} [FloatOps F]

/-- The pair list's first members, second members (dense constants), and the all-false wrap mask. -/
def c : IVec S351 32 := fun i => lit0 (S351.rowMajor i)
def c0 : IVec S351 1 := constantI S351 1 0#1
def c1 : IVec S351 32 := fun i => lit1 (S351.rowMajor i)

/-- The field numbers 0…25 as a column, wrapped if negative. -/
def v1 : IVec S26x1 32 := broadcastInDim S26x1 ![0] bcast_S26_S26x1_0 (iotaInDim S26 32 0)
def v6 : IVec S26x1 32 :=
  select (cmpi .slt v1 (broadcastInDim S26x1 ![] bcast_S_S26x1 (constantI S_ 32 0#32)))
    (addi v1 (broadcastInDim S26x1 ![] bcast_S_S26x1 (constantI S_ 32 26#32))) v1
/-- The index words, wrapped by the table length if negative. -/
def v11 (a0 : IVec S26x16384 32) : IVec S26x16384 32 :=
  select (cmpi .slt a0 (broadcastInDim S26x16384 ![] bcast_S_S26x16384 (constantI S_ 32 0#32)))
    (addi a0 (broadcastInDim S26x16384 ![] bcast_S_S26x16384 (constantI S_ 32 100000#32))) a0
def v13 : IVec S26x16384x1 32 :=
  broadcastInDim S26x16384x1 ![0, 1] bcast_S26x16384_S26x16384x1_0_1
    (broadcastInDim S26x16384 ![0, 1] bcast_S26x1_S26x16384_0_1 v6)
def v14 (a0 : IVec S26x16384 32) : IVec S26x16384x1 32 :=
  broadcastInDim S26x16384x1 ![0, 1] bcast_S26x16384_S26x16384x1_0_1 (v11 a0)
/-- The (field, row) start indices of the embedding gather. -/
def v15 (a0 : IVec S26x16384 32) : IVec S26x16384x2 32 :=
  concatenate S26x16384x2 2 [⟨S26x16384x1, v13⟩, ⟨S26x16384x1, v14 a0⟩] concatenates_S26x16384x1_S26x16384x1_S26x16384x2_d2
def v16 (a0 : IVec S26x16384 32) (a2 : FVec F S26x100000x64 .f32) : FVec F S26x16384x64 .f32 :=
  Host.gather gather_S26x100000x64_S26x16384x2_S26x16384x64_2_01_n_n_01_2_1164 a2 (v15 a0)
/-- The embedding vectors, batch row first. -/
def v17 (a0 : IVec S26x16384 32) (a2 : FVec F S26x100000x64 .f32) : FVec F S16384x26x64 .f32 :=
  transpose S16384x26x64 [1, 0, 2] (v16 a0 a2) transposes_S26x16384x64_S16384x26x64_1_0_2
def v19 (a1 : FVec F S16384 .f32) (a3 : FVec F S1x64 .f32) : FVec F S16384x64 .f32 :=
  Host.dotGeneral dot_S16384x1_S1x64_S16384x64_1_0_0_1_n_n none (broadcastInDim S16384x1 ![0] bcast_S16384_S16384x1_0 a1) a3
def v21 (a4 : FVec F S64 .f32) : FVec F S16384x64 .f32 :=
  broadcastInDim S16384x64 ![0, 1] bcast_S1x64_S16384x64_0_1 (broadcastInDim S1x64 ![1] bcast_S64_S1x64_1 a4)
/-- The dense vectors. -/
def v22 (a1 : FVec F S16384 .f32) (a3 : FVec F S1x64 .f32) (a4 : FVec F S64 .f32) : FVec F S16384x64 .f32 :=
  addf (v19 a1 a3) (v21 a4)
/-- The 27 stacked vectors. -/
def v24 (a0 : IVec S26x16384 32) (a1 : FVec F S16384 .f32) (a2 : FVec F S26x100000x64 .f32) (a3 : FVec F S1x64 .f32)
    (a4 : FVec F S64 .f32) : FVec F S16384x27x64 .f32 :=
  concatenate S16384x27x64 1 [⟨S16384x26x64, v17 a0 a2⟩,
    ⟨S16384x1x64, broadcastInDim S16384x1x64 ![0, 2] bcast_S16384x64_S16384x1x64_0_2 (v22 a1 a3 a4)⟩]
    concatenates_S16384x26x64_S16384x1x64_S16384x27x64_d1
/-- Their Gram matrices. -/
def v25 (a0 : IVec S26x16384 32) (a1 : FVec F S16384 .f32) (a2 : FVec F S26x100000x64 .f32) (a3 : FVec F S1x64 .f32)
    (a4 : FVec F S64 .f32) : FVec F S16384x27x27 .f32 :=
  Host.dotGeneral dot_S16384x27x64_S16384x27x64_S16384x27x27_2_2_1_1_0_0 none (v24 a0 a1 a2 a3 a4) (v24 a0 a1 a2 a3 a4)
def v28 : IVec S351 32 := select c0 (addi c (broadcastInDim S351 ![] bcast_S_S351 (constantI S_ 32 27#32))) c
def v31 : IVec S351 32 := select c0 (addi c1 (broadcastInDim S351 ![] bcast_S_S351 (constantI S_ 32 27#32))) c1
/-- The pair list as start indices. -/
def v34 : IVec S351x2 32 :=
  concatenate S351x2 1 [⟨S351x1, broadcastInDim S351x1 ![0] bcast_S351_S351x1_0 v28⟩,
    ⟨S351x1, broadcastInDim S351x1 ![0] bcast_S351_S351x1_0 v31⟩] concatenates_S351x1_S351x1_S351x2_d1
/-- The picked Gram entries. -/
def v35 (a0 : IVec S26x16384 32) (a1 : FVec F S16384 .f32) (a2 : FVec F S26x100000x64 .f32) (a3 : FVec F S1x64 .f32)
    (a4 : FVec F S64 .f32) : FVec F S16384x351 .f32 :=
  Host.gather gather_S16384x27x27_S351x2_S16384x351_0_12_n_n_12_1_1638411 (v25 a0 a1 a2 a3 a4) v34
def v39 (a1 : FVec F S16384 .f32) (a3 : FVec F S1x64 .f32) (a4 : FVec F S64 .f32) (a5 : FVec F S64x128 .f32)
    (a6 : FVec F S128 .f32) : FVec F S16384x128 .f32 :=
  addf (Host.dotGeneral dot_S16384x64_S64x128_S16384x128_1_0_0_1_n_n none (v22 a1 a3 a4) a5)
    (broadcastInDim S16384x128 ![0, 1] bcast_S1x128_S16384x128_0_1 (broadcastInDim S1x128 ![1] bcast_S128_S1x128_1 a6))
/-- First bottom layer. -/
def v40 (a1 : FVec F S16384 .f32) (a3 : FVec F S1x64 .f32) (a4 : FVec F S64 .f32) (a5 : FVec F S64x128 .f32)
    (a6 : FVec F S128 .f32) : FVec F S16384x128 .f32 :=
  maximumf (v39 a1 a3 a4 a5 a6) (broadcastInDim S16384x128 ![] bcast_S_S16384x128 (constant S_ .f32 0x00000000#32))
def v44 (a1 : FVec F S16384 .f32) (a3 : FVec F S1x64 .f32) (a4 : FVec F S64 .f32) (a5 : FVec F S64x128 .f32)
    (a6 : FVec F S128 .f32) (a7 : FVec F S128x64 .f32) (a8 : FVec F S64 .f32) : FVec F S16384x64 .f32 :=
  addf (Host.dotGeneral dot_S16384x128_S128x64_S16384x64_1_0_0_1_n_n none (v40 a1 a3 a4 a5 a6) a7)
    (broadcastInDim S16384x64 ![0, 1] bcast_S1x64_S16384x64_0_1 (broadcastInDim S1x64 ![1] bcast_S64_S1x64_1 a8))
/-- Second bottom layer. -/
def v45 (a1 : FVec F S16384 .f32) (a3 : FVec F S1x64 .f32) (a4 : FVec F S64 .f32) (a5 : FVec F S64x128 .f32)
    (a6 : FVec F S128 .f32) (a7 : FVec F S128x64 .f32) (a8 : FVec F S64 .f32) : FVec F S16384x64 .f32 :=
  maximumf (v44 a1 a3 a4 a5 a6 a7 a8) (broadcastInDim S16384x64 ![] bcast_S_S16384x64 (constant S_ .f32 0x00000000#32))
/-- The 415 top inputs. -/
def v46 (a0 : IVec S26x16384 32) (a1 : FVec F S16384 .f32) (a2 : FVec F S26x100000x64 .f32) (a3 : FVec F S1x64 .f32)
    (a4 : FVec F S64 .f32) (a5 : FVec F S64x128 .f32) (a6 : FVec F S128 .f32) (a7 : FVec F S128x64 .f32)
    (a8 : FVec F S64 .f32) : FVec F S16384x415 .f32 :=
  concatenate S16384x415 1 [⟨S16384x351, v35 a0 a1 a2 a3 a4⟩, ⟨S16384x64, v45 a1 a3 a4 a5 a6 a7 a8⟩]
    concatenates_S16384x351_S16384x64_S16384x415_d1
def v50 (a0 : IVec S26x16384 32) (a1 : FVec F S16384 .f32) (a2 : FVec F S26x100000x64 .f32) (a3 : FVec F S1x64 .f32)
    (a4 : FVec F S64 .f32) (a5 : FVec F S64x128 .f32) (a6 : FVec F S128 .f32) (a7 : FVec F S128x64 .f32)
    (a8 : FVec F S64 .f32) (a9 : FVec F S415x256 .f32) (a10 : FVec F S256 .f32) : FVec F S16384x256 .f32 :=
  addf (Host.dotGeneral dot_S16384x415_S415x256_S16384x256_1_0_0_1_n_n none (v46 a0 a1 a2 a3 a4 a5 a6 a7 a8) a9)
    (broadcastInDim S16384x256 ![0, 1] bcast_S1x256_S16384x256_0_1 (broadcastInDim S1x256 ![1] bcast_S256_S1x256_1 a10))
/-- The top layer. -/
def v51 (a0 : IVec S26x16384 32) (a1 : FVec F S16384 .f32) (a2 : FVec F S26x100000x64 .f32) (a3 : FVec F S1x64 .f32)
    (a4 : FVec F S64 .f32) (a5 : FVec F S64x128 .f32) (a6 : FVec F S128 .f32) (a7 : FVec F S128x64 .f32)
    (a8 : FVec F S64 .f32) (a9 : FVec F S415x256 .f32) (a10 : FVec F S256 .f32) : FVec F S16384x256 .f32 :=
  maximumf (v50 a0 a1 a2 a3 a4 a5 a6 a7 a8 a9 a10) (broadcastInDim S16384x256 ![] bcast_S_S16384x256 (constant S_ .f32 0x00000000#32))
def v55 (a0 : IVec S26x16384 32) (a1 : FVec F S16384 .f32) (a2 : FVec F S26x100000x64 .f32) (a3 : FVec F S1x64 .f32)
    (a4 : FVec F S64 .f32) (a5 : FVec F S64x128 .f32) (a6 : FVec F S128 .f32) (a7 : FVec F S128x64 .f32)
    (a8 : FVec F S64 .f32) (a9 : FVec F S415x256 .f32) (a10 : FVec F S256 .f32) (a11 : FVec F S256x1 .f32)
    (a12 : FVec F S1 .f32) : FVec F S16384x1 .f32 :=
  addf (Host.dotGeneral dot_S16384x256_S256x1_S16384x1_1_0_0_1_n_n none (v51 a0 a1 a2 a3 a4 a5 a6 a7 a8 a9 a10) a11)
    (broadcastInDim S16384x1 ![0, 1] bcast_S1x1_S16384x1_0_1 (broadcastInDim S1x1 ![1] bcast_S1_S1x1_1 a12))
/-- The result. -/
def v56 (a0 : IVec S26x16384 32) (a1 : FVec F S16384 .f32) (a2 : FVec F S26x100000x64 .f32) (a3 : FVec F S1x64 .f32)
    (a4 : FVec F S64 .f32) (a5 : FVec F S64x128 .f32) (a6 : FVec F S128 .f32) (a7 : FVec F S128x64 .f32)
    (a8 : FVec F S64 .f32) (a9 : FVec F S415x256 .f32) (a10 : FVec F S256 .f32) (a11 : FVec F S256x1 .f32)
    (a12 : FVec F S1 .f32) : FVec F S16384 .f32 :=
  shapeCast S16384 (v55 a0 a1 a2 a3 a4 a5 a6 a7 a8 a9 a10 a11 a12) shapeCasts_S16384x1_S16384

end Cert.ReferenceIdeal.RefTerm

end
-- ==== Proof.RefRun.lean ====
/-
  The reference program's run: every weakly fair execution of its @main ends with the result buffer at the
  operations' composed term of the argument arrays, the arguments as launched.
-/
import proofs.«419748_j21122649161846_3_alg».proof.Proof.RefTerm
import Idealize.ShloMosaic.Lib.StableHlo.Run
import Idealize.ShloMosaic.PureOps.Ideal

noncomputable section

namespace Cert.ReferenceIdeal.RefRun

open Idealize.ShloMosaic Idealize.ShloMosaic.TcCoe Idealize.SL.Sem Idealize.ShloMosaic.StableHlo
open Cert.ReferenceIdeal Cert.ReferenceIdeal.Gen

section Generic

variable {F : FTy → Type} [FloatOps F]

/-- The four concatenations as functions of their two operands. -/
def cat15 (a b : IVec S26x16384x1 32) : IVec S26x16384x2 32 :=
  concatenate S26x16384x2 2 [⟨S26x16384x1, a⟩, ⟨S26x16384x1, b⟩] concatenates_S26x16384x1_S26x16384x1_S26x16384x2_d2
def cat24 (a : FVec F S16384x26x64 .f32) (b : FVec F S16384x1x64 .f32) : FVec F S16384x27x64 .f32 :=
  concatenate S16384x27x64 1 [⟨S16384x26x64, a⟩, ⟨S16384x1x64, b⟩] concatenates_S16384x26x64_S16384x1x64_S16384x27x64_d1
def cat34 (a b : IVec S351x1 32) : IVec S351x2 32 :=
  concatenate S351x2 1 [⟨S351x1, a⟩, ⟨S351x1, b⟩] concatenates_S351x1_S351x1_S351x2_d1
def cat46 (a : FVec F S16384x351 .f32) (b : FVec F S16384x64 .f32) : FVec F S16384x415 .f32 :=
  concatenate S16384x415 1 [⟨S16384x351, a⟩, ⟨S16384x64, b⟩] concatenates_S16384x351_S16384x64_S16384x415_d1

/-- @main's operations in order, each call of a rectifier unfolded into its three (the scalar zero, its broadcast,
    the maximum) over that call's buffers; the two index tables and the four concatenations by name. -/
abbrev ops : List (HloOp τ sig (Elt F)) :=
  [ nullary main_c Cert.ReferenceIdeal.RefTerm.c,
    nullary main_c_0 (constantI S351 1 0#1),
    nullary main_c_1 Cert.ReferenceIdeal.RefTerm.c1,
    nullary main_c_2 (constantI S351 1 0#1),
    nullary main_v0 (iotaInDim S26 32 0),
    unary main_v0 main_v1 (broadcastInDim S26x1 ![0] bcast_S26_S26x1_0 : (⟨S26, .i32⟩ : BufTy).Contents (Elt F) → (⟨S26x1, .i32⟩ : BufTy).Contents (Elt F)),
    nullary main_c_3 (constantI S_ 32 0#32),
    unary main_c_3 main_v2 (broadcastInDim S26x1 ![] bcast_S_S26x1 : (⟨S_, .i32⟩ : BufTy).Contents (Elt F) → (⟨S26x1, .i32⟩ : BufTy).Contents (Elt F)),
    binary main_v1 main_v2 main_v3 (cmpi .slt : (⟨S26x1, .i32⟩ : BufTy).Contents (Elt F) → (⟨S26x1, .i32⟩ : BufTy).Contents (Elt F) → (⟨S26x1, .i1⟩ : BufTy).Contents (Elt F)),
    nullary main_c_4 (constantI S_ 32 26#32),
    unary main_c_4 main_v4 (broadcastInDim S26x1 ![] bcast_S_S26x1 : (⟨S_, .i32⟩ : BufTy).Contents (Elt F) → (⟨S26x1, .i32⟩ : BufTy).Contents (Elt F)),
    binary main_v1 main_v4 main_v5 (addi : (⟨S26x1, .i32⟩ : BufTy).Contents (Elt F) → (⟨S26x1, .i32⟩ : BufTy).Contents (Elt F) → (⟨S26x1, .i32⟩ : BufTy).Contents (Elt F)),
    ternary main_v3 main_v5 main_v1 main_v6 (select : (⟨S26x1, .i1⟩ : BufTy).Contents (Elt F) → (⟨S26x1, .i32⟩ : BufTy).Contents (Elt F) → (⟨S26x1, .i32⟩ : BufTy).Contents (Elt F) → (⟨S26x1, .i32⟩ : BufTy).Contents (Elt F)),
    nullary main_c_5 (constantI S_ 32 0#32),
    unary main_c_5 main_v7 (broadcastInDim S26x16384 ![] bcast_S_S26x16384 : (⟨S_, .i32⟩ : BufTy).Contents (Elt F) → (⟨S26x16384, .i32⟩ : BufTy).Contents (Elt F)),
    binary main_arg0 main_v7 main_v8 (cmpi .slt : (⟨S26x16384, .i32⟩ : BufTy).Contents (Elt F) → (⟨S26x16384, .i32⟩ : BufTy).Contents (Elt F) → (⟨S26x16384, .i1⟩ : BufTy).Contents (Elt F)),
    nullary main_c_6 (constantI S_ 32 100000#32),
    unary main_c_6 main_v9 (broadcastInDim S26x16384 ![] bcast_S_S26x16384 : (⟨S_, .i32⟩ : BufTy).Contents (Elt F) → (⟨S26x16384, .i32⟩ : BufTy).Contents (Elt F)),
    binary main_arg0 main_v9 main_v10 (addi : (⟨S26x16384, .i32⟩ : BufTy).Contents (Elt F) → (⟨S26x16384, .i32⟩ : BufTy).Contents (Elt F) → (⟨S26x16384, .i32⟩ : BufTy).Contents (Elt F)),
    ternary main_v8 main_v10 main_arg0 main_v11 (select : (⟨S26x16384, .i1⟩ : BufTy).Contents (Elt F) → (⟨S26x16384, .i32⟩ : BufTy).Contents (Elt F) → (⟨S26x16384, .i32⟩ : BufTy).Contents (Elt F) → (⟨S26x16384, .i32⟩ : BufTy).Contents (Elt F)),
    unary main_v6 main_v12 (broadcastInDim S26x16384 ![0, 1] bcast_S26x1_S26x16384_0_1 : (⟨S26x1, .i32⟩ : BufTy).Contents (Elt F) → (⟨S26x16384, .i32⟩ : BufTy).Contents (Elt F)),
    unary main_v12 main_v13 (broadcastInDim S26x16384x1 ![0, 1] bcast_S26x16384_S26x16384x1_0_1 : (⟨S26x16384, .i32⟩ : BufTy).Contents (Elt F) → (⟨S26x16384x1, .i32⟩ : BufTy).Contents (Elt F)),
    unary main_v11 main_v14 (broadcastInDim S26x16384x1 ![0, 1] bcast_S26x16384_S26x16384x1_0_1 : (⟨S26x16384, .i32⟩ : BufTy).Contents (Elt F) → (⟨S26x16384x1, .i32⟩ : BufTy).Contents (Elt F)),
    binary main_v13 main_v14 main_v15 (cat15 : (⟨S26x16384x1, .i32⟩ : BufTy).Contents (Elt F) → (⟨S26x16384x1, .i32⟩ : BufTy).Contents (Elt F) → (⟨S26x16384x2, .i32⟩ : BufTy).Contents (Elt F)),
    binary main_arg2 main_v15 main_v16 ((fun x i => Host.gather gather_S26x100000x64_S26x16384x2_S26x16384x64_2_01_n_n_01_2_1164 x i) : (⟨S26x100000x64, .f32⟩ : BufTy).Contents (Elt F) → (⟨S26x16384x2, .i32⟩ : BufTy).Contents (Elt F) → (⟨S26x16384x64, .f32⟩ : BufTy).Contents (Elt F)),
    unary main_v16 main_v17 ((transpose S16384x26x64 [1, 0, 2] · transposes_S26x16384x64_S16384x26x64_1_0_2) : (⟨S26x16384x64, .f32⟩ : BufTy).Contents (Elt F) → (⟨S16384x26x64, .f32⟩ : BufTy).Contents (Elt F)),
    unary main_arg1 main_v18 (broadcastInDim S16384x1 ![0] bcast_S16384_S16384x1_0 : (⟨S16384, .f32⟩ : BufTy).Contents (Elt F) → (⟨S16384x1, .f32⟩ : BufTy).Contents (Elt F)),
    binary main_v18 main_arg3 main_v19 ((fun l r => Host.dotGeneral dot_S16384x1_S1x64_S16384x64_1_0_0_1_n_n none l r) : (⟨S16384x1, .f32⟩ : BufTy).Contents (Elt F) → (⟨S1x64, .f32⟩ : BufTy).Contents (Elt F) → (⟨S16384x64, .f32⟩ : BufTy).Contents (Elt F)),
    unary main_arg4 main_v20 (broadcastInDim S1x64 ![1] bcast_S64_S1x64_1 : (⟨S64, .f32⟩ : BufTy).Contents (Elt F) → (⟨S1x64, .f32⟩ : BufTy).Contents (Elt F)),
    unary main_v20 main_v21 (broadcastInDim S16384x64 ![0, 1] bcast_S1x64_S16384x64_0_1 : (⟨S1x64, .f32⟩ : BufTy).Contents (Elt F) → (⟨S16384x64, .f32⟩ : BufTy).Contents (Elt F)),
    binary main_v19 main_v21 main_v22 (addf : (⟨S16384x64, .f32⟩ : BufTy).Contents (Elt F) → (⟨S16384x64, .f32⟩ : BufTy).Contents (Elt F) → (⟨S16384x64, .f32⟩ : BufTy).Contents (Elt F)),
    unary main_v22 main_v23 (broadcastInDim S16384x1x64 ![0, 2] bcast_S16384x64_S16384x1x64_0_2 : (⟨S16384x64, .f32⟩ : BufTy).Contents (Elt F) → (⟨S16384x1x64, .f32⟩ : BufTy).Contents (Elt F)),
    binary main_v17 main_v23 main_v24 (cat24 : (⟨S16384x26x64, .f32⟩ : BufTy).Contents (Elt F) → (⟨S16384x1x64, .f32⟩ : BufTy).Contents (Elt F) → (⟨S16384x27x64, .f32⟩ : BufTy).Contents (Elt F)),
    binary main_v24 main_v24 main_v25 ((fun l r => Host.dotGeneral dot_S16384x27x64_S16384x27x64_S16384x27x27_2_2_1_1_0_0 none l r) : (⟨S16384x27x64, .f32⟩ : BufTy).Contents (Elt F) → (⟨S16384x27x64, .f32⟩ : BufTy).Contents (Elt F) → (⟨S16384x27x27, .f32⟩ : BufTy).Contents (Elt F)),
    nullary main_c_7 (constantI S_ 32 27#32),
    unary main_c_7 main_v26 (broadcastInDim S351 ![] bcast_S_S351 : (⟨S_, .i32⟩ : BufTy).Contents (Elt F) → (⟨S351, .i32⟩ : BufTy).Contents (Elt F)),
    binary main_c main_v26 main_v27 (addi : (⟨S351, .i32⟩ : BufTy).Contents (Elt F) → (⟨S351, .i32⟩ : BufTy).Contents (Elt F) → (⟨S351, .i32⟩ : BufTy).Contents (Elt F)),
    ternary main_c_0 main_v27 main_c main_v28 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_8 (constantI S_ 32 27#32),
    unary main_c_8 main_v29 (broadcastInDim S351 ![] bcast_S_S351 : (⟨S_, .i32⟩ : BufTy).Contents (Elt F) → (⟨S351, .i32⟩ : BufTy).Contents (Elt F)),
    binary main_c_1 main_v29 main_v30 (addi : (⟨S351, .i32⟩ : BufTy).Contents (Elt F) → (⟨S351, .i32⟩ : BufTy).Contents (Elt F) → (⟨S351, .i32⟩ : BufTy).Contents (Elt F)),
    ternary main_c_2 main_v30 main_c_1 main_v31 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v28 main_v32 (broadcastInDim S351x1 ![0] bcast_S351_S351x1_0 : (⟨S351, .i32⟩ : BufTy).Contents (Elt F) → (⟨S351x1, .i32⟩ : BufTy).Contents (Elt F)),
    unary main_v31 main_v33 (broadcastInDim S351x1 ![0] bcast_S351_S351x1_0 : (⟨S351, .i32⟩ : BufTy).Contents (Elt F) → (⟨S351x1, .i32⟩ : BufTy).Contents (Elt F)),
    binary main_v32 main_v33 main_v34 (cat34 : (⟨S351x1, .i32⟩ : BufTy).Contents (Elt F) → (⟨S351x1, .i32⟩ : BufTy).Contents (Elt F) → (⟨S351x2, .i32⟩ : BufTy).Contents (Elt F)),
    binary main_v25 main_v34 main_v35 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)),
    binary main_v22 main_arg5 main_v36 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S16384x128 ![0, 1] bcast_S1x128_S16384x128_0_1 : (⟨S1x128, .f32⟩ : BufTy).Contents (Elt F) → (⟨S16384x128, .f32⟩ : BufTy).Contents (Elt F)),
    binary main_v36 main_v38 main_v39 (addf : (⟨S16384x128, .f32⟩ : BufTy).Contents (Elt F) → (⟨S16384x128, .f32⟩ : BufTy).Contents (Elt F) → (⟨S16384x128, .f32⟩ : BufTy).Contents (Elt F)),
    TRef.nullary main_call0.cst (constant S_ .f32 0x00000000#32),
    TRef.unary main_call0.cst main_call0.v0 (broadcastInDim S16384x128 ![] bcast_S_S16384x128),
    TRef.binary (.of main_v39 : TRef sig ⟨S16384x128, .f32⟩) main_call0.v0 main_call0.v1 maximumf,
    binary main_v40 main_arg7 main_v41 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S16384x64 ![0, 1] bcast_S1x64_S16384x64_0_1 : (⟨S1x64, .f32⟩ : BufTy).Contents (Elt F) → (⟨S16384x64, .f32⟩ : BufTy).Contents (Elt F)),
    binary main_v41 main_v43 main_v44 (addf : (⟨S16384x64, .f32⟩ : BufTy).Contents (Elt F) → (⟨S16384x64, .f32⟩ : BufTy).Contents (Elt F) → (⟨S16384x64, .f32⟩ : BufTy).Contents (Elt F)),
    TRef.nullary main_call1.cst (constant S_ .f32 0x00000000#32),
    TRef.unary main_call1.cst main_call1.v0 (broadcastInDim S16384x64 ![] bcast_S_S16384x64),
    TRef.binary (.of main_v44 : TRef sig ⟨S16384x64, .f32⟩) main_call1.v0 main_call1.v1 maximumf,
    binary main_v35 main_v45 main_v46 (cat46 : (⟨S16384x351, .f32⟩ : BufTy).Contents (Elt F) → (⟨S16384x64, .f32⟩ : BufTy).Contents (Elt F) → (⟨S16384x415, .f32⟩ : BufTy).Contents (Elt F)),
    binary main_v46 main_arg9 main_v47 ((fun l r => Host.dotGeneral dot_S16384x415_S415x256_S16384x256_1_0_0_1_n_n none l r) : (⟨S16384x415, .f32⟩ : BufTy).Contents (Elt F) → (⟨S415x256, .f32⟩ : BufTy).Contents (Elt F) → (⟨S16384x256, .f32⟩ : BufTy).Contents (Elt F)),
    unary main_arg10 main_v48 (broadcastInDim S1x256 ![1] bcast_S256_S1x256_1 : (⟨S256, .f32⟩ : BufTy).Contents (Elt F) → (⟨S1x256, .f32⟩ : BufTy).Contents (Elt F)),
    unary main_v48 main_v49 (broadcastInDim S16384x256 ![0, 1] bcast_S1x256_S16384x256_0_1 : (⟨S1x256, .f32⟩ : BufTy).Contents (Elt F) → (⟨S16384x256, .f32⟩ : BufTy).Contents (Elt F)),
    binary main_v47 main_v49 main_v50 (addf : (⟨S16384x256, .f32⟩ : BufTy).Contents (Elt F) → (⟨S16384x256, .f32⟩ : BufTy).Contents (Elt F) → (⟨S16384x256, .f32⟩ : BufTy).Contents (Elt F)),
    TRef.nullary main_call2.cst (constant S_ .f32 0x00000000#32),
    TRef.unary main_call2.cst main_call2.v0 (broadcastInDim S16384x256 ![] bcast_S_S16384x256),
    TRef.binary (.of main_v50 : TRef sig ⟨S16384x256, .f32⟩) main_call2.v0 main_call2.v1 maximumf,
    binary main_v51 main_arg11 main_v52 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg12 main_v53 (broadcastInDim S1x1 ![1] bcast_S1_S1x1_1 : (⟨S1, .f32⟩ : BufTy).Contents (Elt F) → (⟨S1x1, .f32⟩ : BufTy).Contents (Elt F)),
    unary main_v53 main_v54 (broadcastInDim S16384x1 ![0, 1] bcast_S1x1_S16384x1_0_1 : (⟨S1x1, .f32⟩ : BufTy).Contents (Elt F) → (⟨S16384x1, .f32⟩ : BufTy).Contents (Elt F)),
    binary main_v52 main_v54 main_v55 (addf : (⟨S16384x1, .f32⟩ : BufTy).Contents (Elt F) → (⟨S16384x1, .f32⟩ : BufTy).Contents (Elt F) → (⟨S16384x1, .f32⟩ : BufTy).Contents (Elt F)),
    reshape main_v55 main_v56 rfl shapeCasts_S16384x1_S16384 ]

-- seventy-three binds re-associated: the rewrite under the chain recurses once per statement
set_option maxRecDepth 4096 in
set_option maxHeartbeats 4000000 in
/-- @main is that straight line: the two windows and the three rectifier bodies unfolded, both sides are one chain
    of steps once sequencing is re-associated; the named tables and concatenations unfold to the printed ones. -/
theorem main_eq (c : Dev nD) : main (F := F) c = seq ops := by
  simp only [main, main_part0, main_part1, fn_relu.body, fn_relu_0.body, fn_relu_1.body, seq, bind_assoc, pure_bind]
  rfl

attribute [local irreducible] Host.gather in
set_option maxRecDepth 16384 in
set_option maxHeartbeats 4000000 in
/-- The fold at the result buffer is the composed term: each operation's result at its own buffer is its function's
    value, at any other buffer what was there; the typed references' casts are the identity at these literal references. -/
theorem out_eq (V : Valuation τ sig (Elt F)) :
    after ops V (main_v56 : DevRef τ sig)
      = Cert.ReferenceIdeal.RefTerm.v56 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  show after ops V (Proc.devRef .tc main_v56) = _
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

theorem arg11_eq (V : Valuation τ sig (Elt F)) :
    after ops V (main_arg11 : DevRef τ sig) = V (main_arg11 : DevRef τ sig) := by
  simp only [after_cons, after_nil]
  rfl

theorem arg12_eq (V : Valuation τ sig (Elt F)) :
    after ops V (main_arg12 : DevRef τ sig) = V (main_arg12 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    binary_bufs_sub .., unary_bufs_sub .., unary_bufs_sub .., binary_bufs_sub .., unary_bufs_sub .., unary_bufs_sub ..,
    binary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., ternary_bufs_sub ..,
    unary_bufs_sub .., unary_bufs_sub .., binary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    reshape_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Generic

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v56)
        = Cert.ReferenceIdeal.RefTerm.v56 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run _ _ _).mono (fun _ h c => ⟨(h c main_v56).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

end Cert.ReferenceIdeal.RefRun

end
-- ==== Proof.RefVal.lean ====
/-
  The reference's composed term, read at a batch row, is the reference's row output of that row's data.
-/
import proofs.«419748_j21122649161846_3_alg».proof.Proof.RefTerm
import proofs.«419748_j21122649161846_3_alg».proof.Proof.Tables
import Idealize.ShloMosaic.Lib.StackMember

noncomputable section

namespace Cert.ReferenceIdeal.RefVal

open Idealize.ShloMosaic Idealize.ShloMosaic.TcCoe Idealize.SL.Sem Idealize.ShloMosaic.ValueIdx
open Cert.ReferenceIdeal Cert.ReferenceIdeal.Gen

open Cert.ReferenceIdeal.RefTerm

/-! ## The two gathers' operand indices and the batched product, at literal dimension numbers -/

/-- Short names for the two gathers' dimension numbers. -/
abbrev G16 : GatherDims S26x100000x64 S26x16384x2 S26x16384x64 := gather_S26x100000x64_S26x16384x2_S26x16384x64_2_01_n_n_01_2_1164
abbrev G35 : GatherDims S16384x27x27 S351x2 S16384x351 := gather_S16384x27x27_S351x2_S16384x351_0_12_n_n_12_1_1638411

/-- The embedding gather's operand index: field and row are the two start words, read signed and clamped into the table;
    the lane is the result's. -/
theorem g16_operandIdx (idx : IVec S26x16384x2 32) (i : Fin 26) (b : Fin 16384) (d : Fin 64) :
    G16.operandIdx (ix3 i b d) idx
      = ix3 (⟨min (idx (ix3 i b (0 : Fin 2))).toInt.toNat 25, by omega⟩ : Fin 26)
          (⟨min (idx (ix3 i b (1 : Fin 2))).toInt.toNat 99999, by omega⟩ : Fin 100000) d := by
  funext a
  refine Fin.ext ?_
  match a with
  | ⟨0, _⟩ =>
    show G16.start (ix3 i b d) idx 0 + G16.batchCoord (ix3 i b d) 0 + G16.offCoord (ix3 i b d) 0 = _
    rw [GatherDims.batchCoord_eq_zero G16 (ix3 i b d) 0 (by decide), GatherDims.offCoord_eq_zero G16 (ix3 i b d) 0 (by decide)]
    unfold GatherDims.start
    rw [dif_pos (show (0 : Fin 3) ∈ G16.startIndexMap by decide)]
    have hsi : G16.siIdx (ix3 i b d) ⟨List.idxOf (0 : Fin 3) G16.startIndexMap, List.idxOf_lt_length_iff.2 (by decide)⟩
        = ix3 i b (0 : Fin 2) := by
      funext c; refine Fin.ext ?_
      match c with
      | ⟨0, _⟩ => rfl
      | ⟨1, _⟩ => rfl
      | ⟨2, _⟩ => rfl
    rw [hsi]
    rfl
  | ⟨1, _⟩ =>
    show G16.start (ix3 i b d) idx 1 + G16.batchCoord (ix3 i b d) 1 + G16.offCoord (ix3 i b d) 1 = _
    rw [GatherDims.batchCoord_eq_zero G16 (ix3 i b d) 1 (by decide), GatherDims.offCoord_eq_zero G16 (ix3 i b d) 1 (by decide)]
    unfold GatherDims.start
    rw [dif_pos (show (1 : Fin 3) ∈ G16.startIndexMap by decide)]
    have hsi : G16.siIdx (ix3 i b d) ⟨List.idxOf (1 : Fin 3) G16.startIndexMap, List.idxOf_lt_length_iff.2 (by decide)⟩
        = ix3 i b (1 : Fin 2) := by
      funext c; refine Fin.ext ?_
      match c with
      | ⟨0, _⟩ => rfl
      | ⟨1, _⟩ => rfl
      | ⟨2, _⟩ => rfl
    rw [hsi]
    rfl
  | ⟨2, _⟩ =>
    show G16.start (ix3 i b d) idx 2 + G16.batchCoord (ix3 i b d) 2 + G16.offCoord (ix3 i b d) 2 = _
    rw [GatherDims.batchCoord_eq_zero G16 (ix3 i b d) 2 (by decide)]
    unfold GatherDims.start
    rw [dif_neg (show (2 : Fin 3) ∉ G16.startIndexMap by decide)]
    unfold GatherDims.offCoord
    rw [dif_pos (show (2 : Fin 3) ∈ G16.sKept by decide)]
    show 0 + 0 + d.val = d.val
    omega

/-- The pair gather's operand index: the batch row is the result's; the two vector numbers are the pair's start words,
    read signed and clamped into [0, 26]. -/
theorem g35_operandIdx (idx : IVec S351x2 32) (b : Fin 16384) (k : Fin 351) :
    G35.operandIdx (ix2 b k) idx
      = ix3 b (⟨min (idx (ix2 k (0 : Fin 2))).toInt.toNat 26, by omega⟩ : Fin 27)
          (⟨min (idx (ix2 k (1 : Fin 2))).toInt.toNat 26, by omega⟩ : Fin 27) := by
  funext a
  refine Fin.ext ?_
  match a with
  | ⟨0, _⟩ =>
    show G35.start (ix2 b k) idx 0 + G35.batchCoord (ix2 b k) 0 + G35.offCoord (ix2 b k) 0 = _
    rw [GatherDims.batchCoord_eq_zero G35 (ix2 b k) 0 (by decide)]
    unfold GatherDims.start
    rw [dif_neg (show (0 : Fin 3) ∉ G35.startIndexMap by decide)]
    unfold GatherDims.offCoord
    rw [dif_pos (show (0 : Fin 3) ∈ G35.sKept by decide)]
    show 0 + 0 + b.val = b.val
    omega
  | ⟨1, _⟩ =>
    show G35.start (ix2 b k) idx 1 + G35.batchCoord (ix2 b k) 1 + G35.offCoord (ix2 b k) 1 = _
    rw [GatherDims.batchCoord_eq_zero G35 (ix2 b k) 1 (by decide), GatherDims.offCoord_eq_zero G35 (ix2 b k) 1 (by decide)]
    unfold GatherDims.start
    rw [dif_pos (show (1 : Fin 3) ∈ G35.startIndexMap by decide)]
    have hsi : G35.siIdx (ix2 b k) ⟨List.idxOf (1 : Fin 3) G35.startIndexMap, List.idxOf_lt_length_iff.2 (by decide)⟩
        = ix2 k (0 : Fin 2) := by
      funext c; refine Fin.ext ?_
      match c with
      | ⟨0, _⟩ => rfl
      | ⟨1, _⟩ => rfl
    rw [hsi]
    rfl
  | ⟨2, _⟩ =>
    show G35.start (ix2 b k) idx 2 + G35.batchCoord (ix2 b k) 2 + G35.offCoord (ix2 b k) 2 = _
    rw [GatherDims.batchCoord_eq_zero G35 (ix2 b k) 2 (by decide), GatherDims.offCoord_eq_zero G35 (ix2 b k) 2 (by decide)]
    unfold GatherDims.start
    rw [dif_pos (show (2 : Fin 3) ∈ G35.startIndexMap by decide)]
    have hsi : G35.siIdx (ix2 b k) ⟨List.idxOf (2 : Fin 3) G35.startIndexMap, List.idxOf_lt_length_iff.2 (by decide)⟩
        = ix2 k (1 : Fin 2) := by
      funext c; refine Fin.ext ?_
      match c with
      | ⟨0, _⟩ => rfl
      | ⟨1, _⟩ => rfl
    rw [hsi]
    rfl

abbrev D25 : DotDims S16384x27x64 S16384x27x64 S16384x27x27 := dot_S16384x27x64_S16384x27x64_S16384x27x27_2_2_1_1_0_0

/-- The batched product of the stacked vectors with themselves, read at (row, i, j): the dot product of vectors i and j
    of that row. -/
theorem dot25_apply (A B : FVec Ideal S16384x27x64 .f32) (b : Fin 16384) (i j : Fin 27) :
    Host.dotGeneral D25 none A B (ix3 b i j) = ∑ c : Fin 64, A (ix3 b i c) * B (ix3 b j c) := by
  show FloatOps.dotGeneral D25 none _ A B (ix3 b i j) = _
  rw [Ideal.dotGeneral_apply, ← Equiv.sum_comp (contrEquiv1 D25 64 rfl rfl).symm]
  refine Finset.sum_congr rfl fun c _ => ?_
  have c3 := contrEquiv1_symm_val D25 64 rfl rfl c
  have l3 : D25.lhsIdx (ix3 b i j) ((contrEquiv1 D25 64 rfl rfl).symm c) = ix3 b i c := by
    funext ax; apply Fin.ext
    match ax with
    | ⟨0, _⟩ => rfl
    | ⟨1, _⟩ => rfl
    | ⟨2, _⟩ => exact (DotDims.lhsIdx_val_of_single D25 (cl := 2) rfl _ _).trans c3
  have r3 : D25.rhsIdx (ix3 b i j) ((contrEquiv1 D25 64 rfl rfl).symm c) = ix3 b j c := by
    funext ax; apply Fin.ext
    match ax with
    | ⟨0, _⟩ => rfl
    | ⟨1, _⟩ => rfl
    | ⟨2, _⟩ => exact (DotDims.rhsIdx_val_of_single D25 (cr := 2) rfl _ _).trans c3
  rw [l3, r3]

section Stages

variable (a0 : IVec S26x16384 32) (a1 : FVec Ideal S16384 .f32) (a2 : FVec Ideal S26x100000x64 .f32) (a3 : FVec Ideal S1x64 .f32)
  (a4 : FVec Ideal S64 .f32) (a5 : FVec Ideal S64x128 .f32) (a6 : FVec Ideal S128 .f32) (a7 : FVec Ideal S128x64 .f32)
  (a8 : FVec Ideal S64 .f32) (a9 : FVec Ideal S415x256 .f32) (a10 : FVec Ideal S256 .f32) (a11 : FVec Ideal S256x1 .f32)
  (a12 : FVec Ideal S1 .f32)

/-! ## The embedding vectors -/

/-- The field column: entry i is the word i. -/
theorem v1_apply (i : Fin 26) (z : Fin 1) : v1 (ix2 i z) = BitVec.ofNat 32 i.val := by
  unfold v1
  refine (broadcastInDim_apply _ _ _ (ix2 i z) (ix1 i) ?_).trans rfl
  intro a
  match a with
  | ⟨0, _⟩ => rfl

/-- A field number below 26 is not negative, so it is not wrapped, and clamping it into [0, 25] leaves it. -/
theorem field_word : ∀ i : Fin 26,
    min (Scalar.select (IntOp.cmpi .slt (BitVec.ofNat 32 i.val) 0#32) (IntOp.addi (BitVec.ofNat 32 i.val) 26#32)
      (BitVec.ofNat 32 i.val)).toInt.toNat 25 = i.val := by decide

/-- The wrapped field column, clamped, is the field number. -/
theorem v6_clamp (i : Fin 26) (z : Fin 1) : min (v6 (ix2 i z)).toInt.toNat 25 = i.val := by
  have h : v6 (ix2 i z) = Scalar.select (IntOp.cmpi .slt (v1 (ix2 i z)) 0#32) (IntOp.addi (v1 (ix2 i z)) 26#32)
      (v1 (ix2 i z)) := rfl
  rw [h, v1_apply]
  exact field_word i

/-- The field column laid over the batch rows. -/
theorem v13_apply (i : Fin 26) (b : Fin 16384) (z : Fin 1) : v13 (ix3 i b z) = v6 (ix2 i (0 : Fin 1)) := by
  unfold v13
  refine (broadcastInDim_apply _ _ _ (ix3 i b z) (ix2 i b) ?_).trans ?_
  · intro a
    match a with
    | ⟨0, _⟩ => rfl
    | ⟨1, _⟩ => rfl
  · refine broadcastInDim_apply _ _ _ (ix2 i b) (ix2 i (0 : Fin 1)) ?_
    intro a
    match a with
    | ⟨0, _⟩ => rfl
    | ⟨1, _⟩ => rfl

/-- The wrapped index words with a trailing unit axis. -/
theorem v14_apply (i : Fin 26) (b : Fin 16384) (z : Fin 1) : v14 a0 (ix3 i b z) = v11 a0 (ix2 i b) := by
  unfold v14
  refine broadcastInDim_apply _ _ _ (ix3 i b z) (ix2 i b) ?_
  intro a
  match a with
  | ⟨0, _⟩ => rfl
  | ⟨1, _⟩ => rfl

/-- The start indices' first component is the field column … -/
theorem v15_apply_zero (i : Fin 26) (b : Fin 16384) : v15 a0 (ix3 i b (0 : Fin 2)) = v13 (ix3 i b (0 : Fin 1)) := by
  unfold v15
  refine concatenate_pair_apply_left _ v13 (v14 a0) _ (ix3 i b (0 : Fin 2)) rfl (ix3 i b (0 : Fin 1)) ?_
  intro c
  match c with
  | ⟨0, _⟩ => rfl
  | ⟨1, _⟩ => rfl
  | ⟨2, _⟩ => rfl

/-- … and their second the wrapped index word. -/
theorem v15_apply_one (i : Fin 26) (b : Fin 16384) : v15 a0 (ix3 i b (1 : Fin 2)) = v14 a0 (ix3 i b (0 : Fin 1)) := by
  unfold v15
  refine concatenate_pair_apply_right _ v13 (v14 a0) _ (ix3 i b (1 : Fin 2)) rfl rfl (ix3 i b (0 : Fin 1)) ?_ rfl
  intro c hc
  match c, hc with
  | ⟨0, _⟩, _ => rfl
  | ⟨1, _⟩, _ => rfl
  | ⟨2, _⟩, hc => exact absurd rfl hc

/-- The gathered embedding entry: field i's table at the row the reference reads for the word, lane d. -/
theorem v16_apply (i : Fin 26) (b : Fin 16384) (d : Fin 64) :
    v16 a0 a2 (ix3 i b d) = a2 (ix3 i (Cert.Dlrm.rowR (a0 (ix2 i b))) d) := by
  show a2 (G16.operandIdx (ix3 i b d) (v15 a0)) = _
  rw [g16_operandIdx]
  refine congrArg a2 ?_
  funext c
  refine Fin.ext ?_
  match c with
  | ⟨0, _⟩ =>
    show min (v15 a0 (ix3 i b (0 : Fin 2))).toInt.toNat 25 = i.val
    rw [v15_apply_zero, v13_apply]
    exact v6_clamp i 0
  | ⟨1, _⟩ =>
    show min (v15 a0 (ix3 i b (1 : Fin 2))).toInt.toNat 99999 = (Cert.Dlrm.rowR (a0 (ix2 i b))).val
    rw [v15_apply_one, v14_apply]
    rfl
  | ⟨2, _⟩ => rfl

/-- The same entry, batch row first. -/
theorem v17_apply (b : Fin 16384) (i : Fin 26) (d : Fin 64) :
    v17 a0 a2 (ix3 b i d) = a2 (ix3 i (Cert.Dlrm.rowR (a0 (ix2 i b))) d) := by
  unfold v17
  refine (transpose_apply _ _ _ (ix3 b i d) (ix3 i b d) ?_).trans (v16_apply a0 a2 i b d)
  intro c
  match c with
  | ⟨0, _⟩ => rfl
  | ⟨1, _⟩ => rfl
  | ⟨2, _⟩ => rfl

/-! ## Shared pieces: a bias laid along the batch rows, the zero splat -/

/-- A bias vector, first made a one-row matrix and then copied down the 16384 batch rows, reads its entry n at (b, n). -/
theorem bias_apply {α : Type} {N : Nat} (h1 : (⟨1, ![N]⟩ : Shape).BroadcastsInDim ⟨2, ![1, N]⟩ ![1])
    (h2 : (⟨2, ![1, N]⟩ : Shape).BroadcastsInDim ⟨2, ![16384, N]⟩ ![0, 1]) (x : (⟨1, ![N]⟩ : Shape).Idx → α)
    (b : Fin 16384) (n : Fin N) :
    broadcastInDim ⟨2, ![16384, N]⟩ ![0, 1] h2 (broadcastInDim ⟨2, ![1, N]⟩ ![1] h1 x) (ix2 b n) = x (ix1 n) := by
  refine (broadcastInDim_apply _ _ _ (ix2 b n) (ix2 (0 : Fin 1) n) ?_).trans ?_
  · intro a
    match a with
    | ⟨0, _⟩ => rfl
    | ⟨1, _⟩ =>
      show n.val = if N = 1 then 0 else n.val
      split
      · have := n.isLt; omega
      · rfl
  · refine broadcastInDim_apply _ _ _ (ix2 (0 : Fin 1) n) (ix1 n) ?_
    intro a
    match a with
    | ⟨0, _⟩ =>
      show n.val = if N = 1 then 0 else n.val
      split
      · have := n.isLt; omega
      · rfl

/-- The splat of the zero word is the extended real zero everywhere. -/
theorem zero_splat_apply {t : Shape} (h : S_.BroadcastsInDim t ![]) (j : t.Idx) :
    broadcastInDim t ![] h (constant (F := Ideal) S_ .f32 0x00000000#32) j = (0 : EReal) :=
  Ideal.ofBits_zero_f32

/-! ## The dense vector and the two bottom layers -/

/-- The price column times the one-row weight matrix: a contraction over one index. -/
theorem v19_apply (b : Fin 16384) (d : Fin 64) : v19 a1 a3 (ix2 b d) = a1 (ix1 b) * a3 (ix2 (0 : Fin 1) d) := by
  unfold v19
  refine (StackMember.dotGeneral_plain_apply (m := 16384) (k := 1) (n := 64) none _ a3 b d).trans ?_
  rw [Fin.sum_univ_one]
  refine congrArg (· * a3 (ix2 (0 : Fin 1) d)) ?_
  refine broadcastInDim_apply _ _ _ (ix2 b (0 : Fin 1)) (ix1 b) ?_
  intro a
  match a with
  | ⟨0, _⟩ => rfl

/-- The dense vector of batch row b. -/
theorem v22_apply (b : Fin 16384) (d : Fin 64) :
    v22 a1 a3 a4 (ix2 b d) = Cert.Dlrm.dense (Cert.Dlrm.mkW a3 a4 a5 a6 a7 a8 a10 a11 a12) (a1 (ix1 b)) d := by
  show v19 a1 a3 (ix2 b d) + v21 a4 (ix2 b d) = _
  rw [v19_apply]
  unfold v21
  rw [bias_apply]
  rfl

/-- First bottom layer before the ReLU. -/
theorem v39_apply (b : Fin 16384) (n : Fin 128) :
    v39 a1 a3 a4 a5 a6 (ix2 b n) = (∑ c : Fin 64, v22 a1 a3 a4 (ix2 b c) * a5 (ix2 c n)) + a6 (ix1 n) := by
  unfold v39
  rw [addf_apply, bias_apply]
  refine congrArg (· + a6 (ix1 n)) ?_
  exact StackMember.dotGeneral_plain_apply (m := 16384) (k := 64) (n := 128) none (v22 a1 a3 a4) a5 b n

/-- First bottom layer. -/
theorem v40_apply (b : Fin 16384) (n : Fin 128) :
    v40 a1 a3 a4 a5 a6 (ix2 b n) = Cert.Dlrm.hidden (Cert.Dlrm.mkW a3 a4 a5 a6 a7 a8 a10 a11 a12) (a1 (ix1 b)) n := by
  unfold v40
  rw [maximumf_apply, zero_splat_apply, v39_apply]
  simp only [v22_apply a1 a3 a4 a5 a6 a7 a8 a10 a11 a12]
  rfl

/-- Second bottom layer before the ReLU. -/
theorem v44_apply (b : Fin 16384) (j : Fin 64) :
    v44 a1 a3 a4 a5 a6 a7 a8 (ix2 b j) = (∑ c : Fin 128, v40 a1 a3 a4 a5 a6 (ix2 b c) * a7 (ix2 c j)) + a8 (ix1 j) := by
  unfold v44
  rw [addf_apply, bias_apply]
  refine congrArg (· + a8 (ix1 j)) ?_
  exact StackMember.dotGeneral_plain_apply (m := 16384) (k := 128) (n := 64) none (v40 a1 a3 a4 a5 a6) a7 b j

/-- Second bottom layer. -/
theorem v45_apply (b : Fin 16384) (j : Fin 64) :
    v45 a1 a3 a4 a5 a6 a7 a8 (ix2 b j) = Cert.Dlrm.bottom (Cert.Dlrm.mkW a3 a4 a5 a6 a7 a8 a10 a11 a12) (a1 (ix1 b)) j := by
  unfold v45
  rw [maximumf_apply, zero_splat_apply, v44_apply]
  simp only [v40_apply a1 a3 a4 a5 a6 a7 a8 a10 a11 a12]
  rfl

/-! ## The stacked vectors, their Gram matrix, the picked pairs -/

/-- The 27 stacked vectors of batch row b: the 26 embedding vectors, then the dense vector. -/
theorem v24_apply (b : Fin 16384) (i : Fin 27) (d : Fin 64) :
    v24 a0 a1 a2 a3 a4 (ix3 b i d)
      = Cert.Dlrm.feat (Cert.Dlrm.mkW a3 a4 a5 a6 a7 a8 a10 a11 a12)
          (fun i d => a2 (ix3 i (Cert.Dlrm.rowR (a0 (ix2 i b))) d)) (a1 (ix1 b)) i d := by
  unfold v24 Cert.Dlrm.feat
  by_cases h : i.val < 26
  · rw [dif_pos h]
    refine (concatenate_pair_apply_left _ (v17 a0 a2) _ _ (ix3 b i d) rfl (ix3 b (⟨i.val, h⟩ : Fin 26) d) ?_).trans
      (v17_apply a0 a2 b ⟨i.val, h⟩ d)
    intro c
    match c with
    | ⟨0, _⟩ => rfl
    | ⟨1, _⟩ => rfl
    | ⟨2, _⟩ => rfl
  · rw [dif_neg h]
    refine (concatenate_pair_apply_right (s₂ := S16384x1x64) _ (v17 a0 a2) _ _ (ix3 b i d) rfl rfl (ix3 b (0 : Fin 1) d) ?_ ?_).trans ?_
    · intro c hc
      match c, hc with
      | ⟨0, _⟩, _ => rfl
      | ⟨1, _⟩, hc => exact absurd rfl hc
      | ⟨2, _⟩, _ => rfl
    · show 0 + 26 = i.val
      have := i.isLt
      omega
    · refine (broadcastInDim_apply _ _ _ (ix3 b (0 : Fin 1) d) (ix2 b d) ?_).trans
        (v22_apply a1 a3 a4 a5 a6 a7 a8 a10 a11 a12 b d)
      intro c
      match c with
      | ⟨0, _⟩ => rfl
      | ⟨1, _⟩ => rfl

/-- The Gram matrix of batch row b's stacked vectors. -/
theorem v25_apply (b : Fin 16384) (i j : Fin 27) :
    v25 a0 a1 a2 a3 a4 (ix3 b i j)
      = Cert.Dlrm.gram27 (Cert.Dlrm.mkW a3 a4 a5 a6 a7 a8 a10 a11 a12)
          (fun i d => a2 (ix3 i (Cert.Dlrm.rowR (a0 (ix2 i b))) d)) (a1 (ix1 b)) i j := by
  unfold v25 Cert.Dlrm.gram27
  refine (dot25_apply _ _ b i j).trans (Finset.sum_congr rfl fun c _ => ?_)
  rw [v24_apply a0 a1 a2 a3 a4 a5 a6 a7 a8 a10 a11 a12, v24_apply a0 a1 a2 a3 a4 a5 a6 a7 a8 a10 a11 a12]

/-- The pair list's first members: the wrap mask is all false, so each is the table's word … -/
theorem v28_apply (k : Fin 351) : v28 (ix1 k) = lit0 k := by
  have h : v28 (ix1 k) = Scalar.select 0#1 (IntOp.addi (c (ix1 k)) 27#32) (c (ix1 k)) := rfl
  rw [h, select_zero]
  exact congrArg lit0 (Fin.ext (Shape.rowMajor_val_one _))

/-- … and so are the second members. -/
theorem v31_apply (k : Fin 351) : v31 (ix1 k) = lit1 k := by
  have h : v31 (ix1 k) = Scalar.select 0#1 (IntOp.addi (c1 (ix1 k)) 27#32) (c1 (ix1 k)) := rfl
  rw [h, select_zero]
  exact congrArg lit1 (Fin.ext (Shape.rowMajor_val_one _))

/-- The start indices of the pair gather: first members in column 0 … -/
theorem v34_apply_zero (k : Fin 351) : v34 (ix2 k (0 : Fin 2)) = lit0 k := by
  unfold v34
  refine (concatenate_pair_apply_left (s₁ := S351x1) (s₂ := S351x1) _ _ _ _ (ix2 k (0 : Fin 2)) rfl (ix2 k (0 : Fin 1)) ?_).trans ?_
  · intro c
    match c with
    | ⟨0, _⟩ => rfl
    | ⟨1, _⟩ => rfl
  · refine (broadcastInDim_apply _ _ _ (ix2 k (0 : Fin 1)) (ix1 k) ?_).trans (v28_apply k)
    intro c
    match c with
    | ⟨0, _⟩ => rfl

/-- … second members in column 1. -/
theorem v34_apply_one (k : Fin 351) : v34 (ix2 k (1 : Fin 2)) = lit1 k := by
  unfold v34
  refine (concatenate_pair_apply_right (s₁ := S351x1) (s₂ := S351x1) _ _ _ _ (ix2 k (1 : Fin 2)) rfl rfl (ix2 k (0 : Fin 1)) ?_ rfl).trans ?_
  · intro c hc
    match c, hc with
    | ⟨0, _⟩, _ => rfl
    | ⟨1, _⟩, hc => exact absurd rfl hc
  · refine (broadcastInDim_apply _ _ _ (ix2 k (0 : Fin 1)) (ix1 k) ?_).trans (v31_apply k)
    intro c
    match c with
    | ⟨0, _⟩ => rfl

/-- The picked Gram entries: entry k is the Gram matrix at the k-th pair. -/
theorem v35_apply (b : Fin 16384) (k : Fin 351) :
    v35 a0 a1 a2 a3 a4 (ix2 b k)
      = Cert.Dlrm.gram27 (Cert.Dlrm.mkW a3 a4 a5 a6 a7 a8 a10 a11 a12)
          (fun i d => a2 (ix3 i (Cert.Dlrm.rowR (a0 (ix2 i b))) d)) (a1 (ix1 b))
          (Cert.Dlrm.Tables.iuR k) (Cert.Dlrm.Tables.juR k) := by
  show v25 a0 a1 a2 a3 a4 (G35.operandIdx (ix2 b k) v34) = _
  rw [g35_operandIdx]
  have e : (ix3 b (⟨min (v34 (ix2 k (0 : Fin 2))).toInt.toNat 26, by omega⟩ : Fin 27)
      (⟨min (v34 (ix2 k (1 : Fin 2))).toInt.toNat 26, by omega⟩ : Fin 27) : S16384x27x27.Idx)
      = ix3 b (Cert.Dlrm.Tables.iuR k) (Cert.Dlrm.Tables.juR k) := by
    funext c
    refine Fin.ext ?_
    match c with
    | ⟨0, _⟩ => rfl
    | ⟨1, _⟩ =>
      show min (v34 (ix2 k (0 : Fin 2))).toInt.toNat 26 = min (lit0 k).toInt.toNat 26
      rw [v34_apply_zero]
    | ⟨2, _⟩ =>
      show min (v34 (ix2 k (1 : Fin 2))).toInt.toNat 26 = min (lit1 k).toInt.toNat 26
      rw [v34_apply_one]
  rw [e]
  exact v25_apply a0 a1 a2 a3 a4 a5 a6 a7 a8 a10 a11 a12 b _ _

/-! ## The top layer and the result -/

/-- The 415 top inputs of batch row b: the picked Gram entries, then the bottom outputs. -/
theorem v46_apply (b : Fin 16384) (k : Fin 415) :
    v46 a0 a1 a2 a3 a4 a5 a6 a7 a8 (ix2 b k)
      = Cert.Dlrm.catR (Cert.Dlrm.mkW a3 a4 a5 a6 a7 a8 a10 a11 a12)
          (fun i d => a2 (ix3 i (Cert.Dlrm.rowR (a0 (ix2 i b))) d)) (a1 (ix1 b))
          Cert.Dlrm.Tables.iuR Cert.Dlrm.Tables.juR k := by
  unfold v46 Cert.Dlrm.catR
  by_cases h : k.val < 351
  · rw [dif_pos h]
    refine (concatenate_pair_apply_left _ (v35 a0 a1 a2 a3 a4) _ _ (ix2 b k) rfl (ix2 b (⟨k.val, h⟩ : Fin 351)) ?_).trans
      (v35_apply a0 a1 a2 a3 a4 a5 a6 a7 a8 a10 a11 a12 b ⟨k.val, h⟩)
    intro c
    match c with
    | ⟨0, _⟩ => rfl
    | ⟨1, _⟩ => rfl
  · rw [dif_neg h]
    refine (concatenate_pair_apply_right (s₂ := S16384x64) _ (v35 a0 a1 a2 a3 a4) _ _ (ix2 b k) rfl rfl
      (ix2 b (⟨k.val - 351, by omega⟩ : Fin 64)) ?_ ?_).trans
      (v45_apply a1 a3 a4 a5 a6 a7 a8 a10 a11 a12 b ⟨k.val - 351, by omega⟩)
    · intro c hc
      match c, hc with
      | ⟨0, _⟩, _ => rfl
      | ⟨1, _⟩, hc => exact absurd rfl hc
    · show (k.val - 351) + 351 = k.val
      omega

/-- The top layer before the ReLU. -/
theorem v50_apply (b : Fin 16384) (n : Fin 256) :
    v50 a0 a1 a2 a3 a4 a5 a6 a7 a8 a9 a10 (ix2 b n)
      = (∑ k : Fin 415, v46 a0 a1 a2 a3 a4 a5 a6 a7 a8 (ix2 b k) * a9 (ix2 k n)) + a10 (ix1 n) := by
  unfold v50
  rw [addf_apply, bias_apply]
  refine congrArg (· + a10 (ix1 n)) ?_
  exact StackMember.dotGeneral_plain_apply (m := 16384) (k := 415) (n := 256) none (v46 a0 a1 a2 a3 a4 a5 a6 a7 a8) a9 b n

/-- The top layer. -/
theorem v51_apply (b : Fin 16384) (n : Fin 256) :
    v51 a0 a1 a2 a3 a4 a5 a6 a7 a8 a9 a10 (ix2 b n)
      = Cert.Dlrm.topR (Cert.Dlrm.mkW a3 a4 a5 a6 a7 a8 a10 a11 a12)
          (fun i d => a2 (ix3 i (Cert.Dlrm.rowR (a0 (ix2 i b))) d)) (a1 (ix1 b))
          Cert.Dlrm.Tables.iuR Cert.Dlrm.Tables.juR (fun k n => a9 (ix2 k n)) n := by
  unfold v51
  rw [maximumf_apply, zero_splat_apply, v50_apply]
  simp only [v46_apply a0 a1 a2 a3 a4 a5 a6 a7 a8 a10 a11 a12]
  rfl

/-- The final linear map, as a one-column matrix. -/
theorem v55_apply (b : Fin 16384) (z : Fin 1) :
    v55 a0 a1 a2 a3 a4 a5 a6 a7 a8 a9 a10 a11 a12 (ix2 b z)
      = (∑ n : Fin 256, v51 a0 a1 a2 a3 a4 a5 a6 a7 a8 a9 a10 (ix2 b n) * a11 (ix2 n z)) + a12 (ix1 z) := by
  unfold v55
  rw [addf_apply, bias_apply]
  refine congrArg (· + a12 (ix1 z)) ?_
  exact StackMember.dotGeneral_plain_apply (m := 16384) (k := 256) (n := 1) none (v51 a0 a1 a2 a3 a4 a5 a6 a7 a8 a9 a10) a11 b z

/-- The result at batch row b is the reference's row output of that row's data. -/
theorem v56_apply (b : Fin 16384) :
    v56 a0 a1 a2 a3 a4 a5 a6 a7 a8 a9 a10 a11 a12 (ix1 b)
      = Cert.Dlrm.outR (Cert.Dlrm.mkW a3 a4 a5 a6 a7 a8 a10 a11 a12)
          (fun i d => a2 (ix3 i (Cert.Dlrm.rowR (a0 (ix2 i b))) d)) (a1 (ix1 b))
          Cert.Dlrm.Tables.iuR Cert.Dlrm.Tables.juR (fun k n => a9 (ix2 k n)) := by
  unfold v56
  refine (shapeCast_apply _ _ (ix1 b) (ix2 b (0 : Fin 1)) ?_).trans ?_
  · rw [Shape.rowMajor_val_two, Shape.rowMajor_val_one]
    show b.val * 1 + 0 = b.val
    omega
  · rw [v55_apply]
    simp only [v51_apply a0 a1 a2 a3 a4 a5 a6 a7 a8 a9 a10 a11 a12]
    rfl

end Stages

/-- The reference's composed term is the reference's row output, batch row by batch row. -/
theorem v56_eq (a0 : IVec S26x16384 32) (a1 : FVec Ideal S16384 .f32) (a2 : FVec Ideal S26x100000x64 .f32) (a3 : FVec Ideal S1x64 .f32)
    (a4 : FVec Ideal S64 .f32) (a5 : FVec Ideal S64x128 .f32) (a6 : FVec Ideal S128 .f32) (a7 : FVec Ideal S128x64 .f32)
    (a8 : FVec Ideal S64 .f32) (a9 : FVec Ideal S415x256 .f32) (a10 : FVec Ideal S256 .f32) (a11 : FVec Ideal S256x1 .f32)
    (a12 : FVec Ideal S1 .f32) :
    Cert.ReferenceIdeal.RefTerm.v56 (F := Ideal) a0 a1 a2 a3 a4 a5 a6 a7 a8 a9 a10 a11 a12
      = Cert.Dlrm.specR Cert.Dlrm.Tables.iuR Cert.Dlrm.Tables.juR a0 a1 a2 a3 a4 a5 a6 a7 a8 a9 a10 a11 a12 := by
  funext i
  obtain ⟨b, rfl⟩ : ∃ b : Fin 16384, i = ix1 b := ⟨i 0, eq_ix1 i⟩
  rw [v56_apply]
  rfl

end Cert.ReferenceIdeal.RefVal

end
-- ==== Proof.lean ====
/-
  The certificate of the DLRM forward kernel against its jnp reference, over the extended reals, for index words
  in range of the embedding tables (`0 ≤ x_cat < 100000`).

  Per batch row both programs compute one function of the row's 26 embedding vectors and its price
  (Proof/Spec.lean): the dense vector, two ReLU layers, the pairwise dot products of the 27 vectors, the top ReLU
  layer and a final linear map. The reference picks the 351 upper-triangular entries of the 27×27 Gram matrix and
  multiplies by the 415×256 top matrix; the kernel multiplies the flat 26×26 Gram matrix by a 676×256 matrix into
  which the rows of the top matrix for the embedding–embedding pairs were scattered (zero elsewhere), the 26
  embedding–dense products by the 26 rows for those pairs, and the bottom outputs by the last 64 rows. The two are
  one sum, re-indexed (Proof/Algebra.lean over the tables' facts, Proof/Tables.lean); no finiteness is used: only
  commutativity and associativity of + and · on the extended reals and 0 · x = 0.

  The kernel clips each index word to the table's row range before the gather; the reference wraps a negative word
  around. Under the precondition neither does anything (Proof/PreDecode.lean) and both read row x.

  The kernel program's value is read off its frame run block by block (Proof/KPay.lean, Proof/KRun.lean) over what
  its host operations leave in the windows' arrays (Proof/KHostA.lean, Proof/KHostB.lean); the reference's run is
  Proof/RefRun.lean over the composed term of Proof/RefTerm.lean, read at a row in Proof/RefVal.lean.
-/
import proofs.«419748_j21122649161846_3_alg».proof.Defs
import proofs.«419748_j21122649161846_3_alg».proof.Proof.Gen.Kernel
import proofs.«419748_j21122649161846_3_alg».proof.Proof.Gen.Kernel.Frame
import proofs.«419748_j21122649161846_3_alg».proof.Proof.Gen.KernelIdeal
import proofs.«419748_j21122649161846_3_alg».proof.Proof.Gen.KernelIdeal.Frame
import proofs.«419748_j21122649161846_3_alg».proof.Proof.Gen.ReferenceIdeal
import proofs.«419748_j21122649161846_3_alg».proof.Proof.Gen.Pre_finite_inputs
import proofs.«419748_j21122649161846_3_alg».proof.Proof.KVal
import proofs.«419748_j21122649161846_3_alg».proof.Proof.KHostB
import proofs.«419748_j21122649161846_3_alg».proof.Proof.Algebra
import proofs.«419748_j21122649161846_3_alg».proof.Proof.PreDecode
import proofs.«419748_j21122649161846_3_alg».proof.Proof.RefRun
import proofs.«419748_j21122649161846_3_alg».proof.Proof.RefVal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2) (Cert.ReferenceIdeal.RefRun.run m ρ)

/-- Under the precondition the kernel's result array is the reference's function of the argument arrays: row by row,
    the same table rows are read and the two arrangements of the top layer agree. -/
theorem specK_eq_specR (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Dlrm.specK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (Cert.KernelIdeal.KVal.kWee m c) (Cert.KernelIdeal.KVal.kWed m c)
      = Cert.Dlrm.specR Cert.Dlrm.Tables.iuR Cert.Dlrm.Tables.juR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  unfold Cert.Dlrm.specK Cert.Dlrm.specR
  refine congrArg Cert.Dlrm.ofRow (funext fun b => ?_)
  have hrow : ∀ i : Fin 26, Cert.Dlrm.rowK (m ((c.tc : Thread Cert.KernelIdeal.nD Cert.KernelIdeal.τ).loc Cert.KernelIdeal.main_arg0) (ix2 i b))
      = Cert.Dlrm.rowR (m ((c.tc : Thread Cert.KernelIdeal.nD Cert.KernelIdeal.τ).loc Cert.KernelIdeal.main_arg0) (ix2 i b)) := fun i =>
    Cert.Dlrm.PreDecode.rowK_eq_rowR _ (Cert.Dlrm.PreDecode.idx_ok _ _ _ _ _ _ _ _ _ _ _ _ _ (hpre c) (ix2 i b)).1
      (Cert.Dlrm.PreDecode.idx_ok _ _ _ _ _ _ _ _ _ _ _ _ _ (hpre c) (ix2 i b)).2
  simp only [hrow]
  exact Cert.Dlrm.outK_eq_outR _ _ _ _ _ _ _
    (fun k n => Cert.KernelIdeal.KVal.kWee_hit m c k n) (fun q n h => Cert.KernelIdeal.KVal.kWee_miss m c q n h)
    (fun i n => Cert.KernelIdeal.KVal.kWed_eq m c i n) (fun _ _ => rfl)

theorem algebraic : Cert.algebraic_KernelIdeal_ReferenceIdeal := by
  intro m ρ m' ρ' hpre hagree
  refine ⟨fun c => Cert.Dlrm.specR Cert.Dlrm.Tables.iuR Cert.Dlrm.Tables.juR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run (Cert.KernelIdeal.defs (F := Ideal)) _ _).mono
      (fun _ h c => ⟨(h c).1.trans (specK_eq_specR m hpre c), (h c).2⟩) (Cert.KernelIdeal.KVal.run m ρ)
  · refine (θ_run (Cert.ReferenceIdeal.defs (F := Ideal)) _ _).mono (fun _ h c => ⟨(h c).1.trans ?_, (h c).2⟩)
      (Cert.ReferenceIdeal.RefRun.run m' ρ')
    rw [Cert.ReferenceIdeal.RefVal.v56_eq]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
